-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S1024x16x64 : Shape := ⟨3, ![1024, 16, 64]⟩
abbrev S16x1024x64 : Shape := ⟨3, ![16, 1024, 64]⟩
abbrev S1x1x1024x64 : Shape := ⟨4, ![1, 1, 1024, 64]⟩
abbrev S1x1x2048x64 : Shape := ⟨4, ![1, 1, 2048, 64]⟩
abbrev S1x1024x1024 : Shape := ⟨3, ![1, 1024, 1024]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S1x1024x64 : Shape := ⟨3, ![1, 1024, 64]⟩

abbrev nBuf : Space → Nat
  | .hbm => 20
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S4096x1024, .f32⟩
  | .hbm, ⟨4, _⟩ => ⟨S3072x1024, .bf16⟩
  | .hbm, ⟨5, _⟩ => ⟨S4096x3072, .bf16⟩
  | .hbm, ⟨6, _⟩ => ⟨S2x2048x3072, .bf16⟩
  | .hbm, ⟨7, _⟩ => ⟨S2x2048x1024, .bf16⟩
  | .hbm, ⟨8, _⟩ => ⟨S2x2048x1024, .bf16⟩
  | .hbm, ⟨9, _⟩ => ⟨S2x2048x1024, .bf16⟩
  | .hbm, ⟨10, _⟩ => ⟨S2x2048x16x64, .bf16⟩
  | .hbm, ⟨11, _⟩ => ⟨S2x16x2048x64, .bf16⟩
  | .hbm, ⟨12, _⟩ => ⟨S2x2048x16x64, .bf16⟩
  | .hbm, ⟨13, _⟩ => ⟨S2x16x2048x64, .bf16⟩
  | .hbm, ⟨14, _⟩ => ⟨S2x2048x16x64, .bf16⟩
  | .hbm, ⟨15, _⟩ => ⟨S2x16x2048x64, .bf16⟩
  | .hbm, ⟨16, _⟩ => ⟨S1024x16x64, .f32⟩
  | .hbm, ⟨17, _⟩ => ⟨S16x1024x64, .f32⟩
  | .hbm, ⟨18, _⟩ => ⟨S16x1024x64, .bf16⟩
  | .hbm, ⟨19, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S1x1x1024x64, .bf16⟩
  | .local _ .vmem, ⟨6, _⟩ => ⟨S1x1x1024x64, .bf16⟩
  | .local _ .vmem, ⟨7, _⟩ => ⟨S1x1x2048x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S16x1024x64, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 2, 16], ![false, false, false]⟩

def k1_off1 (i : grid1.Coords) : Fin 3 → Nat :=
  let arg2 : BitVec 32 := BitVec.ofNat 32 (i 2).val
  let v26 : Index := Scalar.indexCast arg2
  let c0_17 : Index := 0#32
  let c0_18 : Index := 0#32
  ![v26.toNat, 0, 0]
def k1_cond2 (i : grid1.Coords) : BitVec 1 :=
  let arg2 : BitVec 32 := BitVec.ofNat 32 (i 2).val
  let c15_i32 : BitVec 32 := 15#32
  let v35 : BitVec 1 := Scalar.cmpi .eq arg2 c15_i32
  let v36 : BitVec 32 := Scalar.extui v35
  let c0_i32_24 : BitVec 32 := 0#32
  let v37 : BitVec 1 := Scalar.cmpi .ne v36 c0_i32_24
  v37

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S16x1024x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S2x2048x1024_S4096x1024 : S2x2048x1024.ShapeCasts S4096x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3072 : S4096x3072.ShapeCasts S2x2048x3072
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S1024x1024_S1024x16x64 : S1024x1024.ShapeCasts S1024x16x64
  transposes_S1024x16x64_S16x1024x64_1_0_2 : S1024x16x64.Transposes [1, 0, 2] S16x1024x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  h_S1x1024x64 : 0 < S1x1024x64.numel
  shapeCasts_S1x1024x64_S1024x64 : S1x1024x64.ShapeCasts S1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S3072x1024_S512x3072_1_1_0_0_n_n_wf : DotDims.WF S512x1024 S3072x1024 S512x3072 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .bf16 = 32 ∨ (Rect.block (s := S4096x3072) S512x3072.size (cc0_transform_2 i) (hinb0_2 i)).WholeWords (EltTy.packing .bf16)
  hrank1 : 0 < grid1.rank
  k1_off1_inb : ∀ i : grid1.Coords, ∀ a, (k1_off1 i) a + S1x1024x64.size a ≤ S16x1024x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S2x16x2048x64.size a
  hwx1_0 : ∀ i : grid1.Coords, EltTy.bits .bf16 = 32 ∨ (Rect.block (s := S2x16x2048x64) S1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1024x64.size a ≤ S16x1024x64.size a
  hwx1_3 : ∀ i : grid1.Coords, EltTy.bits .bf16 = 32 ∨ (Rect.block (s := S16x1024x64) S16x1024x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S2x2048x1024.size a
  hwx1_4 : ∀ i : grid1.Coords, EltTy.bits .f32 = 32 ∨ (Rect.block (s := S2x2048x1024) S1x1024x1024.size (cc1_transform_4 i) (hinb1_4 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S16x1024x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.FrB.Proj.lean ====
/-
  The projection launch: a grid of 8 points, point t taking rows 512 t … 512 t + 511 of the [4096, 1024] input and
  the whole [3072, 1024] weight, and leaving the [512, 3072] block of their product (contracted over the 1024
  features) in its output window.  What each window's buffer holds after the body at a point, the body's run on
  whole staging buffers, and the launch's proof data over the class invariant (the scoped rest and the generator
  register pass through untouched).
-/
import proofs.«415323_j1580547966014_3_alg».proof.Proof.Gen.Kernel.Launch
import proofs.«415323_j1580547966014_3_alg».proof.Proof.Gen.Kernel.Skeleton
import proofs.«415323_j1580547966014_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the launch is entered
variable (V : (c : Dev nD) → (b : Ref sig .tc) → Buf (Elt F) ((c : Thread nD τ).loc b))

/-- Window w's block at point t, read off its array as the launch finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [512, 1024] input block, the whole [3072, 1024] weight, the whole [512, 3072] output block. -/
abbrev rProjX : Rect S512x1024 := Rect.unit (s := S512x1024) ![0, 0] S512x1024.size inb_S512x1024_S512x1024_0_0
abbrev rProjW : Rect S3072x1024 := Rect.unit (s := S3072x1024) ![0, 0] S3072x1024.size inb_S3072x1024_S3072x1024_0_0
abbrev rProjO : Rect S512x3072 := Rect.unit (s := S512x3072) ![0, 0] S512x3072.size inb_S512x3072_S512x3072_0_0

/-- The output window's buffer after the body: its one store, the product of the two loaded blocks. -/
def projOut (x0 : Vec F S512x1024 .f32) (x1 : Vec F S3072x1024 .bf16) : Vec F S512x3072 .bf16 :=
  View.canon [⟨rProjO, k0_pay1 (View.ld x0 rProjX) (View.ld x1 rProjW)⟩]

/-- The launch's proof data on core c: the arrays as the launch finds them; after the body at point t the inputs'
    buffers at their blocks and the output's at the product; the class invariant; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projDat_A (c : Dev nD) (w : Fin cfg0.W) : (projDat V c).A w = V c (Pipeline.arrRef spec0 w) := by
  dsimp only [projDat]
theorem projAfter_0 (c : Dev nD) (t : Fin cfg0.N) : (projDat V c).after 0 t = projBlk V c 0 t := by dsimp only [projDat]
theorem projAfter_1 (c : Dev nD) (t : Fin cfg0.N) : (projDat V c).after 1 t = projBlk V c 1 t := by dsimp only [projDat]
theorem projAfter_2 (c : Dev nD) (t : Fin cfg0.N) :
    (projDat V c).after 2 t = projOut (projBlk V c 0 t) (projBlk V c 1 t) := by dsimp only [projDat]

/-! ## The store covers the output buffer -/

/-- The body's one store is of the whole [512, 3072] rectangle, so every index of the output buffer lies in it. -/
theorem projCover (p0 : Vec F S512x3072 .bf16) (y : S512x3072.Idx) :
    ∃ pc ∈ ([⟨rProjO, p0⟩] : List (View.Piece (Elt F) S512x3072 .bf16)), y ∈ pc.1.set :=
  View.cover_of_tiled [⟨rProjO, p0⟩] S512x3072.size (by rfl) y

/-! ## The body on whole staging buffers -/

set_option maxHeartbeats 1000000 in
/-- The body on three whole buffers, the inputs' holding x0 and x1 and the output's holding anything: it reads the two
    inputs whole, reads the output buffer (a value it never uses), and stores the product over the whole output
    buffer; the inputs' buffers are left as they were and the output's holds `projOut x0 x1`. -/
theorem projKernel (c : Dev nD) (E : Set ℕ) (i : grid0.Coords)
    (arg1 : Memref sig .tc .vmem S512x1024 .f32) (harg1 : arg1.IsWhole)
    (arg2 : Memref sig .tc .vmem S3072x1024 .bf16) (harg2 : arg2.IsWhole)
    (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (projOut x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## What the input windows' buffers hold when the body is entered -/

/-- The input block's current staging buffer holds the block of rows of point t, whatever it held at first. -/
theorem projBefore_0 (c : Dev nD) (t : Fin cfg0.N) (d) : (projDat V c).before 0 t d = projBlk V c 0 t :=
  ((projDat V c).before_in_eq_fetched 0 rfl (fun _ => rfl) (fun _ _ _ => rfl)
      (fun t => by rw [projAfter_0]; unfold Dat.blockOf projBlk; rw [projDat_A]; try rfl) t d).trans
    (by unfold Dat.fetched Dat.blockOf projBlk; rw [projDat_A]; try rfl)

/-- The weight's staging buffer holds the whole weight at every point: fetched at the first, left in place after. -/
theorem projBefore_1 (c : Dev nD) (t : Fin cfg0.N) (d) : (projDat V c).before 1 t d = projBlk V c 1 t :=
  ((projDat V c).before_in_eq_fetched 1 rfl (fun _ => rfl) (fun _ _ _ => rfl)
      (fun t => by rw [projAfter_1]; unfold Dat.blockOf projBlk; rw [projDat_A]; try rfl) t d).trans
    (by unfold Dat.fetched Dat.blockOf projBlk; rw [projDat_A]; try rfl)

/-! ## The body at a point of the grid -/

/-- What the body is entered with at point t: the invariant, what the core owes, and each window's current staging
    buffer, the inputs' at their blocks and the output's at whatever the pipeline left there. -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- What it leaves: the invariant and the debt unchanged, each buffer at the proof data's `after`. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at point t: the inputs' buffers hold their blocks, so the body's run on whole buffers applies; the
    invariant and the debt are not touched. -/
theorem projSoundBody (c : Dev nD) (t : Fin cfg0.N) :
    projPre V c t ⊢ wp frame (wpE (defs₀ (F := F)) Variants.none c none) Set.univ (bodyAt0 t) (fun _ => projPost V c t) := by
  unfold projPre projPost bodyAt0
  simp only [projBefore_0, projBefore_1]
  rw [show (projDat V c).Φ t.succ = (projDat V c).Φ t.castSucc from rfl,
    show (projDat V c).owesAt () t.succ = (projDat V c).owesAt () t.castSucc from rfl,
    projAfter_0, projAfter_1, projAfter_2]
  iintro ⟨HΦ, Ho, ⟨%d0, H0⟩, ⟨%d1, H1⟩, ⟨%d2, H2⟩⟩
  iapply (projKernel c Set.univ (grid0.coords t) _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection launch at every point. -/
theorem projBody (c : Dev nD) : BodyObligation (projDat (F := F) V c) (defs₀ (F := F)) Variants.none () Set.univ := fun t => by
  rw [bigSep_W0, bigSep_W0]
  exact projSoundBody V c t

end Cert.Kernel.Fr

end
-- ==== Proof.FrB.AttnShared.lean ====
/-
  The attention launch: a grid of 2 × 2 × 16 points (batch, query half, head; the head runs fastest), point t
  taking the head's [1024, 64] query block, its whole [2048, 64] key and value blocks and the whole [16, 1024, 64]
  output weight, and adding the head's contribution to the output projection into a [1024, 1024] accumulator the
  kernel keeps between points: reset at a head 0, written out to the [1, 1024, 1024] output window at head 15.
  What the runs of its body share: the windows' blocks, the two conditions on the head in closed form, where the
  output window is idle, the staging and accumulator buffers, the class invariant spelt out.
-/
import proofs.«415323_j1580547966014_3_alg».proof.Proof.Gen.Kernel.Launch
import proofs.«415323_j1580547966014_3_alg».proof.Proof.Gen.Kernel.Skeleton
import proofs.«415323_j1580547966014_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the launch is entered
variable (V : (c : Dev nD) → (b : Ref sig .tc) → Buf (Elt F) ((c : Thread nD τ).loc b))

/-- Window w's block at point t, read off its array as the launch finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place. -/
theorem attnBefore_0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore_1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore_2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore_3_of {c : Dev nD} (dat : Dat τ (Elt F) Unit ℕ (UR sig nD τ) ℕ cfg1 c) (hA : dat.A 3 = V c (Pipeline.arrRef spec1 3))
    (hafter : ∀ t, dat.after 3 t = attnBlk V c 3 t) (t : Fin cfg1.N) (d) : dat.before 3 t d = attnBlk V c 3 t :=
  (dat.before_in_eq_fetched 3 rfl (fun _ => rfl) (fun _ _ _ => rfl) (fun t => by rw [hafter]; unfold Dat.blockOf attnBlk; rw [hA]; try rfl) t d).trans
    (by unfold Dat.fetched Dat.blockOf attnBlk; rw [hA]; try rfl)

/-! ## The two conditions on the head -/

/-- "This is head 0": the accumulator is reset. -/
abbrev isFirstHead (i : grid1.Coords) : Prop := (Scalar.cmpi .ne (Scalar.extui (Scalar.cmpi .eq (BitVec.ofNat 32 (i 2).val) 0#32)) 0#32) = 1#1
/-- It holds at the points ≡ 0 (mod 16). -/
theorem isFirstHead_iff : ∀ t : Fin cfg1.N, isFirstHead (grid1.coords t) ↔ t.val % 16 = 0 :=
  (by decide +kernel : ∀ t : Fin grid1.N, isFirstHead (grid1.coords t) ↔ t.val % 16 = 0)

/-- "This is head 15": the accumulator is written out. -/
abbrev isLastHead (i : grid1.Coords) : Prop := k1_cond2 i = 1#1
/-- It holds at the points ≡ 15 (mod 16). -/
theorem isLastHead_iff : ∀ t : Fin cfg1.N, isLastHead (grid1.coords t) ↔ t.val % 16 = 15 :=
  (by decide +kernel : ∀ t : Fin grid1.N, isLastHead (grid1.coords t) ↔ t.val % 16 = 15)

/-! ## Where the windows are idle -/

theorem attnLive_0 : ∀ t : Fin cfg1.N, cfg1.idle 0 (grid1.coords t) = false := by decide +kernel
theorem attnLive_1 : ∀ t : Fin cfg1.N, cfg1.idle 1 (grid1.coords t) = false := by decide +kernel
theorem attnLive_2 : ∀ t : Fin cfg1.N, cfg1.idle 2 (grid1.coords t) = false := by decide +kernel
theorem attnLive_3 : ∀ t : Fin cfg1.N, cfg1.idle 3 (grid1.coords t) = false := by decide +kernel
/-- Away from head 15 the output window is idle (nothing is stored into it) and not written back. -/
theorem attnIdle_4 : ∀ t : Fin cfg1.N, ¬isLastHead (grid1.coords t) → cfg1.idle 4 (grid1.coords t) = true := by decide +kernel
theorem attnNoFlush_4 : ∀ t : Fin cfg1.N, ¬isLastHead (grid1.coords t) → (cfg1.win 4).flush t = false := by decide +kernel
/-- At head 15 it is live. -/
theorem attnLive_4 : ∀ t : Fin cfg1.N, isLastHead (grid1.coords t) → cfg1.idle 4 (grid1.coords t) = false := by decide +kernel

/-! ## The buffers the body is run on -/

/-- One staging buffer of the output window, through which its contents are stated. -/
abbrev outView : View sig .tc .vmem S1x1024x1024 .f32 := (Memref.whole cc1_stg4_0 : Memref sig .tc .vmem S1x1024x1024 .f32).view
/-- Each window's current staging memref at point t, and its wholeness. -/
abbrev ms1_0 (t : Fin cfg1.N) : Memref sig .tc .vmem S1x1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1024x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev accM : Memref sig .tc .vmem S1024x1024 .f32 := Memref.whole cc1_scratch0
/-- The accumulator as a view: what it holds is stated through it. -/
abbrev accView : View sig .tc .vmem S1024x1024 .f32 := accM.view

/-- A scoped buffer of the other launch, at some contents: the attention body never touches it. -/
abbrev someAt (c : Dev nD) (b : Ref sig .tc) : sProp 𝕄 :=
  iprop(∃ f : Buf (Elt F) ((c : Thread nD τ).loc b), ((c : Thread nD τ).loc b) ↦{fullShare} f)

/-- The class invariant spelt out: the other launch's five staging buffers at some contents each, the accumulator as a
    memref owned at some contents, the generator register at some state. -/
theorem attnPhiA_eq (c : Dev nD) :
    (Pipeline.ΦA spec1 c : sProp 𝕄)
      = iprop((someAt c cc0_stg0_0 ∗ someAt c cc0_stg0_1 ∗ someAt c cc0_stg1_0 ∗ someAt c cc0_stg2_0 ∗ someAt c cc0_stg2_1
          ∗ (∃ d, owns (c : Thread nD τ) accM fullShare d)) ∗ (∃ r, prngReg c r)) := by
  unfold Pipeline.ΦA; rw [scopedRest1_eq]; simp only [accM, owns_whole]; try rfl

end Cert.Kernel.Fr

end
-- ==== Proof.FrB.AttnRunA.lean ====
/-
  The attention body at a head 0 that is not head 15: the accumulator, found at anything, is reset and then takes the head's contribution; nothing is stored into the output window, handed back as found.  The run is on whole staging buffers, the four inputs' at their contents and handed
  back as they were; what the stores leave in the accumulator is the list of pieces the run finds.
-/
import proofs.«415323_j1580547966014_3_alg».proof.Proof.FrB.AttnShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def attnRun_A (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : isFirstHead i) (hc1 : ¬isLastHead i)
    (x0 : Vec F S1x1x1024x64 .bf16) (x1 : Vec F S1x1x2048x64 .bf16) (x2 : Vec F S1x1x2048x64 .bf16) (x3 : Vec F S16x1024x64 .bf16) :
    Σ' (L4 : List (View.Piece (Elt F) S1x1024x1024 .f32)), { LS0 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8) K } := by
  refine ⟨[], ?_, fun xi4 E K => ?run⟩
  case run =>
    simp only [cc1__attn_outproj_kernel_eq_skeleton]; unfold cc1__attn_outproj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.FrB.AttnRunB.lean ====
/-
  The attention body at a head that is neither 0 nor 15: the accumulator, found at what the point before left, takes the head's contribution; nothing is stored into the output window, handed back as found.  The run is on whole staging buffers, the four inputs' at their contents and handed
  back as they were; what the stores leave in the accumulator is the list of pieces the run finds.
-/
import proofs.«415323_j1580547966014_3_alg».proof.Proof.FrB.AttnRunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def attnRun_B (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : ¬isLastHead i)
    (x0 : Vec F S1x1x1024x64 .bf16) (x1 : Vec F S1x1x2048x64 .bf16) (x2 : Vec F S1x1x2048x64 .bf16) (x3 : Vec F S16x1024x64 .bf16) (xs0 : Vec F S1024x1024 .f32) :
    Σ' (L4 : List (View.Piece (Elt F) S1x1024x1024 .f32)), { LS0 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8) K } := by
  refine ⟨[], ?_, fun xi4 E K => ?run⟩
  case run =>
    simp only [cc1__attn_outproj_kernel_eq_skeleton]; unfold cc1__attn_outproj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.FrB.AttnRunC.lean ====
/-
  The attention body at head 15: the accumulator, found at what the point before left, takes the head's contribution and is then stored whole into the output window.  The run is on whole staging buffers, the four inputs' at their contents and handed
  back as they were; what the stores leave in the accumulator and in the output window is the list of pieces the run finds.
-/
import proofs.«415323_j1580547966014_3_alg».proof.Proof.FrB.AttnRunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def attnRun_C (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) :
    Σ' (L4 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8) K } := by
  refine ⟨?_, ?_, fun E K => ?run⟩
  case run =>
    simp only [cc1__attn_outproj_kernel_eq_skeleton]; unfold cc1__attn_outproj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.FrB.Attn.lean ====
/-
  The attention launch, point by point.  Per case of the two conditions on the head — head 0 (the accumulator is
  reset, then takes the head's contribution), a head strictly between (it takes the contribution over what the point
  before left), head 15 (the same, and the sum is stored into the output window) — what the body leaves in the
  accumulator and in the output window's buffer; then, by recursion on the point, what both hold after every point;
  the launch's proof data over an invariant that keeps the accumulator's contents between points; and the body
  obligation at every point.
-/
import proofs.«415323_j1580547966014_3_alg».proof.Proof.FrB.AttnRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the launch is entered
variable (V : (c : Dev nD) → (b : Ref sig .tc) → Buf (Elt F) ((c : Thread nD τ).loc b))

/-! ## What each case leaves -/

/-- Head 0: the accumulator's pieces cover it. -/
theorem accCover_A (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : isFirstHead i) (hc1 : ¬isLastHead i)
    (x0 : Vec F S1x1x1024x64 .bf16) (x1 : Vec F S1x1x2048x64 .bf16) (x2 : Vec F S1x1x2048x64 .bf16) (x3 : Vec F S16x1024x64 .bf16) (y : S1024x1024.Idx) :
    ∃ pc ∈ (attnRun_A c i arg3 harg3 arg4 harg4 arg5 harg5 arg6 harg6 arg7 harg7 arg8 harg8 hc0 hc1 x0 x1 x2 x3).2.1, y ∈ pc.1.set :=
  View.cover_of_tiledL (attnRun_A c i arg3 harg3 arg4 harg4 arg5 harg5 arg6 harg6 arg7 harg7 arg8 harg8 hc0 hc1 x0 x1 x2 x3).2.1 S1024x1024.size (by sl_kernel_rfl) y
/-- Head 0: what the accumulator holds afterwards. -/
def accOut_A (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : isFirstHead i) (hc1 : ¬isLastHead i)
    (x0 : Vec F S1x1x1024x64 .bf16) (x1 : Vec F S1x1x2048x64 .bf16) (x2 : Vec F S1x1x2048x64 .bf16) (x3 : Vec F S16x1024x64 .bf16) : Vec F S1024x1024 .f32 :=
  accView.read (Elt F) (accView.writes (Elt F) accView.junk (attnRun_A c i arg3 harg3 arg4 harg4 arg5 harg5 arg6 harg6 arg7 harg7 arg8 harg8 hc0 hc1 x0 x1 x2 x3).2.1)

/-- A head strictly between: the accumulator's pieces cover it. -/
theorem accCover_B (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : ¬isLastHead i)
    (x0 : Vec F S1x1x1024x64 .bf16) (x1 : Vec F S1x1x2048x64 .bf16) (x2 : Vec F S1x1x2048x64 .bf16) (x3 : Vec F S16x1024x64 .bf16) (xs0 : Vec F S1024x1024 .f32) (y : S1024x1024.Idx) :
    ∃ pc ∈ (attnRun_B c i arg3 harg3 arg4 harg4 arg5 harg5 arg6 harg6 arg7 harg7 arg8 harg8 hc0 hc1 x0 x1 x2 x3 xs0).2.1, y ∈ pc.1.set :=
  View.cover_of_tiledL (attnRun_B c i arg3 harg3 arg4 harg4 arg5 harg5 arg6 harg6 arg7 harg7 arg8 harg8 hc0 hc1 x0 x1 x2 x3 xs0).2.1 S1024x1024.size (by sl_kernel_rfl) y
/-- A head strictly between: what the accumulator holds afterwards. -/
def accOut_B (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : ¬isLastHead i)
    (x0 : Vec F S1x1x1024x64 .bf16) (x1 : Vec F S1x1x2048x64 .bf16) (x2 : Vec F S1x1x2048x64 .bf16) (x3 : Vec F S16x1024x64 .bf16) (xs0 : Vec F S1024x1024 .f32) : Vec F S1024x1024 .f32 :=
  accView.read (Elt F) (accView.writes (Elt F) accView.junk (attnRun_B c i arg3 harg3 arg4 harg4 arg5 harg5 arg6 harg6 arg7 harg7 arg8 harg8 hc0 hc1 x0 x1 x2 x3 xs0).2.1)

/-- Head 15: the accumulator's pieces cover it, and so do the output window's. -/
theorem accCover_C (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) (y : S1024x1024.Idx) :
    ∃ pc ∈ (attnRun_C c i arg3 harg3 arg4 harg4 arg5 harg5 arg6 harg6 arg7 harg7 arg8 harg8 hc0 hc1 x0 x1 x2 x3 xs0).2.1, y ∈ pc.1.set :=
  View.cover_of_tiledL (attnRun_C c i arg3 harg3 arg4 harg4 arg5 harg5 arg6 harg6 arg7 harg7 arg8 harg8 hc0 hc1 x0 x1 x2 x3 xs0).2.1 S1024x1024.size (by sl_kernel_rfl) y
theorem outCover_C (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) (y : S1x1024x1024.Idx) :
    ∃ pc ∈ (attnRun_C c i arg3 harg3 arg4 harg4 arg5 harg5 arg6 harg6 arg7 harg7 arg8 harg8 hc0 hc1 x0 x1 x2 x3 xs0).1, y ∈ pc.1.set :=
  View.cover_of_tiledL (attnRun_C c i arg3 harg3 arg4 harg4 arg5 harg5 arg6 harg6 arg7 harg7 arg8 harg8 hc0 hc1 x0 x1 x2 x3 xs0).1 S1x1024x1024.size (by sl_kernel_rfl) y
/-- Head 15: what the accumulator holds afterwards, -/
def accOut_C (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) : Vec F S1024x1024 .f32 :=
  accView.read (Elt F) (accView.writes (Elt F) accView.junk (attnRun_C c i arg3 harg3 arg4 harg4 arg5 harg5 arg6 harg6 arg7 harg7 arg8 harg8 hc0 hc1 x0 x1 x2 x3 xs0).2.1)
/-- and what the output window's buffer holds. -/
def winOut_C (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) : Vec F S1x1024x1024 .f32 :=
  outView.read (Elt F) (outView.writes (Elt F) outView.junk (attnRun_C c i arg3 harg3 arg4 harg4 arg5 harg5 arg6 harg6 arg7 harg7 arg8 harg8 hc0 hc1 x0 x1 x2 x3 xs0).1)

/-- Away from head 15 nothing is stored into the output window: a placeholder nothing consults (the window is neither
    written back there nor read at the next point). -/
def winIdle : Vec F S1x1024x1024 .f32 := outView.read (Elt F) (outView.writes (Elt F) outView.junk [])

/-! ## What the output window's buffer and the accumulator hold after each point -/

/-- THE ACCUMULATION: after the body at position n, the output window's buffer and the accumulator — the case the
    closed forms select at n, run at the point's buffers and input blocks, the accumulator taken at what position
    n - 1 left (no case both resets and writes out: 16 heads). -/
def attnOuts (c : Dev nD) : (n : ℕ) → n < cfg1.N → Vec F S1x1024x1024 .f32 × Vec F S1024x1024 .f32
  | 0, hn => (winIdle, accOut_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) accM (Memref.isWhole_whole _) ((isFirstHead_iff ⟨0, hn⟩).mpr (Nat.zero_mod _)) (fun h => (fun h => by (try dsimp only at h); omega) ((isLastHead_iff ⟨0, hn⟩).mp h)) (attnBlk V c 0 ⟨0, hn⟩) (attnBlk V c 1 ⟨0, hn⟩) (attnBlk V c 2 ⟨0, hn⟩) (attnBlk V c 3 ⟨0, hn⟩))
  | n + 1, hn =>
    if h0 : (n + 1) % 16 = 0 then
      if h1 : (n + 1) % 16 = 15 then
        False.elim (by omega)
      else
        (winIdle, accOut_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) ((isFirstHead_iff ⟨n + 1, hn⟩).mpr h0) (fun h => h1 ((isLastHead_iff ⟨n + 1, hn⟩).mp h)) (attnBlk V c 0 ⟨n + 1, hn⟩) (attnBlk V c 1 ⟨n + 1, hn⟩) (attnBlk V c 2 ⟨n + 1, hn⟩) (attnBlk V c 3 ⟨n + 1, hn⟩))
    else
      if h1 : (n + 1) % 16 = 15 then
        (winOut_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirstHead_iff ⟨n + 1, hn⟩).mp h)) ((isLastHead_iff ⟨n + 1, hn⟩).mpr h1) (attnBlk V c 0 ⟨n + 1, hn⟩) (attnBlk V c 1 ⟨n + 1, hn⟩) (attnBlk V c 2 ⟨n + 1, hn⟩) (attnBlk V c 3 ⟨n + 1, hn⟩) (attnOuts c n (Nat.lt_of_succ_lt hn)).2,
         accOut_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirstHead_iff ⟨n + 1, hn⟩).mp h)) ((isLastHead_iff ⟨n + 1, hn⟩).mpr h1) (attnBlk V c 0 ⟨n + 1, hn⟩) (attnBlk V c 1 ⟨n + 1, hn⟩) (attnBlk V c 2 ⟨n + 1, hn⟩) (attnBlk V c 3 ⟨n + 1, hn⟩) (attnOuts c n (Nat.lt_of_succ_lt hn)).2)
      else
        (winIdle, accOut_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirstHead_iff ⟨n + 1, hn⟩).mp h)) (fun h => h1 ((isLastHead_iff ⟨n + 1, hn⟩).mp h)) (attnBlk V c 0 ⟨n + 1, hn⟩) (attnBlk V c 1 ⟨n + 1, hn⟩) (attnBlk V c 2 ⟨n + 1, hn⟩) (attnBlk V c 3 ⟨n + 1, hn⟩) (attnOuts c n (Nat.lt_of_succ_lt hn)).2)

/-- attnOuts at a point of head 0. -/
theorem attnOuts_A (c : Dev nD) (t : Fin cfg1.N) (h0 : t.val % 16 = 0) (h1 : ¬t.val % 16 = 15) :
    attnOuts V c t.val t.isLt = (winIdle, accOut_A c (grid1.coords t) (ms1_0 t) (hs1_0 t) (ms1_1 t) (hs1_1 t) (ms1_2 t) (hs1_2 t) (ms1_3 t) (hs1_3 t) (ms1_4 t) (hs1_4 t) accM (Memref.isWhole_whole _) ((isFirstHead_iff t).mpr h0) (fun h => h1 ((isLastHead_iff t).mp h)) (attnBlk V c 0 t) (attnBlk V c 1 t) (attnBlk V c 2 t) (attnBlk V c 3 t)) := by
  obtain ⟨n, hn⟩ := t
  cases n with
  | zero => exact rfl
  | succ n => exact (dif_pos h0).trans ((dif_neg h1).trans rfl)
/-- attnOuts at a point of a head strictly between, over what the point before left. -/
theorem attnOuts_B (c : Dev nD) (t : Fin cfg1.N) (h0 : ¬t.val % 16 = 0) (h1 : ¬t.val % 16 = 15) :
    attnOuts V c t.val t.isLt = (winIdle, accOut_B c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirstHead_iff t).mp h)) (fun h => h1 ((isLastHead_iff t).mp h)) (attnBlk V c 0 t) (attnBlk V c 1 t) (attnBlk V c 2 t) (attnBlk V c 3 t) (attnOuts V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
/-- attnOuts at a point of head 15, over what the point before left. -/
theorem attnOuts_C (c : Dev nD) (t : Fin cfg1.N) (h0 : ¬t.val % 16 = 0) (h1 : t.val % 16 = 15) :
    attnOuts V c t.val t.isLt = (winOut_C c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirstHead_iff t).mp h)) ((isLastHead_iff t).mpr h1) (attnBlk V c 0 t) (attnBlk V c 1 t) (attnBlk V c 2 t) (attnBlk V c 3 t) (attnOuts V c (t.val - 1) (Nat.lt_of_le_of_lt (Nat.sub_le _ _) t.isLt)).2,
      accOut_C c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirstHead_iff t).mp h)) ((isLastHead_iff t).mpr h1) (attnBlk V c 0 t) (attnBlk V c 1 t) (attnBlk V c 2 t) (attnBlk V c 3 t) (attnOuts V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator's contents kept between points -/

/-- Before position n: before the first point the class invariant (the accumulator at anything); afterwards the other
    launch's staging buffers at anything, the accumulator at what the point before left, the generator register at
    some state. -/
def attnPhi (c : Dev nD) : (n : ℕ) → n ≤ cfg1.N → sProp 𝕄
  | 0, _ => Pipeline.ΦA spec1 c
  | n + 1, hn => iprop((someAt c cc0_stg0_0 ∗ someAt c cc0_stg0_1 ∗ someAt c cc0_stg1_0 ∗ someAt c cc0_stg2_0 ∗ someAt c cc0_stg2_1
      ∗ owns (c : Thread nD τ) accM fullShare ((attnOuts V c n hn).2)) ∗ (∃ r, prngReg c r))

theorem attnPhi_zero (c : Dev nD) (n : ℕ) (h : n ≤ cfg1.N) (hz : n = 0) : attnPhi V c n h = Pipeline.ΦA spec1 c := by
  subst hz; rfl
theorem attnPhi_succ (c : Dev nD) (n : ℕ) (hn : n < cfg1.N) :
    attnPhi V c (n + 1) hn = iprop((someAt c cc0_stg0_0 ∗ someAt c cc0_stg0_1 ∗ someAt c cc0_stg1_0 ∗ someAt c cc0_stg2_0 ∗ someAt c cc0_stg2_1
      ∗ owns (c : Thread nD τ) accM fullShare ((attnOuts V c n hn).2)) ∗ (∃ r, prngReg c r)) := rfl
theorem attnPhi_pos (c : Dev nD) (n : ℕ) (h : n ≤ cfg1.N) (hz : n ≠ 0) :
    attnPhi V c n h = iprop((someAt c cc0_stg0_0 ∗ someAt c cc0_stg0_1 ∗ someAt c cc0_stg1_0 ∗ someAt c cc0_stg2_0 ∗ someAt c cc0_stg2_1
      ∗ owns (c : Thread nD τ) accM fullShare ((attnOuts V c (n - 1) (by omega)).2)) ∗ (∃ r, prngReg c r)) := by
  cases n with
  | zero => exact absurd rfl hz
  | succ n => rfl

/-! ## The launch's proof data -/

/-- The proof data on core c: the arrays as the launch finds them; after the body at point t each input's buffer at
    its block and the output window's at attnOuts; the invariant attnPhi; nothing owed; full shares. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnBlk V c 3 t
    | ⟨4, _⟩ => (attnOuts V c t.val t.isLt).1
  Φ t := attnPhi V c t.val (Nat.le_of_lt_succ t.isLt)
  q _ := fullShare
  owed _ := 0

theorem attnDat_A (c : Dev nD) (w : Fin cfg1.W) : (attnDat V c).A w = V c (Pipeline.arrRef spec1 w) := by
  dsimp only [attnDat]
theorem attnPhi_castSucc (c : Dev nD) (t : Fin cfg1.N) :
    (attnDat V c).Φ t.castSucc = attnPhi V c t.val (Nat.le_of_lt t.isLt) := by
  dsimp only [attnDat]; simp only [Fin.coe_castSucc]
theorem attnAfter_0 (c : Dev nD) (t : Fin cfg1.N) : (attnDat V c).after 0 t = attnBlk V c 0 t := by dsimp only [attnDat]
theorem attnAfter_1 (c : Dev nD) (t : Fin cfg1.N) : (attnDat V c).after 1 t = attnBlk V c 1 t := by dsimp only [attnDat]
theorem attnAfter_2 (c : Dev nD) (t : Fin cfg1.N) : (attnDat V c).after 2 t = attnBlk V c 2 t := by dsimp only [attnDat]
theorem attnAfter_3 (c : Dev nD) (t : Fin cfg1.N) : (attnDat V c).after 3 t = attnBlk V c 3 t := by dsimp only [attnDat]
theorem attnAfter_4 (c : Dev nD) (t : Fin cfg1.N) : (attnDat V c).after 4 t = (attnOuts V c t.val t.isLt).1 := by dsimp only [attnDat]

/-- Each input window's current staging buffer holds its block at every point, fetched there or not. -/
theorem attnBefore_0 (c : Dev nD) (t : Fin cfg1.N) (d) : (attnDat V c).before 0 t d = attnBlk V c 0 t :=
  attnBefore_0_of V (attnDat V c) (attnDat_A V c 0) (attnAfter_0 V c) t d
theorem attnBefore_1 (c : Dev nD) (t : Fin cfg1.N) (d) : (attnDat V c).before 1 t d = attnBlk V c 1 t :=
  attnBefore_1_of V (attnDat V c) (attnDat_A V c 1) (attnAfter_1 V c) t d
theorem attnBefore_2 (c : Dev nD) (t : Fin cfg1.N) (d) : (attnDat V c).before 2 t d = attnBlk V c 2 t :=
  attnBefore_2_of V (attnDat V c) (attnDat_A V c 2) (attnAfter_2 V c) t d
theorem attnBefore_3 (c : Dev nD) (t : Fin cfg1.N) (d) : (attnDat V c).before 3 t d = attnBlk V c 3 t :=
  attnBefore_3_of V (attnDat V c) (attnDat_A V c 3) (attnAfter_3 V c) t d

/-! ## The body obligation, at a generic point -/

/-- What the body is called with at point t: the invariant, what the core owes, and each window's current buffer at
    what it holds there, -/
def attnBodyPre (c : Dev nD) (t : Fin cfg1.N) : sProp 𝕄 :=
  iprop((attnDat V c).Φ t.castSucc ∗ (attnDat V c).owesAt () t.castSucc
    ∗ (∃ d, owns (c : Thread nD τ) (ms1_0 t) fullShare ((attnDat V c).before 0 t d))
    ∗ (∃ d, owns (c : Thread nD τ) (ms1_1 t) fullShare ((attnDat V c).before 1 t d))
    ∗ (∃ d, owns (c : Thread nD τ) (ms1_2 t) fullShare ((attnDat V c).before 2 t d))
    ∗ (∃ d, owns (c : Thread nD τ) (ms1_3 t) fullShare ((attnDat V c).before 3 t d))
    ∗ (∃ d, owns (c : Thread nD τ) (ms1_4 t) fullShare ((attnDat V c).before 4 t d)))

/-- and what it returns. -/
def attnBodyPost (c : Dev nD) (t : Fin cfg1.N) : sProp 𝕄 :=
  iprop((attnDat V c).Φ t.succ ∗ (attnDat V c).owesAt () t.succ
    ∗ (attnDat V c).leavesExact 0 t
    ∗ (attnDat V c).leavesExact 1 t
    ∗ (attnDat V c).leavesExact 2 t
    ∗ (attnDat V c).leavesExact 3 t
    ∗ (attnDat V c).leavesExact 4 t)

set_option maxHeartbeats 4800000 in
/-- The body at any point.  The four inputs' buffers hold their blocks; the closed forms of the two conditions say
    which case the point is in; the invariant hands the body the accumulator at what the point before left (at
    anything at the very first point), and takes it back at this point's contents, which the pieces the run stored
    determine because they cover the accumulator; the other launch's buffers and the generator register pass through;
    away from head 15 the output window's buffer is handed back as found, at head 15 at the pieces stored into it,
    which cover it; the core owes nothing throughout. -/
theorem attnSoundBody (c : Dev nD) (t : Fin cfg1.N) :
    attnBodyPre V c t ⊢ wp frame (wpE (defs₀ (F := F)) Variants.none c none) Set.univ (bodyAt1 t) (fun _ => attnBodyPost V c t) := by
  unfold attnBodyPre attnBodyPost bodyAt1
  simp only [attnBefore_0, attnBefore_1, attnBefore_2, attnBefore_3]
  rw [show (attnDat V c).owesAt () t.succ = (attnDat V c).owesAt () t.castSucc from rfl]
  rw [show (attnDat V c).Φ t.succ = attnPhi V c (t.val + 1) t.isLt from rfl, attnPhi_succ]
  have hN : t.val < 64 := lt_of_lt_of_eq t.isLt (show cfg1.N = 64 from N_1)
  by_cases h0 : t.val % 16 = 0
  · by_cases h1 : t.val % 16 = 15
    · exfalso; omega
    · rw [show (attnDat V c).leavesExact 0 t = owns (c : Thread nD τ) (ms1_0 t) fullShare ((attnDat V c).after 0 t) from by
        unfold Dat.leavesExact; rw [attnLive_0 t], attnAfter_0]
      rw [show (attnDat V c).leavesExact 1 t = owns (c : Thread nD τ) (ms1_1 t) fullShare ((attnDat V c).after 1 t) from by
        unfold Dat.leavesExact; rw [attnLive_1 t], attnAfter_1]
      rw [show (attnDat V c).leavesExact 2 t = owns (c : Thread nD τ) (ms1_2 t) fullShare ((attnDat V c).after 2 t) from by
        unfold Dat.leavesExact; rw [attnLive_2 t], attnAfter_2]
      rw [show (attnDat V c).leavesExact 3 t = owns (c : Thread nD τ) (ms1_3 t) fullShare ((attnDat V c).after 3 t) from by
        unfold Dat.leavesExact; rw [attnLive_3 t], attnAfter_3]
      rw [Dat.leavesExact_idle (attnDat V c) 4 t (attnIdle_4 t (fun h => h1 ((isLastHead_iff t).mp h))) (attnNoFlush_4 t (fun h => h1 ((isLastHead_iff t).mp h)))]
      rw [attnOuts_A V c t h0 h1]
      unfold accOut_A; (try dsimp only)
      by_cases hz : t.val = 0
      · rw [attnPhi_castSucc V c t, attnPhi_zero V c _ _ hz, attnPhiA_eq]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((attnRun_A c (grid1.coords t) (ms1_0 t) (hs1_0 t) (ms1_1 t) (hs1_1 t) (ms1_2 t) (hs1_2 t) (ms1_3 t) (hs1_3 t) (ms1_4 t) (hs1_4 t) accM (Memref.isWhole_whole _) ((isFirstHead_iff t).mpr h0) (fun h => h1 ((isLastHead_iff t).mp h)) (attnBlk V c 0 t) (attnBlk V c 1 t) (attnBlk V c 2 t) (attnBlk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (accCover_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [attnPhi_castSucc V c t, attnPhi_pos V c _ _ hz]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((attnRun_A c (grid1.coords t) (ms1_0 t) (hs1_0 t) (ms1_1 t) (hs1_1 t) (ms1_2 t) (hs1_2 t) (ms1_3 t) (hs1_3 t) (ms1_4 t) (hs1_4 t) accM (Memref.isWhole_whole _) ((isFirstHead_iff t).mpr h0) (fun h => h1 ((isLastHead_iff t).mp h)) (attnBlk V c 0 t) (attnBlk V c 1 t) (attnBlk V c 2 t) (attnBlk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (accCover_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (attnDat V c).leavesExact 0 t = owns (c : Thread nD τ) (ms1_0 t) fullShare ((attnDat V c).after 0 t) from by
        unfold Dat.leavesExact; rw [attnLive_0 t], attnAfter_0]
      rw [show (attnDat V c).leavesExact 1 t = owns (c : Thread nD τ) (ms1_1 t) fullShare ((attnDat V c).after 1 t) from by
        unfold Dat.leavesExact; rw [attnLive_1 t], attnAfter_1]
      rw [show (attnDat V c).leavesExact 2 t = owns (c : Thread nD τ) (ms1_2 t) fullShare ((attnDat V c).after 2 t) from by
        unfold Dat.leavesExact; rw [attnLive_2 t], attnAfter_2]
      rw [show (attnDat V c).leavesExact 3 t = owns (c : Thread nD τ) (ms1_3 t) fullShare ((attnDat V c).after 3 t) from by
        unfold Dat.leavesExact; rw [attnLive_3 t], attnAfter_3]
      rw [show (attnDat V c).leavesExact 4 t = owns (c : Thread nD τ) (ms1_4 t) fullShare ((attnDat V c).after 4 t) from by
        unfold Dat.leavesExact; rw [attnLive_4 t ((isLastHead_iff t).mpr h1)], attnAfter_4]
      rw [attnOuts_C V c t h0 h1]
      unfold winOut_C accOut_C; (try dsimp only)
      by_cases hz : t.val = 0
      · exfalso; omega
      · rw [attnPhi_castSucc V c t, attnPhi_pos V c _ _ hz]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((attnRun_C c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirstHead_iff t).mp h)) ((isLastHead_iff t).mpr h1) (attnBlk V c 0 t) (attnBlk V c 1 t) (attnBlk V c 2 t) (attnBlk V c 3 t) ((attnOuts V c (t.val - 1) (Nat.lt_of_le_of_lt (Nat.sub_le _ _) t.isLt)).2)).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (accCover_C c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (outCover_C c _ _ _ _ _ _ _ _ _ _ _ _ _ _ _ _ _ _ _ _)
    · rw [show (attnDat V c).leavesExact 0 t = owns (c : Thread nD τ) (ms1_0 t) fullShare ((attnDat V c).after 0 t) from by
        unfold Dat.leavesExact; rw [attnLive_0 t], attnAfter_0]
      rw [show (attnDat V c).leavesExact 1 t = owns (c : Thread nD τ) (ms1_1 t) fullShare ((attnDat V c).after 1 t) from by
        unfold Dat.leavesExact; rw [attnLive_1 t], attnAfter_1]
      rw [show (attnDat V c).leavesExact 2 t = owns (c : Thread nD τ) (ms1_2 t) fullShare ((attnDat V c).after 2 t) from by
        unfold Dat.leavesExact; rw [attnLive_2 t], attnAfter_2]
      rw [show (attnDat V c).leavesExact 3 t = owns (c : Thread nD τ) (ms1_3 t) fullShare ((attnDat V c).after 3 t) from by
        unfold Dat.leavesExact; rw [attnLive_3 t], attnAfter_3]
      rw [Dat.leavesExact_idle (attnDat V c) 4 t (attnIdle_4 t (fun h => h1 ((isLastHead_iff t).mp h))) (attnNoFlush_4 t (fun h => h1 ((isLastHead_iff t).mp h)))]
      rw [attnOuts_B V c t h0 h1]
      unfold accOut_B; (try dsimp only)
      by_cases hz : t.val = 0
      · exfalso; omega
      · rw [attnPhi_castSucc V c t, attnPhi_pos V c _ _ hz]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((attnRun_B c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirstHead_iff t).mp h)) (fun h => h1 ((isLastHead_iff t).mp h)) (attnBlk V c 0 t) (attnBlk V c 1 t) (attnBlk V c 2 t) (attnBlk V c 3 t) ((attnOuts V c (t.val - 1) (Nat.lt_of_le_of_lt (Nat.sub_le _ _) t.isLt)).2)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (accCover_B c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation of the attention launch at every point. -/
theorem attnBody (c : Dev nD) : BodyObligation (attnDat (F := F) V c) (defs₀ (F := F)) Variants.none () Set.univ := by
  intro t
  rw [bigSep_W1, bigSep_W1]
  exact attnSoundBody V c t

/-- What the launch hands the kernel (the class invariant) is the invariant before the first point. -/
theorem attn_hin (c : Dev nD) : Pipeline.ΦA spec1 c ⊢ (attnDat V c).Φ 0 := by
  rw [show (attnDat V c).Φ 0 = attnPhi V c 0 (Nat.zero_le _) from rfl, attnPhi_zero V c 0 _ rfl]
  try exact Idealize.SL.BI.Entails.refl _

/-- After the last point the invariant gives the class invariant back: the accumulator's contents are forgotten. -/
theorem attn_hout (c : Dev nD) : (attnDat V c).Φ (Fin.last cfg1.N) ⊢ Pipeline.ΦA spec1 c := by
  have hne : (Fin.last cfg1.N).val ≠ 0 := by rw [Fin.val_last]; have : cfg1.N = 64 := N_1; omega
  rw [show (attnDat V c).Φ (Fin.last cfg1.N) = attnPhi V c (Fin.last cfg1.N).val (Nat.le_of_lt_succ (Fin.last cfg1.N).isLt) from rfl,
    attnPhi_pos V c _ _ hne, attnPhiA_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

end Cert.Kernel.Fr

end
-- ==== Proof.FrB.Fold.lean ====
/-
  The buffers' contents between the items of @main, as a fold from the launch memory: two host operations (the input
  reshaped to [4096, 1024], the fused weight taken to bf16), the projection launch (its output array at what its
  write-backs leave), thirteen host operations (the [4096, 3072] result cut into values, keys and queries, each laid
  out by head; the output weight laid out by head), the attention launch (its output array at what its write-backs
  leave).  No item writes an argument array.
-/
import proofs.«415323_j1580547966014_3_alg».proof.Proof.FrB.Proj
import proofs.«415323_j1580547966014_3_alg».proof.Proof.FrB.Attn
import proofs.«415323_j1580547966014_3_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 (c : Dev nD) : Valuation τ sig (Elt F) := fun b => m (c, b)
/-- After the first host stretch: what the projection launch is entered from. -/
abbrev W1 (c : Dev nD) : Valuation τ sig (Elt F) := StableHlo.after hostOps0 (W0 m c)
/-- The same read at the TensorCore's references. -/
abbrev E1 (c : Dev nD) (b : Ref sig .tc) : Buf (Elt F) ((c : Thread nD τ).loc b) := W1 m c (Proc.devRef .tc b)
/-- After the projection launch: its arrays at what the pipeline leaves, every other buffer as entered. -/
def W2 (c : Dev nD) : Valuation τ sig (Elt F) :=
  Pipeline.withArrays spec0 c (W1 m c) fun w => (projDat (E1 m) c).arrAt w cfg0.N
/-- After the second host stretch: what the attention launch is entered from. -/
abbrev W3 (c : Dev nD) : Valuation τ sig (Elt F) := StableHlo.after hostOps1 (W2 m c)
abbrev E3 (c : Dev nD) (b : Ref sig .tc) : Buf (Elt F) ((c : Thread nD τ).loc b) := W3 m c (Proc.devRef .tc b)
/-- After the attention launch. -/
def W4 (c : Dev nD) : Valuation τ sig (Elt F) :=
  Pipeline.withArrays spec1 c (W3 m c) fun w => (attnDat (E3 m) c).arrAt w cfg1.N

theorem W2_arr (c : Dev nD) (w : Fin cfg0.W) :
    W2 m c (Proc.devRef .tc (Pipeline.arrRef spec0 w)) = (projDat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (attnDat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- The result array after the last item is what the attention launch's write-backs leave. -/
theorem W4_result (c : Dev nD) : W4 m c (Proc.devRef .tc main_v16) = (attnDat (E3 m) c).arrAt 4 cfg1.N :=
  W4_arr m c 4

/-- A buffer no operation of the first stretch writes keeps its launch contents; likewise the second stretch. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

/-- Each argument array reaches the end as launched. -/
theorem W4_main_arg0 (c : Dev nD) : W4 m c (Proc.devRef .tc main_arg0) = m ((c : Thread nD τ).loc main_arg0) :=
  (W4_of_ne m c main_arg0 (by decide)).trans <| (W3_of m c main_arg0 (by decide)).trans <|
    (W2_of_ne m c main_arg0 (by decide)).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <|
    (W2_of_ne m c main_arg1 (by decide)).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <|
    (W2_of_ne m c main_arg2 (by decide)).trans <| (W1_of m c main_arg2 (by decide)).trans rfl

end Cert.Kernel.Fr

end
-- ==== Proof.FrB.Run.lean ====
/-
  The run of @main from the launch to the return.  @main is four items in order: a stretch of two host operations,
  the projection launch, a stretch of thirteen host operations, the attention launch.  Between two items a core
  holds every unscoped buffer whole at the contents the fold of the buffers gives for that boundary, beside its
  generator register at some state and the fact that it owes no other core anything.  A host stretch takes the
  buffers from one boundary's contents to the next by the operations' own meaning.  A launch takes its windows'
  arrays out of the unscoped buffers, runs its pipeline under its proof data (the class invariant at the first and
  after the last point; for the attention launch the invariant in between also remembers the accumulator), and puts
  the arrays back at what the write-backs leave, every other buffer as entered.  Read against the final state, the
  last boundary's contents give the result array at what the attention launch's write-backs leave and every
  argument array as launched.
-/
import proofs.«415323_j1580547966014_3_alg».proof.Proof.FrB.Fold
import Idealize.ShloMosaic.Lib.Pipeline.RegionsLoop

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The boundaries' contents read at the TensorCore's references -/

/-- After the projection launch, read at the TensorCore's references. -/
abbrev E2 (c : Dev nD) (b : Ref sig .tc) : Buf (Elt F) ((c : Thread nD τ).loc b) := W2 m c (Proc.devRef .tc b)
/-- After the attention launch, read at the TensorCore's references. -/
abbrev E4 (c : Dev nD) (b : Ref sig .tc) : Buf (Elt F) ((c : Thread nD τ).loc b) := W4 m c (Proc.devRef .tc b)

/-- At the projection launch's exit each of its arrays holds what the pipeline leaves, -/
theorem hF0 (c : Dev nD) (w : Fin cfg0.W) : (projDat (E1 m) c).arrAt w cfg0.N = E2 m c (Pipeline.arrRef spec0 w) :=
  (W2_arr m c w).symm
/-- and every other buffer what it held at entry. -/
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- Likewise at the attention launch's exit. -/
theorem hF1 (c : Dev nD) (w : Fin cfg1.W) : (attnDat (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## The proof data of both launches and the thread state -/

/-- Both launches' proof data, each at the contents its launch is entered from. -/
def pdats : (p : Fin 2) → (c : Dev nD) → Dat τ (Elt F) Unit ℕ (UR sig nD τ) ℕ (Pipeline.pin (pcfgs (F := F)) adm p) c
  | ⟨0, _⟩ => fun c => projDat (E1 m) c
  | ⟨1, _⟩ => fun c => attnDat (E3 m) c

/-- No core owes another anything: no level is assigned. -/
abbrev Lno : GSem nD τ sig → Finset Unit := fun _ => ∅
abbrev lvno : GSem nD τ sig → Unit → ℕ := fun _ _ => 0

/-- What rides beside the buffers through every item: the core's generator register at some state, and the core
    owing nothing. -/
abbrev Rg (c : Dev nD) : sProp 𝕄 :=
  iprop((∃ r, prngReg c r) ∗ ∃ W, owes (c : Thread nD τ) (0 : CellTallies nD τ sig Unit) W)

/-- A host stretch over the unscoped buffers from the contents W: it leaves them at what the operations compute
    from W, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rg

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state without the dues: every unscoped buffer at the last boundary's contents, the generator
    register at some state. -/
abbrev Tend (c : Dev nD) : sProp 𝕄 :=
  iprop(StableHlo.held (c : Thread nD τ) (Pipeline.ucRefs τ sig) (W4 m c) ∗ ∃ r, prngReg c r)

/-! ## The launches as items -/

set_option backward.isDefEq.respectTransparency.types false in
/-- The projection launch: entered from every unscoped buffer at W1, left at W2.  Its arrays are split out of the
    unscoped buffers and put back at the exit contents; the generator register goes into the class invariant and
    comes back; nothing is owed; the kernel has no semaphore of its own. -/
def reg0 : Pipeline.RegionSeg (pcfgs (F := F)) adm (pdats m) () defs₀ Variants.none Lno lvno 0 where
  win := launch0.win.to₀
  block_pos := launch0.block_pos
  stage_whole := launch0.stage_whole
  K := PEmpty
  osem k := k.elim
  ho := Pipeline.OwnSemFacts.none _
  hbody c := (projBody (E1 m) c).loose
  hwaits := Pipeline.hwaits_of_owed_zero _ _ _ _ Lno lvno 0 fun _ _ => rfl
  pre c := iprop(StableHlo.held (c : Thread nD τ) (Pipeline.ucRefs τ sig) (W1 m c) ∗ Rg c)
  post c := iprop(StableHlo.held (c : Thread nD τ) (Pipeline.ucRefs τ sig) (W2 m c) ∗ Rg c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch: entered from every unscoped buffer at W3, left at W4.  As the projection launch, except that
    its invariant between points keeps the accumulator's contents: the class invariant is handed in before the first
    point and given back after the last. -/
def reg1 : Pipeline.RegionSeg (pcfgs (F := F)) adm (pdats m) () defs₀ Variants.none Lno lvno 1 where
  win := launch1.win.to₀
  block_pos := launch1.block_pos
  stage_whole := launch1.stage_whole
  K := PEmpty
  osem k := k.elim
  ho := Pipeline.OwnSemFacts.none _
  hbody c := (attnBody (E3 m) c).loose
  hwaits := Pipeline.hwaits_of_owed_zero _ _ _ _ Lno lvno 1 fun _ _ => rfl
  pre c := iprop(StableHlo.held (c : Thread nD τ) (Pipeline.ucRefs τ sig) (W3 m c) ∗ Rg c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (attn_hin (E3 m) c)
    unfold Pipeline.ΦA
    iintro ⟨Hp, -, Hr⟩
    isplitl [Hr]; · iexact Hr
    iexact Hp
  hout c := by
    rw [Pipeline.ownSems0_none]
    refine BIBase.Entails.trans (attn_hout (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

/-- The first host stretch, from the launch contents; the second, from what the projection launch leaves. -/
abbrev host0 : Pipeline.HostSeg (Name := ℕ) (U := UR sig nD τ) (pcfgs (F := F)) defs₀ Variants.none Lno lvno :=
  hostSeg hostOps0 hostOps0_sub hostOps0_fresh (W0 m)
abbrev host1 : Pipeline.HostSeg (Name := ℕ) (U := UR sig nD τ) (pcfgs (F := F)) defs₀ Variants.none Lno lvno :=
  hostSeg hostOps1 hostOps1_sub hostOps1_fresh (W2 m)

/-- @main's four items in order. -/
abbrev runSegs : List (Pipeline.Seg (pcfgs (F := F)) adm (pdats m) () defs₀ Variants.none Lno lvno) :=
  [ .host (host0 m),
    .region (reg0 m),
    .host (host1 m),
    .region (reg1 m) ]

/-- @main is the run of the four items. -/
theorem main_run (c : Dev nD) : main (F := F) c = Pipeline.Seg.run (runSegs m) :=
  main_segs adm (pdats m) () Variants.none Lno lvno (host0 m) (host1 m) (reg0 m) (reg1 m) rfl rfl c

set_option backward.isDefEq.respectTransparency.types false in
/-- From any memory with zero counters, every weakly fair execution of @main on the TensorCores terminates, and every
    final state has the result array at what the attention launch's write-backs leave (entered from the contents the
    fold gives) and each argument array as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v16) = (attnDat (E3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ Variants.none Lno lvno m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rg c)) (Tₙ := Tend m)
    (hch := ⟨fun _ => .rfl, fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v16 (by decide))).trans (W4_result m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.Kernel.Fr

end
-- ==== Proof.Fr.Proj.lean ====
/-
  The projection launch: a grid of 8 points, point t taking rows 512 t … 512 t + 511 of the [4096, 1024] input and
  the whole [3072, 1024] weight, and leaving the [512, 3072] block of their product (contracted over the 1024
  features) in its output window.  What each window's buffer holds after the body at a point, the body's run on
  whole staging buffers, and the launch's proof data over the class invariant (the scoped rest and the generator
  register pass through untouched).
-/
import proofs.«415323_j1580547966014_3_alg».proof.Proof.Gen.KernelIdeal.Launch
import proofs.«415323_j1580547966014_3_alg».proof.Proof.Gen.KernelIdeal.Skeleton
import proofs.«415323_j1580547966014_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the launch is entered
variable (V : (c : Dev nD) → (b : Ref sig .tc) → Buf (Elt F) ((c : Thread nD τ).loc b))

/-- Window w's block at point t, read off its array as the launch finds it. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [512, 1024] input block, the whole [3072, 1024] weight, the whole [512, 3072] output block. -/
abbrev rProjX : Rect S512x1024 := Rect.unit (s := S512x1024) ![0, 0] S512x1024.size inb_S512x1024_S512x1024_0_0
abbrev rProjW : Rect S3072x1024 := Rect.unit (s := S3072x1024) ![0, 0] S3072x1024.size inb_S3072x1024_S3072x1024_0_0
abbrev rProjO : Rect S512x3072 := Rect.unit (s := S512x3072) ![0, 0] S512x3072.size inb_S512x3072_S512x3072_0_0

/-- The output window's buffer after the body: its one store, the product of the two loaded blocks. -/
def projOut (x0 : Vec F S512x1024 .f32) (x1 : Vec F S3072x1024 .bf16) : Vec F S512x3072 .bf16 :=
  View.canon [⟨rProjO, k0_pay1 (View.ld x0 rProjX) (View.ld x1 rProjW)⟩]

/-- The launch's proof data on core c: the arrays as the launch finds them; after the body at point t the inputs'
    buffers at their blocks and the output's at the product; the class invariant; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projDat_A (c : Dev nD) (w : Fin cfg0.W) : (projDat V c).A w = V c (Pipeline.arrRef spec0 w) := by
  dsimp only [projDat]
theorem projAfter_0 (c : Dev nD) (t : Fin cfg0.N) : (projDat V c).after 0 t = projBlk V c 0 t := by dsimp only [projDat]
theorem projAfter_1 (c : Dev nD) (t : Fin cfg0.N) : (projDat V c).after 1 t = projBlk V c 1 t := by dsimp only [projDat]
theorem projAfter_2 (c : Dev nD) (t : Fin cfg0.N) :
    (projDat V c).after 2 t = projOut (projBlk V c 0 t) (projBlk V c 1 t) := by dsimp only [projDat]

/-! ## The store covers the output buffer -/

/-- The body's one store is of the whole [512, 3072] rectangle, so every index of the output buffer lies in it. -/
theorem projCover (p0 : Vec F S512x3072 .bf16) (y : S512x3072.Idx) :
    ∃ pc ∈ ([⟨rProjO, p0⟩] : List (View.Piece (Elt F) S512x3072 .bf16)), y ∈ pc.1.set :=
  View.cover_of_tiled [⟨rProjO, p0⟩] S512x3072.size (by rfl) y

/-! ## The body on whole staging buffers -/

set_option maxHeartbeats 1000000 in
/-- The body on three whole buffers, the inputs' holding x0 and x1 and the output's holding anything: it reads the two
    inputs whole, reads the output buffer (a value it never uses), and stores the product over the whole output
    buffer; the inputs' buffers are left as they were and the output's holds `projOut x0 x1`. -/
theorem projKernel (c : Dev nD) (E : Set ℕ) (i : grid0.Coords)
    (arg1 : Memref sig .tc .vmem S512x1024 .f32) (harg1 : arg1.IsWhole)
    (arg2 : Memref sig .tc .vmem S3072x1024 .bf16) (harg2 : arg2.IsWhole)
    (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (projOut x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-! ## What the input windows' buffers hold when the body is entered -/

/-- The input block's current staging buffer holds the block of rows of point t, whatever it held at first. -/
theorem projBefore_0 (c : Dev nD) (t : Fin cfg0.N) (d) : (projDat V c).before 0 t d = projBlk V c 0 t :=
  ((projDat V c).before_in_eq_fetched 0 rfl (fun _ => rfl) (fun _ _ _ => rfl)
      (fun t => by rw [projAfter_0]; unfold Dat.blockOf projBlk; rw [projDat_A]; try rfl) t d).trans
    (by unfold Dat.fetched Dat.blockOf projBlk; rw [projDat_A]; try rfl)

/-- The weight's staging buffer holds the whole weight at every point: fetched at the first, left in place after. -/
theorem projBefore_1 (c : Dev nD) (t : Fin cfg0.N) (d) : (projDat V c).before 1 t d = projBlk V c 1 t :=
  ((projDat V c).before_in_eq_fetched 1 rfl (fun _ => rfl) (fun _ _ _ => rfl)
      (fun t => by rw [projAfter_1]; unfold Dat.blockOf projBlk; rw [projDat_A]; try rfl) t d).trans
    (by unfold Dat.fetched Dat.blockOf projBlk; rw [projDat_A]; try rfl)

/-! ## The body at a point of the grid -/

/-- What the body is entered with at point t: the invariant, what the core owes, and each window's current staging
    buffer, the inputs' at their blocks and the output's at whatever the pipeline left there. -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- What it leaves: the invariant and the debt unchanged, each buffer at the proof data's `after`. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at point t: the inputs' buffers hold their blocks, so the body's run on whole buffers applies; the
    invariant and the debt are not touched. -/
theorem projSoundBody (c : Dev nD) (t : Fin cfg0.N) :
    projPre V c t ⊢ wp frame (wpE (defs₀ (F := F)) Variants.none c none) Set.univ (bodyAt0 t) (fun _ => projPost V c t) := by
  unfold projPre projPost bodyAt0
  simp only [projBefore_0, projBefore_1]
  rw [show (projDat V c).Φ t.succ = (projDat V c).Φ t.castSucc from rfl,
    show (projDat V c).owesAt () t.succ = (projDat V c).owesAt () t.castSucc from rfl,
    projAfter_0, projAfter_1, projAfter_2]
  iintro ⟨HΦ, Ho, ⟨%d0, H0⟩, ⟨%d1, H1⟩, ⟨%d2, H2⟩⟩
  iapply (projKernel c Set.univ (grid0.coords t) _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection launch at every point. -/
theorem projBody (c : Dev nD) : BodyObligation (projDat (F := F) V c) (defs₀ (F := F)) Variants.none () Set.univ := fun t => by
  rw [bigSep_W0, bigSep_W0]
  exact projSoundBody V c t

end Cert.KernelIdeal.Fr

end
-- ==== Proof.Fr.AttnShared.lean ====
/-
  The attention launch: a grid of 2 × 2 × 16 points (batch, query half, head; the head runs fastest), point t
  taking the head's [1024, 64] query block, its whole [2048, 64] key and value blocks and the whole [16, 1024, 64]
  output weight, and adding the head's contribution to the output projection into a [1024, 1024] accumulator the
  kernel keeps between points: reset at a head 0, written out to the [1, 1024, 1024] output window at head 15.
  What the runs of its body share: the windows' blocks, the two conditions on the head in closed form, where the
  output window is idle, the staging and accumulator buffers, the class invariant spelt out.
-/
import proofs.«415323_j1580547966014_3_alg».proof.Proof.Gen.KernelIdeal.Launch
import proofs.«415323_j1580547966014_3_alg».proof.Proof.Gen.KernelIdeal.Skeleton
import proofs.«415323_j1580547966014_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the launch is entered
variable (V : (c : Dev nD) → (b : Ref sig .tc) → Buf (Elt F) ((c : Thread nD τ).loc b))

/-- Window w's block at point t, read off its array as the launch finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place. -/
theorem attnBefore_0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore_1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore_2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)
theorem attnBefore_3_of {c : Dev nD} (dat : Dat τ (Elt F) Unit ℕ (UR sig nD τ) ℕ cfg1 c) (hA : dat.A 3 = V c (Pipeline.arrRef spec1 3))
    (hafter : ∀ t, dat.after 3 t = attnBlk V c 3 t) (t : Fin cfg1.N) (d) : dat.before 3 t d = attnBlk V c 3 t :=
  (dat.before_in_eq_fetched 3 rfl (fun _ => rfl) (fun _ _ _ => rfl) (fun t => by rw [hafter]; unfold Dat.blockOf attnBlk; rw [hA]; try rfl) t d).trans
    (by unfold Dat.fetched Dat.blockOf attnBlk; rw [hA]; try rfl)

/-! ## The two conditions on the head -/

/-- "This is head 0": the accumulator is reset. -/
abbrev isFirstHead (i : grid1.Coords) : Prop := (Scalar.cmpi .ne (Scalar.extui (Scalar.cmpi .eq (BitVec.ofNat 32 (i 2).val) 0#32)) 0#32) = 1#1
/-- It holds at the points ≡ 0 (mod 16). -/
theorem isFirstHead_iff : ∀ t : Fin cfg1.N, isFirstHead (grid1.coords t) ↔ t.val % 16 = 0 :=
  (by decide +kernel : ∀ t : Fin grid1.N, isFirstHead (grid1.coords t) ↔ t.val % 16 = 0)

/-- "This is head 15": the accumulator is written out. -/
abbrev isLastHead (i : grid1.Coords) : Prop := k1_cond2 i = 1#1
/-- It holds at the points ≡ 15 (mod 16). -/
theorem isLastHead_iff : ∀ t : Fin cfg1.N, isLastHead (grid1.coords t) ↔ t.val % 16 = 15 :=
  (by decide +kernel : ∀ t : Fin grid1.N, isLastHead (grid1.coords t) ↔ t.val % 16 = 15)

/-! ## Where the windows are idle -/

theorem attnLive_0 : ∀ t : Fin cfg1.N, cfg1.idle 0 (grid1.coords t) = false := by decide +kernel
theorem attnLive_1 : ∀ t : Fin cfg1.N, cfg1.idle 1 (grid1.coords t) = false := by decide +kernel
theorem attnLive_2 : ∀ t : Fin cfg1.N, cfg1.idle 2 (grid1.coords t) = false := by decide +kernel
theorem attnLive_3 : ∀ t : Fin cfg1.N, cfg1.idle 3 (grid1.coords t) = false := by decide +kernel
/-- Away from head 15 the output window is idle (nothing is stored into it) and not written back. -/
theorem attnIdle_4 : ∀ t : Fin cfg1.N, ¬isLastHead (grid1.coords t) → cfg1.idle 4 (grid1.coords t) = true := by decide +kernel
theorem attnNoFlush_4 : ∀ t : Fin cfg1.N, ¬isLastHead (grid1.coords t) → (cfg1.win 4).flush t = false := by decide +kernel
/-- At head 15 it is live. -/
theorem attnLive_4 : ∀ t : Fin cfg1.N, isLastHead (grid1.coords t) → cfg1.idle 4 (grid1.coords t) = false := by decide +kernel

/-! ## The buffers the body is run on -/

/-- One staging buffer of the output window, through which its contents are stated. -/
abbrev outView : View sig .tc .vmem S1x1024x1024 .f32 := (Memref.whole cc1_stg4_0 : Memref sig .tc .vmem S1x1024x1024 .f32).view
/-- Each window's current staging memref at point t, and its wholeness. -/
abbrev ms1_0 (t : Fin cfg1.N) : Memref sig .tc .vmem S1x1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1024x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev accM : Memref sig .tc .vmem S1024x1024 .f32 := Memref.whole cc1_scratch0
/-- The accumulator as a view: what it holds is stated through it. -/
abbrev accView : View sig .tc .vmem S1024x1024 .f32 := accM.view

/-- A scoped buffer of the other launch, at some contents: the attention body never touches it. -/
abbrev someAt (c : Dev nD) (b : Ref sig .tc) : sProp 𝕄 :=
  iprop(∃ f : Buf (Elt F) ((c : Thread nD τ).loc b), ((c : Thread nD τ).loc b) ↦{fullShare} f)

/-- The class invariant spelt out: the other launch's five staging buffers at some contents each, the accumulator as a
    memref owned at some contents, the generator register at some state. -/
theorem attnPhiA_eq (c : Dev nD) :
    (Pipeline.ΦA spec1 c : sProp 𝕄)
      = iprop((someAt c cc0_stg0_0 ∗ someAt c cc0_stg0_1 ∗ someAt c cc0_stg1_0 ∗ someAt c cc0_stg2_0 ∗ someAt c cc0_stg2_1
          ∗ (∃ d, owns (c : Thread nD τ) accM fullShare d)) ∗ (∃ r, prngReg c r)) := by
  unfold Pipeline.ΦA; rw [scopedRest1_eq]; simp only [accM, owns_whole]; try rfl

end Cert.KernelIdeal.Fr

end
-- ==== Proof.Fr.AttnRunA.lean ====
/-
  The attention body at a head 0 that is not head 15: the accumulator, found at anything, is reset and then takes the head's contribution; nothing is stored into the output window, handed back as found.  The run is on whole staging buffers, the four inputs' at their contents and handed
  back as they were; what the stores leave in the accumulator is the list of pieces the run finds.
-/
import proofs.«415323_j1580547966014_3_alg».proof.Proof.Fr.AttnShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def attnRun_A (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : isFirstHead i) (hc1 : ¬isLastHead i)
    (x0 : Vec F S1x1x1024x64 .bf16) (x1 : Vec F S1x1x2048x64 .bf16) (x2 : Vec F S1x1x2048x64 .bf16) (x3 : Vec F S16x1024x64 .bf16) :
    Σ' (L4 : List (View.Piece (Elt F) S1x1024x1024 .f32)), { LS0 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8) K } := by
  refine ⟨[], ?_, fun xi4 E K => ?run⟩
  case run =>
    simp only [cc1__attn_outproj_kernel_eq_skeleton]; unfold cc1__attn_outproj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.Fr.AttnRunB.lean ====
/-
  The attention body at a head that is neither 0 nor 15: the accumulator, found at what the point before left, takes the head's contribution; nothing is stored into the output window, handed back as found.  The run is on whole staging buffers, the four inputs' at their contents and handed
  back as they were; what the stores leave in the accumulator is the list of pieces the run finds.
-/
import proofs.«415323_j1580547966014_3_alg».proof.Proof.Fr.AttnRunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def attnRun_B (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : ¬isLastHead i)
    (x0 : Vec F S1x1x1024x64 .bf16) (x1 : Vec F S1x1x2048x64 .bf16) (x2 : Vec F S1x1x2048x64 .bf16) (x3 : Vec F S16x1024x64 .bf16) (xs0 : Vec F S1024x1024 .f32) :
    Σ' (L4 : List (View.Piece (Elt F) S1x1024x1024 .f32)), { LS0 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8) K } := by
  refine ⟨[], ?_, fun xi4 E K => ?run⟩
  case run =>
    simp only [cc1__attn_outproj_kernel_eq_skeleton]; unfold cc1__attn_outproj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.Fr.AttnRunC.lean ====
/-
  The attention body at head 15: the accumulator, found at what the point before left, takes the head's contribution and is then stored whole into the output window.  The run is on whole staging buffers, the four inputs' at their contents and handed
  back as they were; what the stores leave in the accumulator and in the output window is the list of pieces the run finds.
-/
import proofs.«415323_j1580547966014_3_alg».proof.Proof.Fr.AttnRunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def attnRun_C (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) :
    Σ' (L4 : List (View.Piece (Elt F) S1x1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8) K } := by
  refine ⟨?_, ?_, fun E K => ?run⟩
  case run =>
    simp only [cc1__attn_outproj_kernel_eq_skeleton]; unfold cc1__attn_outproj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.Fr.Attn.lean ====
/-
  The attention launch, point by point.  Per case of the two conditions on the head — head 0 (the accumulator is
  reset, then takes the head's contribution), a head strictly between (it takes the contribution over what the point
  before left), head 15 (the same, and the sum is stored into the output window) — what the body leaves in the
  accumulator and in the output window's buffer; then, by recursion on the point, what both hold after every point;
  the launch's proof data over an invariant that keeps the accumulator's contents between points; and the body
  obligation at every point.
-/
import proofs.«415323_j1580547966014_3_alg».proof.Proof.Fr.AttnRunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the launch is entered
variable (V : (c : Dev nD) → (b : Ref sig .tc) → Buf (Elt F) ((c : Thread nD τ).loc b))

/-! ## What each case leaves -/

/-- Head 0: the accumulator's pieces cover it. -/
theorem accCover_A (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : isFirstHead i) (hc1 : ¬isLastHead i)
    (x0 : Vec F S1x1x1024x64 .bf16) (x1 : Vec F S1x1x2048x64 .bf16) (x2 : Vec F S1x1x2048x64 .bf16) (x3 : Vec F S16x1024x64 .bf16) (y : S1024x1024.Idx) :
    ∃ pc ∈ (attnRun_A c i arg3 harg3 arg4 harg4 arg5 harg5 arg6 harg6 arg7 harg7 arg8 harg8 hc0 hc1 x0 x1 x2 x3).2.1, y ∈ pc.1.set :=
  View.cover_of_tiledL (attnRun_A c i arg3 harg3 arg4 harg4 arg5 harg5 arg6 harg6 arg7 harg7 arg8 harg8 hc0 hc1 x0 x1 x2 x3).2.1 S1024x1024.size (by sl_kernel_rfl) y
/-- Head 0: what the accumulator holds afterwards. -/
def accOut_A (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : isFirstHead i) (hc1 : ¬isLastHead i)
    (x0 : Vec F S1x1x1024x64 .bf16) (x1 : Vec F S1x1x2048x64 .bf16) (x2 : Vec F S1x1x2048x64 .bf16) (x3 : Vec F S16x1024x64 .bf16) : Vec F S1024x1024 .f32 :=
  accView.read (Elt F) (accView.writes (Elt F) accView.junk (attnRun_A c i arg3 harg3 arg4 harg4 arg5 harg5 arg6 harg6 arg7 harg7 arg8 harg8 hc0 hc1 x0 x1 x2 x3).2.1)

/-- A head strictly between: the accumulator's pieces cover it. -/
theorem accCover_B (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : ¬isLastHead i)
    (x0 : Vec F S1x1x1024x64 .bf16) (x1 : Vec F S1x1x2048x64 .bf16) (x2 : Vec F S1x1x2048x64 .bf16) (x3 : Vec F S16x1024x64 .bf16) (xs0 : Vec F S1024x1024 .f32) (y : S1024x1024.Idx) :
    ∃ pc ∈ (attnRun_B c i arg3 harg3 arg4 harg4 arg5 harg5 arg6 harg6 arg7 harg7 arg8 harg8 hc0 hc1 x0 x1 x2 x3 xs0).2.1, y ∈ pc.1.set :=
  View.cover_of_tiledL (attnRun_B c i arg3 harg3 arg4 harg4 arg5 harg5 arg6 harg6 arg7 harg7 arg8 harg8 hc0 hc1 x0 x1 x2 x3 xs0).2.1 S1024x1024.size (by sl_kernel_rfl) y
/-- A head strictly between: what the accumulator holds afterwards. -/
def accOut_B (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : ¬isLastHead i)
    (x0 : Vec F S1x1x1024x64 .bf16) (x1 : Vec F S1x1x2048x64 .bf16) (x2 : Vec F S1x1x2048x64 .bf16) (x3 : Vec F S16x1024x64 .bf16) (xs0 : Vec F S1024x1024 .f32) : Vec F S1024x1024 .f32 :=
  accView.read (Elt F) (accView.writes (Elt F) accView.junk (attnRun_B c i arg3 harg3 arg4 harg4 arg5 harg5 arg6 harg6 arg7 harg7 arg8 harg8 hc0 hc1 x0 x1 x2 x3 xs0).2.1)

/-- Head 15: the accumulator's pieces cover it, and so do the output window's. -/
theorem accCover_C (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) (y : S1024x1024.Idx) :
    ∃ pc ∈ (attnRun_C c i arg3 harg3 arg4 harg4 arg5 harg5 arg6 harg6 arg7 harg7 arg8 harg8 hc0 hc1 x0 x1 x2 x3 xs0).2.1, y ∈ pc.1.set :=
  View.cover_of_tiledL (attnRun_C c i arg3 harg3 arg4 harg4 arg5 harg5 arg6 harg6 arg7 harg7 arg8 harg8 hc0 hc1 x0 x1 x2 x3 xs0).2.1 S1024x1024.size (by sl_kernel_rfl) y
theorem outCover_C (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) (y : S1x1024x1024.Idx) :
    ∃ pc ∈ (attnRun_C c i arg3 harg3 arg4 harg4 arg5 harg5 arg6 harg6 arg7 harg7 arg8 harg8 hc0 hc1 x0 x1 x2 x3 xs0).1, y ∈ pc.1.set :=
  View.cover_of_tiledL (attnRun_C c i arg3 harg3 arg4 harg4 arg5 harg5 arg6 harg6 arg7 harg7 arg8 harg8 hc0 hc1 x0 x1 x2 x3 xs0).1 S1x1024x1024.size (by sl_kernel_rfl) y
/-- Head 15: what the accumulator holds afterwards, -/
def accOut_C (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) : Vec F S1024x1024 .f32 :=
  accView.read (Elt F) (accView.writes (Elt F) accView.junk (attnRun_C c i arg3 harg3 arg4 harg4 arg5 harg5 arg6 harg6 arg7 harg7 arg8 harg8 hc0 hc1 x0 x1 x2 x3 xs0).2.1)
/-- and what the output window's buffer holds. -/
def winOut_C (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) : Vec F S1x1024x1024 .f32 :=
  outView.read (Elt F) (outView.writes (Elt F) outView.junk (attnRun_C c i arg3 harg3 arg4 harg4 arg5 harg5 arg6 harg6 arg7 harg7 arg8 harg8 hc0 hc1 x0 x1 x2 x3 xs0).1)

/-- Away from head 15 nothing is stored into the output window: a placeholder nothing consults (the window is neither
    written back there nor read at the next point). -/
def winIdle : Vec F S1x1024x1024 .f32 := outView.read (Elt F) (outView.writes (Elt F) outView.junk [])

/-! ## What the output window's buffer and the accumulator hold after each point -/

/-- THE ACCUMULATION: after the body at position n, the output window's buffer and the accumulator — the case the
    closed forms select at n, run at the point's buffers and input blocks, the accumulator taken at what position
    n - 1 left (no case both resets and writes out: 16 heads). -/
def attnOuts (c : Dev nD) : (n : ℕ) → n < cfg1.N → Vec F S1x1024x1024 .f32 × Vec F S1024x1024 .f32
  | 0, hn => (winIdle, accOut_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) accM (Memref.isWhole_whole _) ((isFirstHead_iff ⟨0, hn⟩).mpr (Nat.zero_mod _)) (fun h => (fun h => by (try dsimp only at h); omega) ((isLastHead_iff ⟨0, hn⟩).mp h)) (attnBlk V c 0 ⟨0, hn⟩) (attnBlk V c 1 ⟨0, hn⟩) (attnBlk V c 2 ⟨0, hn⟩) (attnBlk V c 3 ⟨0, hn⟩))
  | n + 1, hn =>
    if h0 : (n + 1) % 16 = 0 then
      if h1 : (n + 1) % 16 = 15 then
        False.elim (by omega)
      else
        (winIdle, accOut_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) ((isFirstHead_iff ⟨n + 1, hn⟩).mpr h0) (fun h => h1 ((isLastHead_iff ⟨n + 1, hn⟩).mp h)) (attnBlk V c 0 ⟨n + 1, hn⟩) (attnBlk V c 1 ⟨n + 1, hn⟩) (attnBlk V c 2 ⟨n + 1, hn⟩) (attnBlk V c 3 ⟨n + 1, hn⟩))
    else
      if h1 : (n + 1) % 16 = 15 then
        (winOut_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirstHead_iff ⟨n + 1, hn⟩).mp h)) ((isLastHead_iff ⟨n + 1, hn⟩).mpr h1) (attnBlk V c 0 ⟨n + 1, hn⟩) (attnBlk V c 1 ⟨n + 1, hn⟩) (attnBlk V c 2 ⟨n + 1, hn⟩) (attnBlk V c 3 ⟨n + 1, hn⟩) (attnOuts c n (Nat.lt_of_succ_lt hn)).2,
         accOut_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirstHead_iff ⟨n + 1, hn⟩).mp h)) ((isLastHead_iff ⟨n + 1, hn⟩).mpr h1) (attnBlk V c 0 ⟨n + 1, hn⟩) (attnBlk V c 1 ⟨n + 1, hn⟩) (attnBlk V c 2 ⟨n + 1, hn⟩) (attnBlk V c 3 ⟨n + 1, hn⟩) (attnOuts c n (Nat.lt_of_succ_lt hn)).2)
      else
        (winIdle, accOut_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirstHead_iff ⟨n + 1, hn⟩).mp h)) (fun h => h1 ((isLastHead_iff ⟨n + 1, hn⟩).mp h)) (attnBlk V c 0 ⟨n + 1, hn⟩) (attnBlk V c 1 ⟨n + 1, hn⟩) (attnBlk V c 2 ⟨n + 1, hn⟩) (attnBlk V c 3 ⟨n + 1, hn⟩) (attnOuts c n (Nat.lt_of_succ_lt hn)).2)

/-- attnOuts at a point of head 0. -/
theorem attnOuts_A (c : Dev nD) (t : Fin cfg1.N) (h0 : t.val % 16 = 0) (h1 : ¬t.val % 16 = 15) :
    attnOuts V c t.val t.isLt = (winIdle, accOut_A c (grid1.coords t) (ms1_0 t) (hs1_0 t) (ms1_1 t) (hs1_1 t) (ms1_2 t) (hs1_2 t) (ms1_3 t) (hs1_3 t) (ms1_4 t) (hs1_4 t) accM (Memref.isWhole_whole _) ((isFirstHead_iff t).mpr h0) (fun h => h1 ((isLastHead_iff t).mp h)) (attnBlk V c 0 t) (attnBlk V c 1 t) (attnBlk V c 2 t) (attnBlk V c 3 t)) := by
  obtain ⟨n, hn⟩ := t
  cases n with
  | zero => exact rfl
  | succ n => exact (dif_pos h0).trans ((dif_neg h1).trans rfl)
/-- attnOuts at a point of a head strictly between, over what the point before left. -/
theorem attnOuts_B (c : Dev nD) (t : Fin cfg1.N) (h0 : ¬t.val % 16 = 0) (h1 : ¬t.val % 16 = 15) :
    attnOuts V c t.val t.isLt = (winIdle, accOut_B c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirstHead_iff t).mp h)) (fun h => h1 ((isLastHead_iff t).mp h)) (attnBlk V c 0 t) (attnBlk V c 1 t) (attnBlk V c 2 t) (attnBlk V c 3 t) (attnOuts V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
/-- attnOuts at a point of head 15, over what the point before left. -/
theorem attnOuts_C (c : Dev nD) (t : Fin cfg1.N) (h0 : ¬t.val % 16 = 0) (h1 : t.val % 16 = 15) :
    attnOuts V c t.val t.isLt = (winOut_C c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirstHead_iff t).mp h)) ((isLastHead_iff t).mpr h1) (attnBlk V c 0 t) (attnBlk V c 1 t) (attnBlk V c 2 t) (attnBlk V c 3 t) (attnOuts V c (t.val - 1) (Nat.lt_of_le_of_lt (Nat.sub_le _ _) t.isLt)).2,
      accOut_C c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirstHead_iff t).mp h)) ((isLastHead_iff t).mpr h1) (attnBlk V c 0 t) (attnBlk V c 1 t) (attnBlk V c 2 t) (attnBlk V c 3 t) (attnOuts V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator's contents kept between points -/

/-- Before position n: before the first point the class invariant (the accumulator at anything); afterwards the other
    launch's staging buffers at anything, the accumulator at what the point before left, the generator register at
    some state. -/
def attnPhi (c : Dev nD) : (n : ℕ) → n ≤ cfg1.N → sProp 𝕄
  | 0, _ => Pipeline.ΦA spec1 c
  | n + 1, hn => iprop((someAt c cc0_stg0_0 ∗ someAt c cc0_stg0_1 ∗ someAt c cc0_stg1_0 ∗ someAt c cc0_stg2_0 ∗ someAt c cc0_stg2_1
      ∗ owns (c : Thread nD τ) accM fullShare ((attnOuts V c n hn).2)) ∗ (∃ r, prngReg c r))

theorem attnPhi_zero (c : Dev nD) (n : ℕ) (h : n ≤ cfg1.N) (hz : n = 0) : attnPhi V c n h = Pipeline.ΦA spec1 c := by
  subst hz; rfl
theorem attnPhi_succ (c : Dev nD) (n : ℕ) (hn : n < cfg1.N) :
    attnPhi V c (n + 1) hn = iprop((someAt c cc0_stg0_0 ∗ someAt c cc0_stg0_1 ∗ someAt c cc0_stg1_0 ∗ someAt c cc0_stg2_0 ∗ someAt c cc0_stg2_1
      ∗ owns (c : Thread nD τ) accM fullShare ((attnOuts V c n hn).2)) ∗ (∃ r, prngReg c r)) := rfl
theorem attnPhi_pos (c : Dev nD) (n : ℕ) (h : n ≤ cfg1.N) (hz : n ≠ 0) :
    attnPhi V c n h = iprop((someAt c cc0_stg0_0 ∗ someAt c cc0_stg0_1 ∗ someAt c cc0_stg1_0 ∗ someAt c cc0_stg2_0 ∗ someAt c cc0_stg2_1
      ∗ owns (c : Thread nD τ) accM fullShare ((attnOuts V c (n - 1) (by omega)).2)) ∗ (∃ r, prngReg c r)) := by
  cases n with
  | zero => exact absurd rfl hz
  | succ n => rfl

/-! ## The launch's proof data -/

/-- The proof data on core c: the arrays as the launch finds them; after the body at point t each input's buffer at
    its block and the output window's at attnOuts; the invariant attnPhi; nothing owed; full shares. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnBlk V c 3 t
    | ⟨4, _⟩ => (attnOuts V c t.val t.isLt).1
  Φ t := attnPhi V c t.val (Nat.le_of_lt_succ t.isLt)
  q _ := fullShare
  owed _ := 0

theorem attnDat_A (c : Dev nD) (w : Fin cfg1.W) : (attnDat V c).A w = V c (Pipeline.arrRef spec1 w) := by
  dsimp only [attnDat]
theorem attnPhi_castSucc (c : Dev nD) (t : Fin cfg1.N) :
    (attnDat V c).Φ t.castSucc = attnPhi V c t.val (Nat.le_of_lt t.isLt) := by
  dsimp only [attnDat]; simp only [Fin.coe_castSucc]
theorem attnAfter_0 (c : Dev nD) (t : Fin cfg1.N) : (attnDat V c).after 0 t = attnBlk V c 0 t := by dsimp only [attnDat]
theorem attnAfter_1 (c : Dev nD) (t : Fin cfg1.N) : (attnDat V c).after 1 t = attnBlk V c 1 t := by dsimp only [attnDat]
theorem attnAfter_2 (c : Dev nD) (t : Fin cfg1.N) : (attnDat V c).after 2 t = attnBlk V c 2 t := by dsimp only [attnDat]
theorem attnAfter_3 (c : Dev nD) (t : Fin cfg1.N) : (attnDat V c).after 3 t = attnBlk V c 3 t := by dsimp only [attnDat]
theorem attnAfter_4 (c : Dev nD) (t : Fin cfg1.N) : (attnDat V c).after 4 t = (attnOuts V c t.val t.isLt).1 := by dsimp only [attnDat]

/-- Each input window's current staging buffer holds its block at every point, fetched there or not. -/
theorem attnBefore_0 (c : Dev nD) (t : Fin cfg1.N) (d) : (attnDat V c).before 0 t d = attnBlk V c 0 t :=
  attnBefore_0_of V (attnDat V c) (attnDat_A V c 0) (attnAfter_0 V c) t d
theorem attnBefore_1 (c : Dev nD) (t : Fin cfg1.N) (d) : (attnDat V c).before 1 t d = attnBlk V c 1 t :=
  attnBefore_1_of V (attnDat V c) (attnDat_A V c 1) (attnAfter_1 V c) t d
theorem attnBefore_2 (c : Dev nD) (t : Fin cfg1.N) (d) : (attnDat V c).before 2 t d = attnBlk V c 2 t :=
  attnBefore_2_of V (attnDat V c) (attnDat_A V c 2) (attnAfter_2 V c) t d
theorem attnBefore_3 (c : Dev nD) (t : Fin cfg1.N) (d) : (attnDat V c).before 3 t d = attnBlk V c 3 t :=
  attnBefore_3_of V (attnDat V c) (attnDat_A V c 3) (attnAfter_3 V c) t d

/-! ## The body obligation, at a generic point -/

/-- What the body is called with at point t: the invariant, what the core owes, and each window's current buffer at
    what it holds there, -/
def attnBodyPre (c : Dev nD) (t : Fin cfg1.N) : sProp 𝕄 :=
  iprop((attnDat V c).Φ t.castSucc ∗ (attnDat V c).owesAt () t.castSucc
    ∗ (∃ d, owns (c : Thread nD τ) (ms1_0 t) fullShare ((attnDat V c).before 0 t d))
    ∗ (∃ d, owns (c : Thread nD τ) (ms1_1 t) fullShare ((attnDat V c).before 1 t d))
    ∗ (∃ d, owns (c : Thread nD τ) (ms1_2 t) fullShare ((attnDat V c).before 2 t d))
    ∗ (∃ d, owns (c : Thread nD τ) (ms1_3 t) fullShare ((attnDat V c).before 3 t d))
    ∗ (∃ d, owns (c : Thread nD τ) (ms1_4 t) fullShare ((attnDat V c).before 4 t d)))

/-- and what it returns. -/
def attnBodyPost (c : Dev nD) (t : Fin cfg1.N) : sProp 𝕄 :=
  iprop((attnDat V c).Φ t.succ ∗ (attnDat V c).owesAt () t.succ
    ∗ (attnDat V c).leavesExact 0 t
    ∗ (attnDat V c).leavesExact 1 t
    ∗ (attnDat V c).leavesExact 2 t
    ∗ (attnDat V c).leavesExact 3 t
    ∗ (attnDat V c).leavesExact 4 t)

set_option maxHeartbeats 4800000 in
/-- The body at any point.  The four inputs' buffers hold their blocks; the closed forms of the two conditions say
    which case the point is in; the invariant hands the body the accumulator at what the point before left (at
    anything at the very first point), and takes it back at this point's contents, which the pieces the run stored
    determine because they cover the accumulator; the other launch's buffers and the generator register pass through;
    away from head 15 the output window's buffer is handed back as found, at head 15 at the pieces stored into it,
    which cover it; the core owes nothing throughout. -/
theorem attnSoundBody (c : Dev nD) (t : Fin cfg1.N) :
    attnBodyPre V c t ⊢ wp frame (wpE (defs₀ (F := F)) Variants.none c none) Set.univ (bodyAt1 t) (fun _ => attnBodyPost V c t) := by
  unfold attnBodyPre attnBodyPost bodyAt1
  simp only [attnBefore_0, attnBefore_1, attnBefore_2, attnBefore_3]
  rw [show (attnDat V c).owesAt () t.succ = (attnDat V c).owesAt () t.castSucc from rfl]
  rw [show (attnDat V c).Φ t.succ = attnPhi V c (t.val + 1) t.isLt from rfl, attnPhi_succ]
  have hN : t.val < 64 := lt_of_lt_of_eq t.isLt (show cfg1.N = 64 from N_1)
  by_cases h0 : t.val % 16 = 0
  · by_cases h1 : t.val % 16 = 15
    · exfalso; omega
    · rw [show (attnDat V c).leavesExact 0 t = owns (c : Thread nD τ) (ms1_0 t) fullShare ((attnDat V c).after 0 t) from by
        unfold Dat.leavesExact; rw [attnLive_0 t], attnAfter_0]
      rw [show (attnDat V c).leavesExact 1 t = owns (c : Thread nD τ) (ms1_1 t) fullShare ((attnDat V c).after 1 t) from by
        unfold Dat.leavesExact; rw [attnLive_1 t], attnAfter_1]
      rw [show (attnDat V c).leavesExact 2 t = owns (c : Thread nD τ) (ms1_2 t) fullShare ((attnDat V c).after 2 t) from by
        unfold Dat.leavesExact; rw [attnLive_2 t], attnAfter_2]
      rw [show (attnDat V c).leavesExact 3 t = owns (c : Thread nD τ) (ms1_3 t) fullShare ((attnDat V c).after 3 t) from by
        unfold Dat.leavesExact; rw [attnLive_3 t], attnAfter_3]
      rw [Dat.leavesExact_idle (attnDat V c) 4 t (attnIdle_4 t (fun h => h1 ((isLastHead_iff t).mp h))) (attnNoFlush_4 t (fun h => h1 ((isLastHead_iff t).mp h)))]
      rw [attnOuts_A V c t h0 h1]
      unfold accOut_A; (try dsimp only)
      by_cases hz : t.val = 0
      · rw [attnPhi_castSucc V c t, attnPhi_zero V c _ _ hz, attnPhiA_eq]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((attnRun_A c (grid1.coords t) (ms1_0 t) (hs1_0 t) (ms1_1 t) (hs1_1 t) (ms1_2 t) (hs1_2 t) (ms1_3 t) (hs1_3 t) (ms1_4 t) (hs1_4 t) accM (Memref.isWhole_whole _) ((isFirstHead_iff t).mpr h0) (fun h => h1 ((isLastHead_iff t).mp h)) (attnBlk V c 0 t) (attnBlk V c 1 t) (attnBlk V c 2 t) (attnBlk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (accCover_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [attnPhi_castSucc V c t, attnPhi_pos V c _ _ hz]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((attnRun_A c (grid1.coords t) (ms1_0 t) (hs1_0 t) (ms1_1 t) (hs1_1 t) (ms1_2 t) (hs1_2 t) (ms1_3 t) (hs1_3 t) (ms1_4 t) (hs1_4 t) accM (Memref.isWhole_whole _) ((isFirstHead_iff t).mpr h0) (fun h => h1 ((isLastHead_iff t).mp h)) (attnBlk V c 0 t) (attnBlk V c 1 t) (attnBlk V c 2 t) (attnBlk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (accCover_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (attnDat V c).leavesExact 0 t = owns (c : Thread nD τ) (ms1_0 t) fullShare ((attnDat V c).after 0 t) from by
        unfold Dat.leavesExact; rw [attnLive_0 t], attnAfter_0]
      rw [show (attnDat V c).leavesExact 1 t = owns (c : Thread nD τ) (ms1_1 t) fullShare ((attnDat V c).after 1 t) from by
        unfold Dat.leavesExact; rw [attnLive_1 t], attnAfter_1]
      rw [show (attnDat V c).leavesExact 2 t = owns (c : Thread nD τ) (ms1_2 t) fullShare ((attnDat V c).after 2 t) from by
        unfold Dat.leavesExact; rw [attnLive_2 t], attnAfter_2]
      rw [show (attnDat V c).leavesExact 3 t = owns (c : Thread nD τ) (ms1_3 t) fullShare ((attnDat V c).after 3 t) from by
        unfold Dat.leavesExact; rw [attnLive_3 t], attnAfter_3]
      rw [show (attnDat V c).leavesExact 4 t = owns (c : Thread nD τ) (ms1_4 t) fullShare ((attnDat V c).after 4 t) from by
        unfold Dat.leavesExact; rw [attnLive_4 t ((isLastHead_iff t).mpr h1)], attnAfter_4]
      rw [attnOuts_C V c t h0 h1]
      unfold winOut_C accOut_C; (try dsimp only)
      by_cases hz : t.val = 0
      · exfalso; omega
      · rw [attnPhi_castSucc V c t, attnPhi_pos V c _ _ hz]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((attnRun_C c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirstHead_iff t).mp h)) ((isLastHead_iff t).mpr h1) (attnBlk V c 0 t) (attnBlk V c 1 t) (attnBlk V c 2 t) (attnBlk V c 3 t) ((attnOuts V c (t.val - 1) (Nat.lt_of_le_of_lt (Nat.sub_le _ _) t.isLt)).2)).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (accCover_C c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (outCover_C c _ _ _ _ _ _ _ _ _ _ _ _ _ _ _ _ _ _ _ _)
    · rw [show (attnDat V c).leavesExact 0 t = owns (c : Thread nD τ) (ms1_0 t) fullShare ((attnDat V c).after 0 t) from by
        unfold Dat.leavesExact; rw [attnLive_0 t], attnAfter_0]
      rw [show (attnDat V c).leavesExact 1 t = owns (c : Thread nD τ) (ms1_1 t) fullShare ((attnDat V c).after 1 t) from by
        unfold Dat.leavesExact; rw [attnLive_1 t], attnAfter_1]
      rw [show (attnDat V c).leavesExact 2 t = owns (c : Thread nD τ) (ms1_2 t) fullShare ((attnDat V c).after 2 t) from by
        unfold Dat.leavesExact; rw [attnLive_2 t], attnAfter_2]
      rw [show (attnDat V c).leavesExact 3 t = owns (c : Thread nD τ) (ms1_3 t) fullShare ((attnDat V c).after 3 t) from by
        unfold Dat.leavesExact; rw [attnLive_3 t], attnAfter_3]
      rw [Dat.leavesExact_idle (attnDat V c) 4 t (attnIdle_4 t (fun h => h1 ((isLastHead_iff t).mp h))) (attnNoFlush_4 t (fun h => h1 ((isLastHead_iff t).mp h)))]
      rw [attnOuts_B V c t h0 h1]
      unfold accOut_B; (try dsimp only)
      by_cases hz : t.val = 0
      · exfalso; omega
      · rw [attnPhi_castSucc V c t, attnPhi_pos V c _ _ hz]
        iintro ⟨⟨⟨Ha, Hb, Hc, Hd, He, HS0⟩, Hg⟩, Ho, ⟨%d0, H0⟩, ⟨%d1, H1⟩, ⟨%d2, H2⟩, ⟨%d3, H3⟩, ⟨%d4, H4⟩⟩
        iapply ((attnRun_B c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirstHead_iff t).mp h)) (fun h => h1 ((isLastHead_iff t).mp h)) (attnBlk V c 0 t) (attnBlk V c 1 t) (attnBlk V c 2 t) (attnBlk V c 3 t) ((attnOuts V c (t.val - 1) (Nat.lt_of_le_of_lt (Nat.sub_le _ _) t.isLt)).2)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha Hb Hc Hd He HS0 Hg]
        · isplitl [Ha Hb Hc Hd He HS0]
          · isplitl [Ha]; · iexact Ha
            isplitl [Hb]; · iexact Hb
            isplitl [Hc]; · iexact Hc
            isplitl [Hd]; · iexact Hd
            isplitl [He]; · iexact He
            unfold owns; iexists _; isplitr
            swap; · iexact HS0
            ipureintro; exact View.read_writes_of_cover _ _ _ _ _ (accCover_B c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation of the attention launch at every point. -/
theorem attnBody (c : Dev nD) : BodyObligation (attnDat (F := F) V c) (defs₀ (F := F)) Variants.none () Set.univ := by
  intro t
  rw [bigSep_W1, bigSep_W1]
  exact attnSoundBody V c t

/-- What the launch hands the kernel (the class invariant) is the invariant before the first point. -/
theorem attn_hin (c : Dev nD) : Pipeline.ΦA spec1 c ⊢ (attnDat V c).Φ 0 := by
  rw [show (attnDat V c).Φ 0 = attnPhi V c 0 (Nat.zero_le _) from rfl, attnPhi_zero V c 0 _ rfl]
  try exact Idealize.SL.BI.Entails.refl _

/-- After the last point the invariant gives the class invariant back: the accumulator's contents are forgotten. -/
theorem attn_hout (c : Dev nD) : (attnDat V c).Φ (Fin.last cfg1.N) ⊢ Pipeline.ΦA spec1 c := by
  have hne : (Fin.last cfg1.N).val ≠ 0 := by rw [Fin.val_last]; have : cfg1.N = 64 := N_1; omega
  rw [show (attnDat V c).Φ (Fin.last cfg1.N) = attnPhi V c (Fin.last cfg1.N).val (Nat.le_of_lt_succ (Fin.last cfg1.N).isLt) from rfl,
    attnPhi_pos V c _ _ hne, attnPhiA_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

end Cert.KernelIdeal.Fr

end
-- ==== Proof.Fr.Fold.lean ====
/-
  The buffers' contents between the items of @main, as a fold from the launch memory: two host operations (the input
  reshaped to [4096, 1024], the fused weight taken to bf16), the projection launch (its output array at what its
  write-backs leave), thirteen host operations (the [4096, 3072] result cut into values, keys and queries, each laid
  out by head; the output weight laid out by head), the attention launch (its output array at what its write-backs
  leave).  No item writes an argument array.
-/
import proofs.«415323_j1580547966014_3_alg».proof.Proof.Fr.Proj
import proofs.«415323_j1580547966014_3_alg».proof.Proof.Fr.Attn
import proofs.«415323_j1580547966014_3_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 (c : Dev nD) : Valuation τ sig (Elt F) := fun b => m (c, b)
/-- After the first host stretch: what the projection launch is entered from. -/
abbrev W1 (c : Dev nD) : Valuation τ sig (Elt F) := StableHlo.after hostOps0 (W0 m c)
/-- The same read at the TensorCore's references. -/
abbrev E1 (c : Dev nD) (b : Ref sig .tc) : Buf (Elt F) ((c : Thread nD τ).loc b) := W1 m c (Proc.devRef .tc b)
/-- After the projection launch: its arrays at what the pipeline leaves, every other buffer as entered. -/
def W2 (c : Dev nD) : Valuation τ sig (Elt F) :=
  Pipeline.withArrays spec0 c (W1 m c) fun w => (projDat (E1 m) c).arrAt w cfg0.N
/-- After the second host stretch: what the attention launch is entered from. -/
abbrev W3 (c : Dev nD) : Valuation τ sig (Elt F) := StableHlo.after hostOps1 (W2 m c)
abbrev E3 (c : Dev nD) (b : Ref sig .tc) : Buf (Elt F) ((c : Thread nD τ).loc b) := W3 m c (Proc.devRef .tc b)
/-- After the attention launch. -/
def W4 (c : Dev nD) : Valuation τ sig (Elt F) :=
  Pipeline.withArrays spec1 c (W3 m c) fun w => (attnDat (E3 m) c).arrAt w cfg1.N

theorem W2_arr (c : Dev nD) (w : Fin cfg0.W) :
    W2 m c (Proc.devRef .tc (Pipeline.arrRef spec0 w)) = (projDat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (attnDat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- The result array after the last item is what the attention launch's write-backs leave. -/
theorem W4_result (c : Dev nD) : W4 m c (Proc.devRef .tc main_v16) = (attnDat (E3 m) c).arrAt 4 cfg1.N :=
  W4_arr m c 4

/-- A buffer no operation of the first stretch writes keeps its launch contents; likewise the second stretch. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

/-- Each argument array reaches the end as launched. -/
theorem W4_main_arg0 (c : Dev nD) : W4 m c (Proc.devRef .tc main_arg0) = m ((c : Thread nD τ).loc main_arg0) :=
  (W4_of_ne m c main_arg0 (by decide)).trans <| (W3_of m c main_arg0 (by decide)).trans <|
    (W2_of_ne m c main_arg0 (by decide)).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <|
    (W2_of_ne m c main_arg1 (by decide)).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <|
    (W2_of_ne m c main_arg2 (by decide)).trans <| (W1_of m c main_arg2 (by decide)).trans rfl

end Cert.KernelIdeal.Fr

end
-- ==== Proof.Fr.Run.lean ====
/-
  The run of @main from the launch to the return.  @main is four items in order: a stretch of two host operations,
  the projection launch, a stretch of thirteen host operations, the attention launch.  Between two items a core
  holds every unscoped buffer whole at the contents the fold of the buffers gives for that boundary, beside its
  generator register at some state and the fact that it owes no other core anything.  A host stretch takes the
  buffers from one boundary's contents to the next by the operations' own meaning.  A launch takes its windows'
  arrays out of the unscoped buffers, runs its pipeline under its proof data (the class invariant at the first and
  after the last point; for the attention launch the invariant in between also remembers the accumulator), and puts
  the arrays back at what the write-backs leave, every other buffer as entered.  Read against the final state, the
  last boundary's contents give the result array at what the attention launch's write-backs leave and every
  argument array as launched.
-/
import proofs.«415323_j1580547966014_3_alg».proof.Proof.Fr.Fold
import Idealize.ShloMosaic.Lib.Pipeline.RegionsLoop

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The boundaries' contents read at the TensorCore's references -/

/-- After the projection launch, read at the TensorCore's references. -/
abbrev E2 (c : Dev nD) (b : Ref sig .tc) : Buf (Elt F) ((c : Thread nD τ).loc b) := W2 m c (Proc.devRef .tc b)
/-- After the attention launch, read at the TensorCore's references. -/
abbrev E4 (c : Dev nD) (b : Ref sig .tc) : Buf (Elt F) ((c : Thread nD τ).loc b) := W4 m c (Proc.devRef .tc b)

/-- At the projection launch's exit each of its arrays holds what the pipeline leaves, -/
theorem hF0 (c : Dev nD) (w : Fin cfg0.W) : (projDat (E1 m) c).arrAt w cfg0.N = E2 m c (Pipeline.arrRef spec0 w) :=
  (W2_arr m c w).symm
/-- and every other buffer what it held at entry. -/
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- Likewise at the attention launch's exit. -/
theorem hF1 (c : Dev nD) (w : Fin cfg1.W) : (attnDat (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## The proof data of both launches and the thread state -/

/-- Both launches' proof data, each at the contents its launch is entered from. -/
def pdats : (p : Fin 2) → (c : Dev nD) → Dat τ (Elt F) Unit ℕ (UR sig nD τ) ℕ (Pipeline.pin (pcfgs (F := F)) adm p) c
  | ⟨0, _⟩ => fun c => projDat (E1 m) c
  | ⟨1, _⟩ => fun c => attnDat (E3 m) c

/-- No core owes another anything: no level is assigned. -/
abbrev Lno : GSem nD τ sig → Finset Unit := fun _ => ∅
abbrev lvno : GSem nD τ sig → Unit → ℕ := fun _ _ => 0

/-- What rides beside the buffers through every item: the core's generator register at some state, and the core
    owing nothing. -/
abbrev Rg (c : Dev nD) : sProp 𝕄 :=
  iprop((∃ r, prngReg c r) ∗ ∃ W, owes (c : Thread nD τ) (0 : CellTallies nD τ sig Unit) W)

/-- A host stretch over the unscoped buffers from the contents W: it leaves them at what the operations compute
    from W, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rg

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state without the dues: every unscoped buffer at the last boundary's contents, the generator
    register at some state. -/
abbrev Tend (c : Dev nD) : sProp 𝕄 :=
  iprop(StableHlo.held (c : Thread nD τ) (Pipeline.ucRefs τ sig) (W4 m c) ∗ ∃ r, prngReg c r)

/-! ## The launches as items -/

set_option backward.isDefEq.respectTransparency.types false in
/-- The projection launch: entered from every unscoped buffer at W1, left at W2.  Its arrays are split out of the
    unscoped buffers and put back at the exit contents; the generator register goes into the class invariant and
    comes back; nothing is owed; the kernel has no semaphore of its own. -/
def reg0 : Pipeline.RegionSeg (pcfgs (F := F)) adm (pdats m) () defs₀ Variants.none Lno lvno 0 where
  win := launch0.win.to₀
  block_pos := launch0.block_pos
  stage_whole := launch0.stage_whole
  K := PEmpty
  osem k := k.elim
  ho := Pipeline.OwnSemFacts.none _
  hbody c := (projBody (E1 m) c).loose
  hwaits := Pipeline.hwaits_of_owed_zero _ _ _ _ Lno lvno 0 fun _ _ => rfl
  pre c := iprop(StableHlo.held (c : Thread nD τ) (Pipeline.ucRefs τ sig) (W1 m c) ∗ Rg c)
  post c := iprop(StableHlo.held (c : Thread nD τ) (Pipeline.ucRefs τ sig) (W2 m c) ∗ Rg c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch: entered from every unscoped buffer at W3, left at W4.  As the projection launch, except that
    its invariant between points keeps the accumulator's contents: the class invariant is handed in before the first
    point and given back after the last. -/
def reg1 : Pipeline.RegionSeg (pcfgs (F := F)) adm (pdats m) () defs₀ Variants.none Lno lvno 1 where
  win := launch1.win.to₀
  block_pos := launch1.block_pos
  stage_whole := launch1.stage_whole
  K := PEmpty
  osem k := k.elim
  ho := Pipeline.OwnSemFacts.none _
  hbody c := (attnBody (E3 m) c).loose
  hwaits := Pipeline.hwaits_of_owed_zero _ _ _ _ Lno lvno 1 fun _ _ => rfl
  pre c := iprop(StableHlo.held (c : Thread nD τ) (Pipeline.ucRefs τ sig) (W3 m c) ∗ Rg c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (attn_hin (E3 m) c)
    unfold Pipeline.ΦA
    iintro ⟨Hp, -, Hr⟩
    isplitl [Hr]; · iexact Hr
    iexact Hp
  hout c := by
    rw [Pipeline.ownSems0_none]
    refine BIBase.Entails.trans (attn_hout (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

/-- The first host stretch, from the launch contents; the second, from what the projection launch leaves. -/
abbrev host0 : Pipeline.HostSeg (Name := ℕ) (U := UR sig nD τ) (pcfgs (F := F)) defs₀ Variants.none Lno lvno :=
  hostSeg hostOps0 hostOps0_sub hostOps0_fresh (W0 m)
abbrev host1 : Pipeline.HostSeg (Name := ℕ) (U := UR sig nD τ) (pcfgs (F := F)) defs₀ Variants.none Lno lvno :=
  hostSeg hostOps1 hostOps1_sub hostOps1_fresh (W2 m)

/-- @main's four items in order. -/
abbrev runSegs : List (Pipeline.Seg (pcfgs (F := F)) adm (pdats m) () defs₀ Variants.none Lno lvno) :=
  [ .host (host0 m),
    .region (reg0 m),
    .host (host1 m),
    .region (reg1 m) ]

/-- @main is the run of the four items. -/
theorem main_run (c : Dev nD) : main (F := F) c = Pipeline.Seg.run (runSegs m) :=
  main_segs adm (pdats m) () Variants.none Lno lvno (host0 m) (host1 m) (reg0 m) (reg1 m) rfl rfl c

set_option backward.isDefEq.respectTransparency.types false in
/-- From any memory with zero counters, every weakly fair execution of @main on the TensorCores terminates, and every
    final state has the result array at what the attention launch's write-backs leave (entered from the contents the
    fold gives) and each argument array as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v16) = (attnDat (E3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ Variants.none Lno lvno m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rg c)) (Tₙ := Tend m)
    (hch := ⟨fun _ => .rfl, fun _ => .rfl, fun _ => .rfl, fun _ => .rfl, fun _ => .rfl⟩)
    (hinit := by
      refine Pipeline.initEach Lno lvno fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v16 (by decide))).trans (W4_result m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.KernelIdeal.Fr

end
-- ==== Proof.Fr.Pieces.lean ====
/-
  What each case of the attention body leaves, as a value of the body's loads: the accumulator after a head 0 is the
  head's contribution added to the zero fill; after any later head, the contribution added to what the point before
  left; and at head 15 the output window's buffer is that sum laid out as [1, 1024, 1024].  (The contribution reads the
  head's slab of the output weight, the [1, 1024, 64] rectangle at the head's offset.)
-/
import proofs.«415323_j1580547966014_3_alg».proof.Proof.Fr.Attn
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The head's slab of the output weight, as the body loads it: the [1, 1024, 64] rectangle at offset (head, 0, 0). -/
def wSlab (i : grid1.Coords) (x3 : Vec F S16x1024x64 .bf16) : Vec F S1x1024x64 .bf16 :=
  View.ld x3 (Rect.unit (s := S16x1024x64) (k1_off1 i) S1x1024x64.size (k1_off1_inb i))

/-- The zero offsets of a whole buffer, rank 2, 3 and 4: each is the constant-zero function. -/
private theorem zeros2 : (![0, 0] : Fin 2 → Nat) = fun _ => 0 := funext fun a => by fin_cases a <;> rfl
private theorem zeros3 : (![0, 0, 0] : Fin 3 → Nat) = fun _ => 0 := funext fun a => by fin_cases a <;> rfl
private theorem zeros4 : (![0, 0, 0, 0] : Fin 4 → Nat) = fun _ => 0 := funext fun a => by fin_cases a <;> rfl

/-- Head 0.  The accumulator's last store covers it, so it holds that store's payload: the head's contribution added
    to what the load before it read, and that load reads the zero fill stored just before.  The four input loads read
    the whole blocks; the weight load reads the head's slab. -/
theorem accOut_A_eq (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : isFirstHead i) (hc1 : ¬isLastHead i)
    (x0 : Vec F S1x1x1024x64 .bf16) (x1 : Vec F S1x1x2048x64 .bf16) (x2 : Vec F S1x1x2048x64 .bf16) (x3 : Vec F S16x1024x64 .bf16) :
    accOut_A c i arg3 harg3 arg4 harg4 arg5 harg5 arg6 harg6 arg7 harg7 arg8 harg8 hc0 hc1 x0 x1 x2 x3 = k1_pay1 (k1_pay4 x0 x1 x2 (wSlab i x3)) (k1_pay3 (F := F)) := by
  unfold accOut_A
  rw [View.read_writes_eq_canon _ _ _ (accCover_A c i arg3 harg3 arg4 harg4 arg5 harg5 arg6 harg6 arg7 harg7 arg8 harg8 hc0 hc1 x0 x1 x2 x3)]
  unfold attnRun_A
  dsimp only
  sl_unfold_words
  dsimp only
  rw [View.canon_cons_unit_zero (S := S1024x1024) zeros2, View.readCov_unit_zero (S := S1024x1024) _ zeros2]
  unfold wSlab
  simp only [View.readAt_eq_ld, harg3.read_unread, harg4.read_unread, harg5.read_unread, harg6.read_unread, harg8.read_unread, View.ld_unit_zero (S := S1x1x1024x64) zeros4, View.ld_unit_zero (S := S1x1x2048x64) zeros4, View.ld_unit_zero (S := S1024x1024) zeros2, View.readCov_unit_zero (S := S1024x1024) _ zeros2]
  rfl

/-- A head strictly between.  One store covers the accumulator: the contribution added to what the load before it
    read, which is what the point before left. -/
theorem accOut_B_eq (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : ¬isLastHead i)
    (x0 : Vec F S1x1x1024x64 .bf16) (x1 : Vec F S1x1x2048x64 .bf16) (x2 : Vec F S1x1x2048x64 .bf16) (x3 : Vec F S16x1024x64 .bf16) (xs0 : Vec F S1024x1024 .f32) :
    accOut_B c i arg3 harg3 arg4 harg4 arg5 harg5 arg6 harg6 arg7 harg7 arg8 harg8 hc0 hc1 x0 x1 x2 x3 xs0 = k1_pay1 (k1_pay4 x0 x1 x2 (wSlab i x3)) xs0 := by
  unfold accOut_B
  rw [View.read_writes_eq_canon _ _ _ (accCover_B c i arg3 harg3 arg4 harg4 arg5 harg5 arg6 harg6 arg7 harg7 arg8 harg8 hc0 hc1 x0 x1 x2 x3 xs0)]
  unfold attnRun_B
  dsimp only
  sl_unfold_words
  dsimp only
  rw [View.canon_unit_zero (S := S1024x1024) zeros2]
  unfold wSlab
  simp only [View.readAt_eq_ld, harg3.read_unread, harg4.read_unread, harg5.read_unread, harg6.read_unread, harg8.read_unread, View.ld_unit_zero (S := S1x1x1024x64) zeros4, View.ld_unit_zero (S := S1x1x2048x64) zeros4, View.ld_unit_zero (S := S1024x1024) zeros2, View.readCov_unit_zero (S := S1024x1024) _ zeros2]
  rfl

/-- Head 15, the accumulator: as for a head between. -/
theorem accOut_C_eq (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) :
    accOut_C c i arg3 harg3 arg4 harg4 arg5 harg5 arg6 harg6 arg7 harg7 arg8 harg8 hc0 hc1 x0 x1 x2 x3 xs0 = k1_pay1 (k1_pay4 x0 x1 x2 (wSlab i x3)) xs0 := by
  unfold accOut_C
  rw [View.read_writes_eq_canon _ _ _ (accCover_C c i arg3 harg3 arg4 harg4 arg5 harg5 arg6 harg6 arg7 harg7 arg8 harg8 hc0 hc1 x0 x1 x2 x3 xs0)]
  unfold attnRun_C
  dsimp only
  sl_unfold_words
  dsimp only
  rw [View.canon_unit_zero (S := S1024x1024) zeros2]
  unfold wSlab
  simp only [View.readAt_eq_ld, harg3.read_unread, harg4.read_unread, harg5.read_unread, harg6.read_unread, harg8.read_unread, View.ld_unit_zero (S := S1x1x1024x64) zeros4, View.ld_unit_zero (S := S1x1x2048x64) zeros4, View.ld_unit_zero (S := S1024x1024) zeros2, View.readCov_unit_zero (S := S1024x1024) _ zeros2]
  rfl

/-- Head 15, the output window's buffer: one store covers it, whose payload is the accumulator, read back after its
    covering store (so the sum), laid out as [1, 1024, 1024]. -/
theorem winOut_C_eq (c : Dev nD) (i : grid1.Coords) (arg3 : Memref sig .tc .vmem S1x1x1024x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S16x1024x64 .bf16) (harg6 : arg6.IsWhole) (arg7 : Memref sig .tc .vmem S1x1024x1024 .f32) (harg7 : arg7.IsWhole) (arg8 : Memref sig .tc .vmem S1024x1024 .f32) (harg8 : arg8.IsWhole) (hc0 : ¬isFirstHead i) (hc1 : isLastHead i)
    (x0 : Vec F S1x1x1024x64 .bf16) (x1 : Vec F S1x1x2048x64 .bf16) (x2 : Vec F S1x1x2048x64 .bf16) (x3 : Vec F S16x1024x64 .bf16) (xs0 : Vec F S1024x1024 .f32) :
    winOut_C c i arg3 harg3 arg4 harg4 arg5 harg5 arg6 harg6 arg7 harg7 arg8 harg8 hc0 hc1 x0 x1 x2 x3 xs0 = k1_pay2 (k1_pay1 (k1_pay4 x0 x1 x2 (wSlab i x3)) xs0) := by
  unfold winOut_C
  rw [View.read_writes_eq_canon _ _ _ (outCover_C c i arg3 harg3 arg4 harg4 arg5 harg5 arg6 harg6 arg7 harg7 arg8 harg8 hc0 hc1 x0 x1 x2 x3 xs0)]
  unfold attnRun_C
  dsimp only
  sl_unfold_words
  dsimp only
  rw [View.canon_unit_zero (S := S1x1024x1024) zeros3]
  unfold wSlab
  simp only [View.readAt_eq_ld, harg3.read_unread, harg4.read_unread, harg5.read_unread, harg6.read_unread, harg8.read_unread, View.ld_unit_zero (S := S1x1x1024x64) zeros4, View.ld_unit_zero (S := S1x1x2048x64) zeros4, View.ld_unit_zero (S := S1024x1024) zeros2, View.readCov_unit_zero (S := S1024x1024) _ zeros2]
  rfl

end Cert.KernelIdeal.Fr

end
-- ==== Proof.Spec.lean ====
/-
  Multi-head attention with a fused projection, as mathematics on the extended reals.

  From an input x[b, s, k] (2 × 2048 × 1024), a fused weight wi[e, k] (3072 × 1024) and an output weight
  wo[o, d] (1024 × 1024):  proj[b, s, e] = Σ_k x[b, s, k] · wi[e, k]; its 3072 columns are three bands of 1024 —
  values, keys, queries, in that order — each band 16 heads of 64 features.  For a batch b, head h and query
  row s the logits over the 2048 key rows t are  (Σ_p q[b,s,h,p] · k[b,t,h,p]) · 1/8, their maximum is taken
  from −∞, the weights are exp(logit − max) and their sum is the row's normaliser.

  Two arrangements of what follows are stated, as the two programs compute them:
    * normalise AFTER the product with the values and add the heads' contributions to the output projection
      one head after the other (`outLate`);
    * normalise the weights first, then take the product with the values, lay the heads side by side as 1024
      features and project once (`outEarly`).
  They agree wherever every entry of x, wi and wo is a real number; that law is proved elsewhere.
-/
import Idealize.ShloMosaic.PureOps.Ideal
import Idealize.ShloMosaic.PureOps.Ideal.Laws

noncomputable section

namespace Cert.Mha

open Idealize.ShloMosaic

/-- −∞, the value the row maximum starts from. -/
abbrev negInf : EReal := Ideal.ofBits .f32 0xFF800000#32
/-- 1/8 = 64^(-1/2), the logits' scale. -/
abbrev eighth : EReal := Ideal.ofBits .f32 0x3E000000#32
/-- 1, the numerator of the late normaliser. -/
abbrev one : EReal := Ideal.ofBits .f32 0x3F800000#32
/-- 0, what a head-by-head accumulation starts from. -/
abbrev zero : EReal := Ideal.ofBits .f32 0x00000000#32

/-- Column of the fused projection holding feature p of head h in the VALUE band (columns 0 … 1023). -/
def vCol (h : Fin 16) (p : Fin 64) : Fin 3072 := ⟨64 * h.val + p.val, by omega⟩
/-- The same in the KEY band (columns 1024 … 2047). -/
def kCol (h : Fin 16) (p : Fin 64) : Fin 3072 := ⟨1024 + (64 * h.val + p.val), by omega⟩
/-- The same in the QUERY band (columns 2048 … 3071). -/
def qCol (h : Fin 16) (p : Fin 64) : Fin 3072 := ⟨2048 + (64 * h.val + p.val), by omega⟩
/-- Feature p of head h among the 1024 features the output projection contracts. -/
def dCol (h : Fin 16) (p : Fin 64) : Fin 1024 := ⟨64 * h.val + p.val, by omega⟩

section
variable (x : Fin 2 → Fin 2048 → Fin 1024 → EReal) (wi : Fin 3072 → Fin 1024 → EReal) (wo : Fin 1024 → Fin 1024 → EReal)

/-- The fused projection. -/
def proj (b : Fin 2) (s : Fin 2048) (e : Fin 3072) : EReal := ∑ k : Fin 1024, x b s k * wi e k

/-- The scaled logit of query row s against key row t in head h. -/
def logit (b : Fin 2) (h : Fin 16) (s t : Fin 2048) : EReal :=
  (∑ p : Fin 64, proj x wi b s (qCol h p) * proj x wi b t (kCol h p)) * eighth

/-- The row's maximum, taken from −∞. -/
def rowMax (b : Fin 2) (h : Fin 16) (s : Fin 2048) : EReal :=
  (Finset.univ : Finset (Fin 2048)).fold max negInf (fun t => logit x wi b h s t)

/-- The unnormalised weight exp(logit − max). -/
def weight (b : Fin 2) (h : Fin 16) (s t : Fin 2048) : EReal :=
  Ideal.exp (logit x wi b h s t - rowMax x wi b h s)

/-- The row's normaliser. -/
def rowSum (b : Fin 2) (h : Fin 16) (s : Fin 2048) : EReal := ∑ t : Fin 2048, weight x wi b h s t

/-- Attended values, normalised AFTER the product with the values. -/
def attLate (b : Fin 2) (h : Fin 16) (s : Fin 2048) (p : Fin 64) : EReal :=
  (∑ t : Fin 2048, weight x wi b h s t * proj x wi b t (vCol h p)) * Ideal.div one (rowSum x wi b h s)

/-- One head's contribution to the output projection. -/
def headOut (b : Fin 2) (h : Fin 16) (s : Fin 2048) (o : Fin 1024) : EReal :=
  ∑ p : Fin 64, attLate x wi b h s p * wo o (dCol h p)

/-- The heads' contributions added one after the other from 0, the first n + 1 of them. -/
def accLate (b : Fin 2) (s : Fin 2048) (o : Fin 1024) : ℕ → EReal
  | 0 => zero + headOut x wi wo b 0 s o
  | n + 1 => accLate b s o n + (if hn : n + 1 < 16 then headOut x wi wo b ⟨n + 1, hn⟩ s o else 0)

/-- The result, late normalisation, head after head. -/
def outLate (b : Fin 2) (s : Fin 2048) (o : Fin 1024) : EReal := accLate x wi wo b s o 15

/-- Attended values with the weights normalised first. -/
def attEarly (b : Fin 2) (h : Fin 16) (s : Fin 2048) (p : Fin 64) : EReal :=
  ∑ t : Fin 2048, Ideal.div (weight x wi b h s t) (rowSum x wi b h s) * proj x wi b t (vCol h p)

/-- The result, early normalisation, one projection over the 1024 features (feature d is head d / 64, column d % 64). -/
def outEarly (b : Fin 2) (s : Fin 2048) (o : Fin 1024) : EReal :=
  ∑ d : Fin 1024, attEarly x wi b ⟨d.val / 64, by omega⟩ s ⟨d.val % 64, by omega⟩ * wo o d

end

end Cert.Mha

end
-- ==== Proof.Arr.lean ====
/-
  Arrays as functions of their coordinates, and back: the argument arrays x[2, 2048, 1024], wi[3072, 1024],
  wo[1024, 1024] read at coordinates, and a [2, 2048, 1024] result laid out from a function of three coordinates.
-/
import proofs.«415323_j1580547966014_3_alg».proof.Proof.Spec
import Idealize.ShloMosaic.Lib.ValueIdx

noncomputable section

namespace Cert.Mha

open Idealize.ShloMosaic Idealize.ShloMosaic.ValueIdx

/-- A rank-3 array [2, 2048, 1024] read at (b, s, k). -/
def in3 (a : (⟨3, ![2, 2048, 1024]⟩ : Shape).Idx → EReal) : Fin 2 → Fin 2048 → Fin 1024 → EReal :=
  fun b s k => a (ix3 b s k)
/-- The fused weight [3072, 1024] read at (e, k). -/
def inWi (a : (⟨2, ![3072, 1024]⟩ : Shape).Idx → EReal) : Fin 3072 → Fin 1024 → EReal :=
  fun e k => a (ix2 e k)
/-- The output weight [1024, 1024] read at (o, d). -/
def inWo (a : (⟨2, ![1024, 1024]⟩ : Shape).Idx → EReal) : Fin 1024 → Fin 1024 → EReal :=
  fun o d => a (ix2 o d)
/-- A function of (b, s, o) laid out as a [2, 2048, 1024] array. -/
def out3 (f : Fin 2 → Fin 2048 → Fin 1024 → EReal) : (⟨3, ![2, 2048, 1024]⟩ : Shape).Idx → EReal :=
  fun i => f (i 0) (i 1) (i 2)

theorem out3_ix3 (f : Fin 2 → Fin 2048 → Fin 1024 → EReal) (b : Fin 2) (s : Fin 2048) (o : Fin 1024) :
    out3 f (ix3 b s o) = f b s o := rfl

/-- The result in the late-normalised, head-after-head arrangement, as an array of the three argument arrays. -/
def lateOf (x : (⟨3, ![2, 2048, 1024]⟩ : Shape).Idx → EReal) (wi : (⟨2, ![3072, 1024]⟩ : Shape).Idx → EReal)
    (wo : (⟨2, ![1024, 1024]⟩ : Shape).Idx → EReal) : (⟨3, ![2, 2048, 1024]⟩ : Shape).Idx → EReal :=
  out3 (outLate (in3 x) (inWi wi) (inWo wo))
/-- The result in the early-normalised, one-projection arrangement. -/
def earlyOf (x : (⟨3, ![2, 2048, 1024]⟩ : Shape).Idx → EReal) (wi : (⟨2, ![3072, 1024]⟩ : Shape).Idx → EReal)
    (wo : (⟨2, ![1024, 1024]⟩ : Shape).Idx → EReal) : (⟨3, ![2, 2048, 1024]⟩ : Shape).Idx → EReal :=
  out3 (outEarly (in3 x) (inWi wi) (inWo wo))

end Cert.Mha

end
-- ==== Proof.Val.AttnBlocks.lean ====
/-
  The attention launch's input blocks read at coordinates.  Point t of the 2 × 2 × 16 grid is (batch, query half,
  head) = (t / 32, (t / 16) % 2, t % 16): its query block is rows 1024 · half … of the head's queries, its key and
  value blocks the head's whole [2048, 64] arrays, and the slab of the output weight it loads is the head's.
-/
import proofs.«415323_j1580547966014_3_alg».proof.Proof.Fr.Pieces
import proofs.«415323_j1580547966014_3_alg».proof.Proof.Arr
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.Mha

/-- The batch, the query half and the head of a grid point. -/
def ptB (t : Fin cfg1.N) : Fin 2 := ⟨t.val / 32, by have := t.isLt; have : cfg1.N = 64 := N_1; omega⟩
def ptHalf (t : Fin cfg1.N) : Fin 2 := ⟨(t.val / 16) % 2, by omega⟩
def ptHead (t : Fin cfg1.N) : Fin 16 := ⟨t.val % 16, by omega⟩
/-- Query row r of the point's half, among the 2048 rows. -/
def ptRow (t : Fin cfg1.N) (r : Fin 1024) : Fin 2048 := ⟨1024 * (ptHalf t).val + r.val, by have := (ptHalf t).isLt; omega⟩

variable (V : (c : Dev nD) → (b : Ref sig .tc) → Buf (Elt Ideal) ((c : Thread nD τ).loc b))

/-- The query window's block index at point t, axis by axis: (batch, head, query half, 0). -/
theorem idxQ : ∀ t : Fin cfg1.N, win1_0.index t (0 : Fin 4) = t.val / 32 ∧ win1_0.index t (1 : Fin 4) = t.val % 16
    ∧ win1_0.index t (2 : Fin 4) = (t.val / 16) % 2 ∧ win1_0.index t (3 : Fin 4) = 0 :=
  (by decide +kernel : ∀ t : Fin grid1.N, _)
/-- The key window's block index at point t: (batch, head, 0, 0). -/
theorem idxK : ∀ t : Fin cfg1.N, win1_1.index t (0 : Fin 4) = t.val / 32 ∧ win1_1.index t (1 : Fin 4) = t.val % 16
    ∧ win1_1.index t (2 : Fin 4) = 0 ∧ win1_1.index t (3 : Fin 4) = 0 :=
  (by decide +kernel : ∀ t : Fin grid1.N, _)
/-- The value window's block index at point t: (batch, head, 0, 0). -/
theorem idxV : ∀ t : Fin cfg1.N, win1_2.index t (0 : Fin 4) = t.val / 32 ∧ win1_2.index t (1 : Fin 4) = t.val % 16
    ∧ win1_2.index t (2 : Fin 4) = 0 ∧ win1_2.index t (3 : Fin 4) = 0 :=
  (by decide +kernel : ∀ t : Fin grid1.N, _)
/-- The output weight's window is the whole array at every point, and the slab the body loads starts at (head, 0, 0). -/
theorem idxW : ∀ t : Fin cfg1.N, win1_3.index t (0 : Fin 3) = 0 ∧ win1_3.index t (1 : Fin 3) = 0 ∧ win1_3.index t (2 : Fin 3) = 0
    ∧ k1_off1 (grid1.coords t) (0 : Fin 3) = t.val % 16 ∧ k1_off1 (grid1.coords t) (1 : Fin 3) = 0
    ∧ k1_off1 (grid1.coords t) (2 : Fin 3) = 0 :=
  (by decide +kernel : ∀ t : Fin grid1.N, _)

/-- The query block at (0, 0, r, p) is the query array at (batch, head, 1024 · half + r, p): on each axis the array
    coordinate is block index × block extent + the coordinate inside the block. -/
theorem blkQ (c : Dev nD) (t : Fin cfg1.N) (r : Fin 1024) (p : Fin 64) :
    attnBlk V c 0 t (ix4 0 0 r p) = V c main_v8 (ix4 (ptB t) (ptHead t) (ptRow t r) p) := by
  obtain ⟨e0, e1, e2, e3⟩ := idxQ t
  show V c main_v8 (((cfg1.win 0).blk t).view.emb (ix4 0 0 r p)) = V c main_v8 (ix4 (ptB t) (ptHead t) (ptRow t r) p)
  refine congrArg _ ?_
  funext a; apply Fin.ext
  match a with
  | ⟨0, _⟩ => show win1_0.index t (0 : Fin 4) * 1 + 1 * 0 = t.val / 32; omega
  | ⟨1, _⟩ => show win1_0.index t (1 : Fin 4) * 1 + 1 * 0 = t.val % 16; omega
  | ⟨2, _⟩ => show win1_0.index t (2 : Fin 4) * 1024 + 1 * r.val = 1024 * ((t.val / 16) % 2) + r.val; omega
  | ⟨3, _⟩ => show win1_0.index t (3 : Fin 4) * 64 + 1 * p.val = p.val; omega
/-- The key block at (0, 0, u, p) is the key array at (batch, head, u, p). -/
theorem blkK (c : Dev nD) (t : Fin cfg1.N) (u : Fin 2048) (p : Fin 64) :
    attnBlk V c 1 t (ix4 0 0 u p) = V c main_v10 (ix4 (ptB t) (ptHead t) u p) := by
  obtain ⟨e0, e1, e2, e3⟩ := idxK t
  show V c main_v10 (((cfg1.win 1).blk t).view.emb (ix4 0 0 u p)) = V c main_v10 (ix4 (ptB t) (ptHead t) u p)
  refine congrArg _ ?_
  funext a; apply Fin.ext
  match a with
  | ⟨0, _⟩ => show win1_1.index t (0 : Fin 4) * 1 + 1 * 0 = t.val / 32; omega
  | ⟨1, _⟩ => show win1_1.index t (1 : Fin 4) * 1 + 1 * 0 = t.val % 16; omega
  | ⟨2, _⟩ => show win1_1.index t (2 : Fin 4) * 2048 + 1 * u.val = u.val; omega
  | ⟨3, _⟩ => show win1_1.index t (3 : Fin 4) * 64 + 1 * p.val = p.val; omega
/-- The value block at (0, 0, u, p) is the value array at (batch, head, u, p). -/
theorem blkV (c : Dev nD) (t : Fin cfg1.N) (u : Fin 2048) (p : Fin 64) :
    attnBlk V c 2 t (ix4 0 0 u p) = V c main_v12 (ix4 (ptB t) (ptHead t) u p) := by
  obtain ⟨e0, e1, e2, e3⟩ := idxV t
  show V c main_v12 (((cfg1.win 2).blk t).view.emb (ix4 0 0 u p)) = V c main_v12 (ix4 (ptB t) (ptHead t) u p)
  refine congrArg _ ?_
  funext a; apply Fin.ext
  match a with
  | ⟨0, _⟩ => show win1_2.index t (0 : Fin 4) * 1 + 1 * 0 = t.val / 32; omega
  | ⟨1, _⟩ => show win1_2.index t (1 : Fin 4) * 1 + 1 * 0 = t.val % 16; omega
  | ⟨2, _⟩ => show win1_2.index t (2 : Fin 4) * 2048 + 1 * u.val = u.val; omega
  | ⟨3, _⟩ => show win1_2.index t (3 : Fin 4) * 64 + 1 * p.val = p.val; omega
/-- The slab of the output weight the point loads, at (0, o, p), is the weight array at (head, o, p): the window is the
    whole array (block index 0 on every axis), and the slab's rectangle starts at (head, 0, 0) inside it. -/
theorem blkW (c : Dev nD) (t : Fin cfg1.N) (o : Fin 1024) (p : Fin 64) :
    wSlab (F := Ideal) (grid1.coords t) (attnBlk V c 3 t) (ix3 0 o p) = V c main_v15 (ix3 (ptHead t) o p) := by
  obtain ⟨e0, e1, e2, f0, f1, f2⟩ := idxW t
  show V c main_v15 (((cfg1.win 3).blk t).view.emb
      ((Rect.unit (s := S16x1024x64) (k1_off1 (grid1.coords t)) S1x1024x64.size (k1_off1_inb (grid1.coords t))).idx (ix3 0 o p)))
    = V c main_v15 (ix3 (ptHead t) o p)
  refine congrArg _ ?_
  funext a; apply Fin.ext
  match a with
  | ⟨0, _⟩ => show win1_3.index t (0 : Fin 3) * 16 + 1 * (k1_off1 (grid1.coords t) (0 : Fin 3) + 1 * 0) = t.val % 16; omega
  | ⟨1, _⟩ => show win1_3.index t (1 : Fin 3) * 1024 + 1 * (k1_off1 (grid1.coords t) (1 : Fin 3) + 1 * o.val) = o.val; omega
  | ⟨2, _⟩ => show win1_3.index t (2 : Fin 3) * 64 + 1 * (k1_off1 (grid1.coords t) (2 : Fin 3) + 1 * p.val) = p.val; omega

end Cert.KernelIdeal.Val

end
-- ==== Proof.RowSpec.lean ====
/-
  One query row of one head, as mathematics: from the row's 64 query features q, the head's 2048 × 64 keys k and
  values v, and 64 output-weight entries w — the scaled logits, their maximum from −∞, the unnormalised weights, the
  normaliser, the attended values normalised after the product with the values, and the row's contribution to one
  output feature.  The whole-array specification's head contribution is this at the head's columns of the projection.
-/
import proofs.«415323_j1580547966014_3_alg».proof.Proof.Spec

noncomputable section

namespace Cert.Mha

open Idealize.ShloMosaic

section Row
variable (q : Fin 64 → EReal) (k v : Fin 2048 → Fin 64 → EReal)

/-- The scaled logit against key row t. -/
def rLogit (t : Fin 2048) : EReal := (∑ p : Fin 64, q p * k t p) * eighth
/-- The row's maximum, from −∞. -/
def rMax : EReal := (Finset.univ : Finset (Fin 2048)).fold max negInf (fun t => rLogit q k t)
/-- The unnormalised weight of key row t. -/
def rWeight (t : Fin 2048) : EReal := Ideal.exp (rLogit q k t - rMax q k)
/-- The normaliser. -/
def rSum : EReal := ∑ t : Fin 2048, rWeight q k t
/-- Attended feature p, normalised after the product with the values. -/
def rAttLate (p : Fin 64) : EReal := (∑ t : Fin 2048, rWeight q k t * v t p) * Ideal.div one (rSum q k)
/-- The row's contribution to the output feature whose 64 weight entries are w. -/
def rHead (w : Fin 64 → EReal) : EReal := ∑ p : Fin 64, rAttLate q k v p * w p
end Row

/-- A head's contribution in the whole-array specification is the row form at the head's columns. -/
theorem headOut_eq_rHead (x : Fin 2 → Fin 2048 → Fin 1024 → EReal) (wi : Fin 3072 → Fin 1024 → EReal) (wo : Fin 1024 → Fin 1024 → EReal)
    (b : Fin 2) (h : Fin 16) (s : Fin 2048) (o : Fin 1024) :
    headOut x wi wo b h s o
      = rHead (fun p => proj x wi b s (qCol h p)) (fun t p => proj x wi b t (kCol h p)) (fun t p => proj x wi b t (vCol h p))
          (fun p => wo o (dCol h p)) := rfl

end Cert.Mha

end
-- ==== Proof.Val.Payload.lean ====
/-
  The attention body's arithmetic at the ideal values, read at an entry: from the head's query block, key block, value
  block and its [1024, 64] slab of the output weight, entry (r, o) of the [1024, 1024] contribution is the row form of
  the specification at query row r and output feature o.
-/
import proofs.«415323_j1580547966014_3_alg».proof.Proof.Gen.KernelIdeal.Skeleton
import proofs.«415323_j1580547966014_3_alg».proof.Proof.RowSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.Mha

/-! ## Layout operations at coordinates -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The three products into the zero splat, at an entry -/

theorem qk_lhs_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem qk_lhs_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem qk_rhs_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem qk_rhs_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The logits' product: entry `(r, t)` is the sum over the 64 features of query row `r` times key row `t`. -/
theorem matmul_qk_apply (A : FVec Ideal S1024x64 .bf16) (B : FVec Ideal S2048x64 .bf16) (r : Fin 1024) (t : Fin 2048) :
    matmul dot_S1024x64_S2048x64_S1024x2048_1_1_0_0_n_n none A B (constant (F := Ideal) S1024x2048 .f32 0x00000000#32) (ix2 r t)
      = ∑ p : Fin 64, A (ix2 r p) * B (ix2 t p) := by
  simp only [matmul]
  rw [Ideal.matmul_constant_zero_apply, ← Equiv.sum_comp (contrEquiv1 dot_S1024x64_S2048x64_S1024x2048_1_1_0_0_n_n 64 rfl rfl).symm]
  refine Finset.sum_congr rfl fun p _ => ?_
  have hk := contrEquiv1_symm_val dot_S1024x64_S2048x64_S1024x2048_1_1_0_0_n_n 64 rfl rfl p
  have el : dot_S1024x64_S2048x64_S1024x2048_1_1_0_0_n_n.lhsIdx (ix2 r t) ((contrEquiv1 dot_S1024x64_S2048x64_S1024x2048_1_1_0_0_n_n 64 rfl rfl).symm p) = ix2 r p := funext fun a => Fin.ext (by
    match a with
    | ⟨0, _⟩ => exact qk_lhs_0 _ _
    | ⟨1, _⟩ => exact (qk_lhs_1 _ _).trans hk)
  have er : dot_S1024x64_S2048x64_S1024x2048_1_1_0_0_n_n.rhsIdx (ix2 r t) ((contrEquiv1 dot_S1024x64_S2048x64_S1024x2048_1_1_0_0_n_n 64 rfl rfl).symm p) = ix2 t p := funext fun a => Fin.ext (by
    match a with
    | ⟨0, _⟩ => exact qk_rhs_0 _ _
    | ⟨1, _⟩ => exact (qk_rhs_1 _ _).trans hk)
  rw [el, er]

theorem pv_lhs_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem pv_lhs_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem pv_rhs_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl
theorem pv_rhs_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q

/-- The weights' product with the values: entry `(r, p)` is the sum over the 2048 key rows of the weight at `(r, t)`
    times the value at `(t, p)`. -/
theorem matmul_pv_apply (A : FVec Ideal S1024x2048 .bf16) (B : FVec Ideal S2048x64 .bf16) (r : Fin 1024) (p : Fin 64) :
    matmul dot_S1024x2048_S2048x64_S1024x64_1_0_0_1_n_n none A B (constant (F := Ideal) S1024x64 .f32 0x00000000#32) (ix2 r p)
      = ∑ t : Fin 2048, A (ix2 r t) * B (ix2 t p) := by
  simp only [matmul]
  rw [Ideal.matmul_constant_zero_apply, ← Equiv.sum_comp (contrEquiv1 dot_S1024x2048_S2048x64_S1024x64_1_0_0_1_n_n 2048 rfl rfl).symm]
  refine Finset.sum_congr rfl fun t _ => ?_
  have hk := contrEquiv1_symm_val dot_S1024x2048_S2048x64_S1024x64_1_0_0_1_n_n 2048 rfl rfl t
  have el : dot_S1024x2048_S2048x64_S1024x64_1_0_0_1_n_n.lhsIdx (ix2 r p) ((contrEquiv1 dot_S1024x2048_S2048x64_S1024x64_1_0_0_1_n_n 2048 rfl rfl).symm t) = ix2 r t := funext fun a => Fin.ext (by
    match a with
    | ⟨0, _⟩ => exact pv_lhs_0 _ _
    | ⟨1, _⟩ => exact (pv_lhs_1 _ _).trans hk)
  have er : dot_S1024x2048_S2048x64_S1024x64_1_0_0_1_n_n.rhsIdx (ix2 r p) ((contrEquiv1 dot_S1024x2048_S2048x64_S1024x64_1_0_0_1_n_n 2048 rfl rfl).symm t) = ix2 t p := funext fun a => Fin.ext (by
    match a with
    | ⟨0, _⟩ => exact (pv_rhs_0 _ _).trans hk
    | ⟨1, _⟩ => exact pv_rhs_1 _ _)
  rw [el, er]

theorem aw_lhs_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem aw_lhs_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem aw_rhs_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem aw_rhs_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The product with the output weight's slab: entry `(r, o)` is the sum over the 64 features of the attended row `r`
    times the slab's row `o`. -/
theorem matmul_aw_apply (A : FVec Ideal S1024x64 .bf16) (B : FVec Ideal S1024x64 .bf16) (r o : Fin 1024) :
    matmul dot_S1024x64_S1024x64_S1024x1024_1_1_0_0_n_n none A B (constant (F := Ideal) S1024x1024 .f32 0x00000000#32) (ix2 r o)
      = ∑ p : Fin 64, A (ix2 r p) * B (ix2 o p) := by
  simp only [matmul]
  rw [Ideal.matmul_constant_zero_apply, ← Equiv.sum_comp (contrEquiv1 dot_S1024x64_S1024x64_S1024x1024_1_1_0_0_n_n 64 rfl rfl).symm]
  refine Finset.sum_congr rfl fun p _ => ?_
  have hk := contrEquiv1_symm_val dot_S1024x64_S1024x64_S1024x1024_1_1_0_0_n_n 64 rfl rfl p
  have el : dot_S1024x64_S1024x64_S1024x1024_1_1_0_0_n_n.lhsIdx (ix2 r o) ((contrEquiv1 dot_S1024x64_S1024x64_S1024x1024_1_1_0_0_n_n 64 rfl rfl).symm p) = ix2 r p := funext fun a => Fin.ext (by
    match a with
    | ⟨0, _⟩ => exact aw_lhs_0 _ _
    | ⟨1, _⟩ => exact (aw_lhs_1 _ _).trans hk)
  have er : dot_S1024x64_S1024x64_S1024x1024_1_1_0_0_n_n.rhsIdx (ix2 r o) ((contrEquiv1 dot_S1024x64_S1024x64_S1024x1024_1_1_0_0_n_n 64 rfl rfl).symm p) = ix2 o p := funext fun a => Fin.ext (by
    match a with
    | ⟨0, _⟩ => exact aw_rhs_0 _ _
    | ⟨1, _⟩ => exact (aw_rhs_1 _ _).trans hk)
  rw [el, er]

/-! ## The lane reductions at a row -/

/-- The index of row `r` with the lane `t` put back. -/
theorem lift_row (h : S1024x2048.Reduces [1] S1024) (r : Fin 1024) (t : Fin 2048) : h.lift (ix1 r) t = ix2 r t :=
  funext fun a => Fin.ext (by
    match a with
    | ⟨0, _⟩ => rfl
    | ⟨1, _⟩ => rfl)

/-- The lane maximum from −∞ at row `r`: the fold of `max` over the row's 2048 entries. -/
theorem rowMax_apply (X : FVec Ideal S1024x2048 .f32) (h : S1024x2048.Reduces [1] S1024) (hφ : FKind.Formats .f32)
    (hacc : (0xFF800000#32 : BitVec 32) = 0xFF800000#32) (r : Fin 1024) :
    multiReduction (F := Ideal) .maximumf [1] S1024 X 0xFF800000#32 h hφ hacc (ix1 r)
      = (Finset.univ : Finset (Fin 2048)).fold max negInf (fun t => X (ix2 r t)) := by
  refine (Ideal.multiReduction_maximumf_single X 0xFF800000#32 h hφ hacc (ix1 r)).trans ?_
  exact congrArg (fun f : Fin 2048 → EReal => (Finset.univ : Finset (Fin 2048)).fold max negInf f)
    (funext fun t => congrArg X (lift_row h r t))

/-- The lane sum at row `r`: the sum of the row's 2048 entries. -/
theorem rowSum_apply (X : FVec Ideal S1024x2048 .f32) (h : S1024x2048.Reduces [1] S1024) (hφ : FKind.Formats .f32)
    (hacc : (0x00000000#32 : BitVec 32) = 0x00000000#32) (r : Fin 1024) :
    multiReduction (F := Ideal) .add [1] S1024 X 0x00000000#32 h hφ hacc (ix1 r) = ∑ t : Fin 2048, X (ix2 r t) := by
  refine (Ideal.multiReduction_add_single X 0x00000000#32 h hφ hacc (ix1 r)).trans ?_
  exact Finset.sum_congr rfl fun t _ => congrArg X (lift_row h r t)

/-! ## The body's stages at an entry -/

/-- The scaled logits: the product of the query block with the transposed key block, times 1/8. -/
theorem logits_apply (A : FVec Ideal S1024x64 .bf16) (B : FVec Ideal S2048x64 .bf16) (r : Fin 1024) (t : Fin 2048) :
    mulf (matmul dot_S1024x64_S2048x64_S1024x2048_1_1_0_0_n_n none A B (constant (F := Ideal) S1024x2048 .f32 0x00000000#32))
        (broadcast S1024x2048 (Scalar.ofBits (F := Ideal) .f32 0x3E000000#32)) (ix2 r t)
      = (∑ p : Fin 64, A (ix2 r p) * B (ix2 t p)) * eighth :=
  congrArg (· * eighth) (matmul_qk_apply A B r t)

/-- The unnormalised weights: the exponential of a row's entry less the row's maximum from −∞. -/
theorem weights_apply (X : FVec Ideal S1024x2048 .f32) (h : S1024x2048.Reduces [1] S1024) (hφ : FKind.Formats .f32)
    (hacc : (0xFF800000#32 : BitVec 32) = 0xFF800000#32) (hc : S1024.ShapeCasts S1024x1)
    (hb : S1024x1.Broadcasts S1024x2048) (r : Fin 1024) (t : Fin 2048) :
    exp (subf X (broadcastTo S1024x2048 (shapeCast S1024x1
        (multiReduction (F := Ideal) .maximumf [1] S1024 X 0xFF800000#32 h hφ hacc) hc) hb)) (ix2 r t)
      = Ideal.exp (X (ix2 r t) - (Finset.univ : Finset (Fin 2048)).fold max negInf (fun t => X (ix2 r t))) := by
  show Ideal.exp (X (ix2 r t) - broadcastTo S1024x2048 _ hb (ix2 r t)) = _
  rw [broadcastTo_a1_ab_apply, shapeCast_a_a1_apply, rowMax_apply]

/-- The normaliser's reciprocal, spread along a row: one over the row's sum of weights. -/
theorem recip_apply (P : FVec Ideal S1024x2048 .f32) (h : S1024x2048.Reduces [1] S1024) (hφ : FKind.Formats .f32)
    (hacc : (0x00000000#32 : BitVec 32) = 0x00000000#32) (hc : S1024.ShapeCasts S1024x1)
    (hb : S1024x1.Broadcasts S1024x64) (r : Fin 1024) (p : Fin 64) :
    broadcastTo S1024x64 (divf (broadcast S1024x1 (Scalar.ofBits (F := Ideal) .f32 0x3F800000#32))
        (shapeCast S1024x1 (multiReduction (F := Ideal) .add [1] S1024 P 0x00000000#32 h hφ hacc) hc)) hb (ix2 r p)
      = Ideal.div one (∑ t : Fin 2048, P (ix2 r t)) := by
  rw [broadcastTo_a1_ab_apply]
  show Ideal.div one (shapeCast S1024x1 _ hc (ix2 r (0 : Fin 1))) = _
  rw [shapeCast_a_a1_apply, rowSum_apply]

/-! ## The stages of this body, from its blocks -/

/-- The scaled logit of query row `r` against key row `t`, from the query and key blocks. -/
theorem logit_at (q : Vec Ideal S1x1x1024x64 .bf16) (k : Vec Ideal S1x1x2048x64 .bf16)
    (hq : S1x1x1024x64.ShapeCasts S1024x64) (hk : S1x1x2048x64.ShapeCasts S2048x64) (r : Fin 1024) (t : Fin 2048) :
    (mulf (matmul dot_S1024x64_S2048x64_S1024x2048_1_1_0_0_n_n none (shapeCast S1024x64 q hq : FVec Ideal S1024x64 .bf16) (shapeCast S2048x64 k hk : FVec Ideal S2048x64 .bf16)
          (constant (F := Ideal) S1024x2048 .f32 0x00000000#32))
        (broadcast S1024x2048 (Scalar.ofBits (F := Ideal) .f32 0x3E000000#32))) (ix2 r t)
      = rLogit (fun p => q (ix4 0 0 r p)) (fun t p => k (ix4 0 0 t p)) t := by
  refine (logits_apply _ _ r t).trans ?_
  unfold rLogit
  exact congrArg (· * eighth) (Finset.sum_congr rfl fun p _ =>
    congrArg₂ (· * ·) (shapeCast_11ab_ab_apply q hq r p) (shapeCast_11ab_ab_apply k hk t p))

/-- The unnormalised weight of query row `r` on key row `t`. -/
theorem weight_at (q : Vec Ideal S1x1x1024x64 .bf16) (k : Vec Ideal S1x1x2048x64 .bf16)
    (hq : S1x1x1024x64.ShapeCasts S1024x64) (hk : S1x1x2048x64.ShapeCasts S2048x64)
    (h : S1024x2048.Reduces [1] S1024) (hφ : FKind.Formats .f32) (hacc : (0xFF800000#32 : BitVec 32) = 0xFF800000#32)
    (hc : S1024.ShapeCasts S1024x1) (hb : S1024x1.Broadcasts S1024x2048) (r : Fin 1024) (t : Fin 2048) :
    exp (subf (mulf (matmul dot_S1024x64_S2048x64_S1024x2048_1_1_0_0_n_n none (shapeCast S1024x64 q hq : FVec Ideal S1024x64 .bf16) (shapeCast S2048x64 k hk : FVec Ideal S2048x64 .bf16)
          (constant (F := Ideal) S1024x2048 .f32 0x00000000#32))
        (broadcast S1024x2048 (Scalar.ofBits (F := Ideal) .f32 0x3E000000#32)))
        (broadcastTo S1024x2048 (shapeCast S1024x1 (multiReduction (F := Ideal) .maximumf [1] S1024
          (mulf (matmul dot_S1024x64_S2048x64_S1024x2048_1_1_0_0_n_n none (shapeCast S1024x64 q hq : FVec Ideal S1024x64 .bf16) (shapeCast S2048x64 k hk : FVec Ideal S2048x64 .bf16)
          (constant (F := Ideal) S1024x2048 .f32 0x00000000#32))
        (broadcast S1024x2048 (Scalar.ofBits (F := Ideal) .f32 0x3E000000#32))) 0xFF800000#32 h hφ hacc) hc) hb)) (ix2 r t)
      = rWeight (fun p => q (ix4 0 0 r p)) (fun t p => k (ix4 0 0 t p)) t := by
  refine (weights_apply _ h hφ hacc hc hb r t).trans ?_
  unfold rWeight rMax
  exact congrArg₂ (fun a b => Ideal.exp (a - b)) (logit_at q k hq hk r t)
    (congrArg (fun f : Fin 2048 → EReal => (Finset.univ : Finset (Fin 2048)).fold max negInf f)
      (funext fun t' => logit_at q k hq hk r t'))

/-- The head's contribution at entry (r, o). -/
theorem pay4_at (q : Vec Ideal S1x1x1024x64 .bf16) (k v : Vec Ideal S1x1x2048x64 .bf16) (w : Vec Ideal S1x1024x64 .bf16)
    (r o : Fin 1024) :
    k1_pay4 (F := Ideal) q k v w (ix2 r o)
      = rHead (fun p => q (ix4 0 0 r p)) (fun t p => k (ix4 0 0 t p)) (fun t p => v (ix4 0 0 t p)) (fun p => w (ix3 0 o p)) := by
  unfold k1_pay4
  refine (matmul_aw_apply _ _ r o).trans ?_
  unfold rHead
  refine Finset.sum_congr rfl fun p _ => ?_
  refine congrArg₂ (· * ·) ?_ (shapeCast_1ab_ab_apply w _ o p)
  -- the attended feature: the weights' product with the values, times the normaliser's reciprocal
  unfold rAttLate rSum
  refine (congrArg₂ (· * ·) (matmul_pv_apply _ _ r p) (recip_apply _ _ _ _ _ _ r p)).trans ?_
  exact congrArg₂ (· * ·)
    (Finset.sum_congr rfl fun t _ => congrArg₂ (· * ·) (weight_at q k _ _ _ _ _ _ _ r t) (shapeCast_11ab_ab_apply v _ t p))
    (congrArg (Ideal.div one) (Finset.sum_congr rfl fun t _ => weight_at q k _ _ _ _ _ _ _ r t))

end Cert.KernelIdeal.Val

end
-- ==== Proof.Val.AttnAcc.lean ====
/-
  The accumulator of the attention launch after each point, at the ideal values: after the point of head h it holds,
  for the point's 1024 query rows, the heads' contributions 0 … h added one after the other from 0; at head 15 the
  output window's buffer holds that sum of all sixteen.
-/
import proofs.«415323_j1580547966014_3_alg».proof.Proof.Val.AttnBlocks
import proofs.«415323_j1580547966014_3_alg».proof.Proof.Val.Payload
import proofs.«415323_j1580547966014_3_alg».proof.Proof.Arr

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.Mha

/-! ## The accumulator's arithmetic read at an entry -/

/-- The stored sum at entry (r, o): what the accumulator held plus the contribution. -/
theorem pay1_at (a : FVec Ideal S1024x1024 .f32) (s : Vec Ideal S1024x1024 .f32) (r o : Fin 1024) :
    k1_pay1 (F := Ideal) a s (ix2 r o) = s (ix2 r o) + a (ix2 r o) := by
  unfold k1_pay1
  rw [shapeCast_self]
  rfl

/-- The zero fill at entry (r, o). -/
theorem pay3_at (r o : Fin 1024) : k1_pay3 (F := Ideal) (ix2 r o) = zero := by
  unfold k1_pay3
  rw [shapeCast_self]
  rfl

/-- The sum laid out as [1, 1024, 1024], at entry (0, r, o). -/
theorem pay2_at (v : Vec Ideal S1024x1024 .f32) (r o : Fin 1024) :
    k1_pay2 (F := Ideal) v (ix3 0 r o) = v (ix2 r o) := by
  unfold k1_pay2
  exact shapeCast_ab_1ab_apply v _ 0 r o

variable (V : (c : Dev nD) → (b : Ref sig .tc) → Buf (Elt Ideal) ((c : Thread nD τ).loc b))

/-- The point's query, key, value and output-weight blocks, at their shapes. -/
abbrev qB (c : Dev nD) (t : Fin cfg1.N) : Vec Ideal S1x1x1024x64 .bf16 := attnBlk V c 0 t
abbrev kB (c : Dev nD) (t : Fin cfg1.N) : Vec Ideal S1x1x2048x64 .bf16 := attnBlk V c 1 t
abbrev vB (c : Dev nD) (t : Fin cfg1.N) : Vec Ideal S1x1x2048x64 .bf16 := attnBlk V c 2 t
abbrev wB (c : Dev nD) (t : Fin cfg1.N) : Vec Ideal S16x1024x64 .bf16 := attnBlk V c 3 t

section
variable (c : Dev nD) (X : Fin 2 → Fin 2048 → Fin 1024 → EReal) (WI : Fin 3072 → Fin 1024 → EReal) (WO : Fin 1024 → Fin 1024 → EReal)
    (hq : ∀ (b : Fin 2) (h : Fin 16) (s : Fin 2048) (p : Fin 64), V c main_v8 (ix4 b h s p) = proj X WI b s (qCol h p))
    (hk : ∀ (b : Fin 2) (h : Fin 16) (s : Fin 2048) (p : Fin 64), V c main_v10 (ix4 b h s p) = proj X WI b s (kCol h p))
    (hv : ∀ (b : Fin 2) (h : Fin 16) (s : Fin 2048) (p : Fin 64), V c main_v12 (ix4 b h s p) = proj X WI b s (vCol h p))
    (hw : ∀ (h : Fin 16) (o : Fin 1024) (p : Fin 64), V c main_v15 (ix3 h o p) = WO o (dCol h p))
include hq hk hv hw

/-- The contribution of a point at entry (r, o): the head's contribution of the specification at the point's batch,
    head and query row. -/
theorem contrib_at (t : Fin cfg1.N) (r o : Fin 1024) :
    k1_pay4 (F := Ideal) (qB V c t) (kB V c t) (vB V c t) (wSlab (grid1.coords t) (wB V c t)) (ix2 r o)
      = headOut X WI WO (ptB t) (ptHead t) (ptRow t r) o := by
  refine (pay4_at (qB V c t) (kB V c t) (vB V c t) (wSlab (grid1.coords t) (wB V c t)) r o).trans ?_
  rw [headOut_eq_rHead]
  have e1 : (fun p : Fin 64 => qB V c t (ix4 0 0 r p)) = fun p => proj X WI (ptB t) (ptRow t r) (qCol (ptHead t) p) :=
    funext fun p => (blkQ V c t r p).trans (hq _ _ _ _)
  have e2 : (fun (u : Fin 2048) (p : Fin 64) => kB V c t (ix4 0 0 u p)) = fun u p => proj X WI (ptB t) u (kCol (ptHead t) p) :=
    funext fun u => funext fun p => (blkK V c t u p).trans (hk _ _ _ _)
  have e3 : (fun (u : Fin 2048) (p : Fin 64) => vB V c t (ix4 0 0 u p)) = fun u p => proj X WI (ptB t) u (vCol (ptHead t) p) :=
    funext fun u => funext fun p => (blkV V c t u p).trans (hv _ _ _ _)
  have e4 : (fun p : Fin 64 => wSlab (F := Ideal) (grid1.coords t) (wB V c t) (ix3 0 o p)) = fun p => WO o (dCol (ptHead t) p) :=
    funext fun p => (blkW V c t o p).trans (hw _ _ _)
  rw [e1, e2, e3, e4]

/-- The accumulator after position n, entry (r, o): by induction on the position.  At a head 0 the zero fill plus the
    head's contribution; at a later head the point before has the same batch and query half and the head before, and
    the sum takes one more term. -/
theorem accAt_pos : ∀ (n : ℕ) (hn : n < cfg1.N) (r o : Fin 1024),
    (attnOuts (F := Ideal) V c n hn).2 (ix2 r o)
      = accLate X WI WO (ptB ⟨n, hn⟩) (ptRow ⟨n, hn⟩ r) o (ptHead ⟨n, hn⟩).val := by
  intro n
  induction n using Nat.strong_induction_on with
  | _ n ih =>
    intro hn r o
    have hN : n < 64 := lt_of_lt_of_eq hn (show cfg1.N = 64 from N_1)
    by_cases h0 : n % 16 = 0
    · have h1 : ¬ n % 16 = 15 := by omega
      rw [attnOuts_A V c ⟨n, hn⟩ h0 h1]
      dsimp only
      rw [accOut_A_eq, pay1_at, pay3_at, contrib_at V c X WI WO hq hk hv hw ⟨n, hn⟩ r o]
      have hh : ptHead ⟨n, hn⟩ = 0 := Fin.ext h0
      rw [hh]
      rfl
    · have hlt : n - 1 < n := by omega
      have hn' : n - 1 < cfg1.N := lt_trans hlt hn
      have IH := ih (n - 1) hlt hn' r o
      have eB : ptB ⟨n - 1, hn'⟩ = ptB ⟨n, hn⟩ := Fin.ext (by show (n - 1) / 32 = n / 32; omega)
      have eR : ptRow ⟨n - 1, hn'⟩ r = ptRow ⟨n, hn⟩ r :=
        Fin.ext (by show 1024 * (((n - 1) / 16) % 2) + r.val = 1024 * ((n / 16) % 2) + r.val; omega)
      obtain ⟨m, hm⟩ : ∃ m, n % 16 = m + 1 := ⟨n % 16 - 1, by omega⟩
      have hm16 : m + 1 < 16 := by omega
      have eH : (ptHead ⟨n - 1, hn'⟩).val = m := by show (n - 1) % 16 = m; omega
      have eHf : ptHead ⟨n, hn⟩ = ⟨m + 1, hm16⟩ := Fin.ext hm
      rw [eB, eR, eH] at IH
      have step : accLate X WI WO (ptB ⟨n, hn⟩) (ptRow ⟨n, hn⟩ r) o m
            + headOut X WI WO (ptB ⟨n, hn⟩) (ptHead ⟨n, hn⟩) (ptRow ⟨n, hn⟩ r) o
          = accLate X WI WO (ptB ⟨n, hn⟩) (ptRow ⟨n, hn⟩ r) o (ptHead ⟨n, hn⟩).val := by
        rw [eHf]
        show _ = accLate X WI WO _ _ o m + (if h : m + 1 < 16 then headOut X WI WO _ ⟨m + 1, h⟩ _ o else 0)
        rw [dif_pos hm16]
      by_cases h1 : n % 16 = 15
      · rw [attnOuts_C V c ⟨n, hn⟩ h0 h1]
        dsimp only
        rw [accOut_C_eq, pay1_at, contrib_at V c X WI WO hq hk hv hw ⟨n, hn⟩ r o, IH]
        exact step
      · rw [attnOuts_B V c ⟨n, hn⟩ h0 h1]
        dsimp only
        rw [accOut_B_eq, pay1_at, contrib_at V c X WI WO hq hk hv hw ⟨n, hn⟩ r o, IH]
        exact step

/-- The accumulator after point t, entry (r, o). -/
theorem accAt (t : Fin cfg1.N) (r o : Fin 1024) :
    (attnOuts (F := Ideal) V c t.val t.isLt).2 (ix2 r o) = accLate X WI WO (ptB t) (ptRow t r) o (ptHead t).val :=
  accAt_pos V c X WI WO hq hk hv hw t.val t.isLt r o

/-- The output window's buffer after a point of head 15, entry (0, r, o). -/
theorem outAt (t : Fin cfg1.N) (h15 : t.val % 16 = 15) (r o : Fin 1024) :
    (attnOuts (F := Ideal) V c t.val t.isLt).1 (ix3 0 r o) = outLate X WI WO (ptB t) (ptRow t r) o := by
  have h0 : ¬ t.val % 16 = 0 := by omega
  have hacc := accAt V c X WI WO hq hk hv hw t r o
  rw [attnOuts_C V c t h0 h15] at hacc
  dsimp only at hacc
  rw [accOut_C_eq] at hacc
  rw [attnOuts_C V c t h0 h15]
  dsimp only
  rw [winOut_C_eq, pay2_at, hacc]
  have h : (ptHead t).val = 15 := h15
  rw [h]
  rfl

end

end Cert.KernelIdeal.Val

end
-- ==== Proof.Val.AttnValue.lean ====
/-
  What the attention launch leaves in its [2, 2048, 1024] output array, at the ideal values: point (b, half, head) adds
  the head's contribution for the 1024 query rows of its half to the accumulator; after head 15 the accumulator holds
  the sum of the sixteen contributions taken head after head from 0, and that is what the point writes out — so entry
  (b, s, o) of the array is the late-normalised, head-after-head arrangement of the specification.
-/
import proofs.«415323_j1580547966014_3_alg».proof.Proof.Val.AttnAcc
import proofs.«415323_j1580547966014_3_alg».proof.Proof.Arr
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.Mha

variable (V : (c : Dev nD) → (b : Ref sig .tc) → Buf (Elt Ideal) ((c : Thread nD τ).loc b))

/-- The output window's block index at every grid point: (batch, query half, 0). -/
theorem outIndex : ∀ t : Fin cfg1.N, win1_4.index t (0 : Fin 3) = t.val / 32 ∧ win1_4.index t (1 : Fin 3) = (t.val / 16) % 2
    ∧ win1_4.index t (2 : Fin 3) = 0 :=
  (by decide +kernel : ∀ t : Fin grid1.N, win1_4.index t (0 : Fin 3) = t.val / 32 ∧ win1_4.index t (1 : Fin 3) = (t.val / 16) % 2
    ∧ win1_4.index t (2 : Fin 3) = 0)

/-- An index of the array is in point t's output block iff each coordinate is in the block's range on its axis. -/
theorem outMem (t : Fin cfg1.N) (i : S2x2048x1024.Idx) :
    i ∈ ((cfg1.win 4).blk t).view.set ↔ ∀ a : Fin 3, win1_4.index t a * S1x1024x1024.size a ≤ (i a).val
      ∧ (i a).val < win1_4.index t a * S1x1024x1024.size a + S1x1024x1024.size a := by
  show i ∈ ((View.whole main_v16).slice (win1_4.rect t)).set ↔ _
  rw [View.set_slice_whole, Rect.mem_set_unit]
  exact Iff.rfl

/-- Every entry (b, s, o) of the array is in the output block of the head-15 point of batch b and the half of row s,
    and that point writes its block back. -/
theorem outCover (i : S2x2048x1024.Idx) :
    ∃ t : Fin cfg1.N, (cfg1.win 4).flush t = true ∧ i ∈ ((cfg1.win 4).blk t).view.set := by
  have hN : cfg1.N = 64 := N_1
  have h0 : (i 0).val < 2 := (i 0).isLt
  have h1 : (i 1).val < 2048 := (i 1).isLt
  have h2 : (i 2).val < 1024 := (i 2).isLt
  obtain ⟨t, ht⟩ : ∃ t : Fin cfg1.N, t.val = (2 * (i 0).val + (i 1).val / 1024) * 16 + 15 :=
    ⟨⟨(2 * (i 0).val + (i 1).val / 1024) * 16 + 15, by omega⟩, rfl⟩
  obtain ⟨e0, e1, e2⟩ := outIndex t
  refine ⟨t, (flush1_4 t).mpr (by omega), ?_⟩
  rw [outMem]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1024 ≤ (i 2).val ∧ (i 2).val < win1_4.index t (2 : Fin 3) * 1024 + 1024; omega

section
variable (c : Dev nD) (X : Fin 2 → Fin 2048 → Fin 1024 → EReal) (WI : Fin 3072 → Fin 1024 → EReal) (WO : Fin 1024 → Fin 1024 → EReal)
    (hq : ∀ (b : Fin 2) (h : Fin 16) (s : Fin 2048) (p : Fin 64), V c main_v8 (ix4 b h s p) = proj X WI b s (qCol h p))
    (hk : ∀ (b : Fin 2) (h : Fin 16) (s : Fin 2048) (p : Fin 64), V c main_v10 (ix4 b h s p) = proj X WI b s (kCol h p))
    (hv : ∀ (b : Fin 2) (h : Fin 16) (s : Fin 2048) (p : Fin 64), V c main_v12 (ix4 b h s p) = proj X WI b s (vCol h p))
    (hw : ∀ (h : Fin 16) (o : Fin 1024) (p : Fin 64), V c main_v15 (ix3 h o p) = WO o (dCol h p))
include hq hk hv hw

/-- What a point of head 15 writes back is its block of the one whole-array function: entry (0, r, o) of the block is
    entry (batch, 1024 · half + r, o) of the array. -/
theorem outFlushed (t : Fin cfg1.N) (h15 : t.val % 16 = 15) :
    (attnDat (F := Ideal) V c).flushed 4 t = ((cfg1.win 4).blk t).view.read (Elt Ideal) (out3 (outLate X WI WO)) := by
  show (cfg1.win 4).cut (grid1.coords t) ((attnDat (F := Ideal) V c).after 4 t) = _
  rw [attnAfter_4]
  obtain ⟨e0, e1, e2⟩ := outIndex t
  funext y
  obtain ⟨z, r, o, rfl⟩ : ∃ (z : Fin 1) (r o : Fin 1024), y = ix3 z r o := ⟨y 0, y 1, y 2, eq_ix3 y⟩
  obtain rfl : z = 0 := Subsingleton.elim _ _
  show (attnOuts (F := Ideal) V c t.val t.isLt).1 (ix3 0 r o)
    = out3 (outLate X WI WO) (((cfg1.win 4).blk t).view.emb (ix3 0 r o))
  rw [outAt V c X WI WO hq hk hv hw t h15 r o]
  have hemb : ((cfg1.win 4).blk t).view.emb (ix3 (0 : Fin 1) r o) = ix3 (ptB t) (ptRow t r) o := by
    funext a; apply Fin.ext
    match a with
    | ⟨0, _⟩ => show win1_4.index t (0 : Fin 3) * 1 + 1 * (0 : Fin 1).val = t.val / 32; simp only [Fin.val_zero]; omega
    | ⟨1, _⟩ => show win1_4.index t (1 : Fin 3) * 1024 + 1 * r.val = 1024 * ((t.val / 16) % 2) + r.val; omega
    | ⟨2, _⟩ => show win1_4.index t (2 : Fin 3) * 1024 + 1 * o.val = o.val; omega
  rw [hemb]
  rfl
end

/-- The output array of the attention launch, from the entry contents of its four input arrays read at coordinates. -/
theorem attnArr (c : Dev nD) (X : Fin 2 → Fin 2048 → Fin 1024 → EReal) (WI : Fin 3072 → Fin 1024 → EReal) (WO : Fin 1024 → Fin 1024 → EReal)
    (hq : ∀ (b : Fin 2) (h : Fin 16) (s : Fin 2048) (p : Fin 64), V c main_v8 (ix4 b h s p) = proj X WI b s (qCol h p))
    (hk : ∀ (b : Fin 2) (h : Fin 16) (s : Fin 2048) (p : Fin 64), V c main_v10 (ix4 b h s p) = proj X WI b s (kCol h p))
    (hv : ∀ (b : Fin 2) (h : Fin 16) (s : Fin 2048) (p : Fin 64), V c main_v12 (ix4 b h s p) = proj X WI b s (vCol h p))
    (hw : ∀ (h : Fin 16) (o : Fin 1024) (p : Fin 64), V c main_v15 (ix3 h o p) = WO o (dCol h p)) :
    (attnDat (F := Ideal) V c).arrAt 4 cfg1.N = out3 (outLate X WI WO) :=
  (attnDat (F := Ideal) V c).arrAt_eq_of_cover 4 (out3 (outLate X WI WO))
    (fun t hf => outFlushed V c X WI WO hq hk hv hw t ((flush1_4 t).mp hf)) outCover

end Cert.KernelIdeal.Val

end
-- ==== Proof.Val.ProjValue.lean ====
/-
  What the projection launch leaves in its [4096, 3072] output array, at the ideal values: entry (r, e) is the sum over
  the 1024 features of input row r times weight row e — point r / 512 of the grid writes the block holding row r.
-/
import proofs.«415323_j1580547966014_3_alg».proof.Proof.Fr.Proj
import proofs.«415323_j1580547966014_3_alg».proof.Proof.Arr
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.Mha

variable (V : (c : Dev nD) → (b : Ref sig .tc) → Buf (Elt Ideal) ((c : Thread nD τ).loc b))

/-! ## The body's arithmetic at an entry -/

/-- The left operand of the product is read at the result's row, -/
theorem lhs_proj_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
/-- and at the contracted feature; -/
theorem lhs_proj_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
/-- the right operand at the result's column, as its row, -/
theorem rhs_proj_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
/-- and at the contracted feature. -/
theorem rhs_proj_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- Entry (p, e) of the body's product: the sum over the 1024 features of the input block's row p times the weight's
    row e. At the ideal values the two roundings and the identity reshapes do nothing, and the product accumulated
    into the zero block is the plain sum. -/
theorem projPay_at (x0 : Vec Ideal S512x1024 .f32) (x1 : Vec Ideal S3072x1024 .bf16) (p : Fin 512) (e : Fin 3072) :
    k0_pay1 (F := Ideal) x0 x1 (ix2 p e) = ∑ k : Fin 1024, x0 (ix2 p k) * x1 (ix2 e k) := by
  unfold k0_pay1
  simp only [shapeCast_self, matmul]
  rw [truncf_apply, Ideal.matmul_constant_zero_apply, ← Equiv.sum_comp (contrEquiv1 dot_S512x1024_S3072x1024_S512x3072_1_1_0_0_n_n 1024 rfl rfl).symm]
  refine Finset.sum_congr rfl fun k _ => ?_
  have hk := contrEquiv1_symm_val dot_S512x1024_S3072x1024_S512x3072_1_1_0_0_n_n 1024 rfl rfl k
  have el : dot_S512x1024_S3072x1024_S512x3072_1_1_0_0_n_n.lhsIdx (ix2 p e) ((contrEquiv1 dot_S512x1024_S3072x1024_S512x3072_1_1_0_0_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S3072x1024_S512x3072_1_1_0_0_n_n.rhsIdx (ix2 p e) ((contrEquiv1 dot_S512x1024_S3072x1024_S512x3072_1_1_0_0_n_n 1024 rfl rfl).symm k) = ix2 e k := funext fun a => Fin.ext (by
    match a with
    | ⟨0, _⟩ => exact rhs_proj_0 _ _
    | ⟨1, _⟩ => exact (rhs_proj_1 _ _).trans hk)
  rw [el, er]
  rfl

/-! ## From the blocks to the array -/

theorem hzProj : (![0, 0] : Fin 2 → Nat) = fun _ => 0 := funext fun a => by fin_cases a <;> rfl

/-- The [4096, 1024] input and the [3072, 1024] weight as the launch finds them. -/
abbrev projXArr (c : Dev nD) : Vec Ideal S4096x1024 .f32 := V c main_v0
abbrev projWArr (c : Dev nD) : Vec Ideal S3072x1024 .bf16 := V c main_v1

/-- Entry (r, e) of the product: the sum over the 1024 features of input row r times weight row e. -/
def projE (c : Dev nD) (r : Fin 4096) (e : Fin 3072) : EReal :=
  ∑ k : Fin 1024, projXArr V c (ix2 r k) * projWArr V c (ix2 e k)

/-- The product array. -/
def projG (c : Dev nD) : S4096x3072.Idx → EReal :=
  fun j => projE V c ⟨(j 0).val, (j 0).isLt⟩ ⟨(j 1).val, (j 1).isLt⟩

/-- The index maps over the grid: the input's block row is the output's, every other block index is zero, and the
    output's block row stays below 8. -/
theorem projIdx : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every block row of the output is some point's. -/
theorem projOnto : ∀ q : Fin 8, ∃ t : Fin cfg0.N, win0_2.index t = ![q.val, 0] :=
  (by decide +kernel : ∀ q : Fin 8, ∃ t : Fin grid0.N, win0_2.index t = ![q.val, 0])

/-- What point t writes back is block t of the product array. -/
theorem projFlushed_eq (c : Dev nD) (t : Fin cfg0.N) :
    (projDat (F := Ideal) V c).flushed 2 t = ((cfg0.win 2).blk t).view.read (Elt Ideal) (projG V c) := by
  show (cfg0.win 2).cut (grid0.coords t) ((projDat (F := Ideal) V c).after 2 t) = _
  rw [projAfter_2]
  unfold projOut
  rw [View.canon_unit_zero hzProj]
  simp only [View.ld_unit_zero (S := S512x1024) hzProj, View.ld_unit_zero (S := S3072x1024) hzProj]
  obtain ⟨e0, e1, e2, e3, e4, e5⟩ := projIdx t
  funext j
  obtain ⟨p, e, hj, hp, he⟩ : ∃ (p : Fin 512) (e : Fin 3072),
      (cfg0.win 2).xinj (grid0.coords t) j = ix2 p e ∧ p.val = (j 0).val ∧ e.val = (j 1).val :=
    ⟨⟨(j 0).val, (j 0).isLt⟩, ⟨(j 1).val, (j 1).isLt⟩,
      funext fun a => by match a with | ⟨0, _⟩ => rfl | ⟨1, _⟩ => rfl, rfl, rfl⟩
  show k0_pay1 (F := Ideal) (projBlk V c 0 t) (projBlk V c 1 t) ((cfg0.win 2).xinj (grid0.coords t) j)
    = projG V c (((cfg0.win 2).blk t).view.emb j)
  rw [hj, projPay_at]
  unfold projG projE
  refine Finset.sum_congr rfl fun k _ => ?_
  have h0 : projBlk V c 0 t (ix2 p k)
      = projXArr V c (ix2 ⟨(((cfg0.win 2).blk t).view.emb j 0).val, (((cfg0.win 2).blk t).view.emb j 0).isLt⟩ k) := by
    show projXArr V c (((cfg0.win 0).blk t).view.emb (ix2 p k)) = _
    refine congrArg (projXArr V c) (funext fun a => Fin.ext ?_)
    match a with
    | ⟨0, _⟩ => show win0_0.index t (0 : Fin 2) * 512 + 1 * p.val = win0_2.index t (0 : Fin 2) * 512 + 1 * (j 0).val; omega
    | ⟨1, _⟩ => show win0_0.index t (1 : Fin 2) * 1024 + 1 * k.val = k.val; omega
  have h1 : projBlk V c 1 t (ix2 e k)
      = projWArr V c (ix2 ⟨(((cfg0.win 2).blk t).view.emb j 1).val, (((cfg0.win 2).blk t).view.emb j 1).isLt⟩ k) := by
    show projWArr V c (((cfg0.win 1).blk t).view.emb (ix2 e k)) = _
    refine congrArg (projWArr V c) (funext fun a => Fin.ext ?_)
    match a with
    | ⟨0, _⟩ => show win0_1.index t (0 : Fin 2) * 3072 + 1 * e.val = win0_2.index t (1 : Fin 2) * 3072 + 1 * (j 1).val; omega
    | ⟨1, _⟩ => show win0_1.index t (1 : Fin 2) * 1024 + 1 * k.val = k.val; omega
  rw [h0, h1]

/-- An index of the output array lies in point t's block iff each coordinate lies in the block's range on its axis. -/
theorem projMem_blk (t : Fin cfg0.N) (i : S4096x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v2).slice (win0_2.rect t)).set ↔ _
  rw [View.set_slice_whole, Rect.mem_set_unit]
  exact Iff.rfl

/-- Row r of the output lies in the block of the point whose block row is r / 512. -/
theorem projCovered (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := projOnto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [projMem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- The output array after the launch is the product array. -/
theorem projArr_eq (c : Dev nD) : (projDat (F := Ideal) V c).arrAt 2 cfg0.N = projG V c :=
  (projDat (F := Ideal) V c).arrAt_eq_of_cover 2 (projG V c) (fun t _ => projFlushed_eq V c t) projCovered

/-- The output array of the projection launch read at (r, e), from the entry contents of its two input arrays read at
    coordinates (A for the [4096, 1024] input, B for the [3072, 1024] weight). -/
theorem projArr (c : Dev nD) (A : Fin 4096 → Fin 1024 → EReal) (B : Fin 3072 → Fin 1024 → EReal)
    (hA : ∀ (r : Fin 4096) (k : Fin 1024), V c main_v0 (ix2 r k) = A r k)
    (hB : ∀ (e : Fin 3072) (k : Fin 1024), V c main_v1 (ix2 e k) = B e k)
    (r : Fin 4096) (e : Fin 3072) :
    (projDat (F := Ideal) V c).arrAt 2 cfg0.N (ix2 r e) = ∑ k : Fin 1024, A r k * B e k := by
  rw [projArr_eq]
  show projE V c r e = _
  unfold projE
  exact Finset.sum_congr rfl fun k _ => by
    rw [show projXArr V c (ix2 r k) = A r k from hA r k, show projWArr V c (ix2 e k) = B e k from hB e k]

end Cert.KernelIdeal.Val

end
-- ==== Proof.Val.HostValue.lean ====
/-
  What the attention launch is entered from, at the ideal values: the query, key and value arrays laid out by head are
  the fused projection of the arguments at the head's columns of its query, key and value bands, and the output weight
  laid out by head is the argument's entry at the head's feature.
-/
import proofs.«415323_j1580547966014_3_alg».proof.Proof.Fr.Fold
import proofs.«415323_j1580547966014_3_alg».proof.Proof.Val.ProjValue
import proofs.«415323_j1580547966014_3_alg».proof.Proof.Arr
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.Mha

variable (m : (ℓ : Loc nD τ sig) → Buf (Elt Ideal) ℓ)

/-! ## The layout operations read at coordinates -/

section Layout
variable {α : Type}

/-- Rows of [4096, ·] as (batch, position): entry (b, s, e) of the [2, 2048, 3072] view is entry (2048·b + s, e). -/
theorem hostRows_apply (y : S4096x3072.Idx → α) (b : Fin 2) (s : Fin 2048) (e : Fin 3072) :
    shapeCast S2x2048x3072 y shapeCasts_S4096x3072_S2x2048x3072 (ix3 b s e)
      = y (ix2 (⟨2048 * b.val + s.val, by omega⟩ : Fin 4096) e) :=
  shapeCast_apply y shapeCasts_S4096x3072_S2x2048x3072 (ix3 b s e) (ix2 (⟨2048 * b.val + s.val, by omega⟩ : Fin 4096) e)
    (by rewrite [Shape.rowMajor_val_two, Shape.rowMajor_val_three]
        show (2048 * b.val + s.val) * 3072 + e.val = (b.val * 2048 + s.val) * 3072 + e.val
        omega)

/-- A band of 1024 columns starting at column `off`: entry (b, s, j) of the band is entry (b, s, off + j). -/
theorem hostBand_apply (off : Nat) (y : S2x2048x3072.Idx → α) (hs : S2x2048x3072.Slices ![0, 0, off] S2x2048x1024)
    (b : Fin 2) (s : Fin 2048) (j : Fin 1024) (hj : off + j.val < 3072) :
    extractStridedSlice S2x2048x1024 ![0, 0, off] y hs (ix3 b s j) = y (ix3 b s (⟨off + j.val, hj⟩ : Fin 3072)) :=
  extractStridedSlice_apply ![0, 0, off] y hs (ix3 b s j) (ix3 b s (⟨off + j.val, hj⟩ : Fin 3072)) (fun a => match a with
    | ⟨0, _⟩ => by show b.val = 0 + b.val; omega
    | ⟨1, _⟩ => by show s.val = 0 + s.val; omega
    | ⟨2, _⟩ => by show off + j.val = off + j.val; rfl)

/-- The 1024 columns of a band as 16 heads of 64 features: entry (b, s, h, p) is entry (b, s, 64·h + p). -/
theorem hostHeads_apply (y : S2x2048x1024.Idx → α) (b : Fin 2) (s : Fin 2048) (h : Fin 16) (p : Fin 64) :
    shapeCast S2x2048x16x64 y shapeCasts_S2x2048x1024_S2x2048x16x64 (ix4 b s h p)
      = y (ix3 b s (⟨64 * h.val + p.val, by omega⟩ : Fin 1024)) :=
  shapeCast_apply y shapeCasts_S2x2048x1024_S2x2048x16x64 (ix4 b s h p) (ix3 b s (⟨64 * h.val + p.val, by omega⟩ : Fin 1024))
    (by rewrite [Shape.rowMajor_val_three, Shape.rowMajor_val_four]
        show (b.val * 2048 + s.val) * 1024 + (64 * h.val + p.val) = ((b.val * 2048 + s.val) * 16 + h.val) * 64 + p.val
        omega)

/-- Positions and heads exchanged: entry (b, h, s, p) of the result is entry (b, s, h, p). -/
theorem hostByHead_apply (y : S2x2048x16x64.Idx → α) (b : Fin 2) (h : Fin 16) (s : Fin 2048) (p : Fin 64) :
    transpose S2x16x2048x64 [0, 2, 1, 3] y transposes_S2x2048x16x64_S2x16x2048x64_0_2_1_3 (ix4 b h s p) = y (ix4 b s h p) :=
  transpose_apply [0, 2, 1, 3] y transposes_S2x2048x16x64_S2x16x2048x64_0_2_1_3 (ix4 b h s p) (ix4 b s h p) (fun a => match a with
    | ⟨0, _⟩ => rfl
    | ⟨1, _⟩ => rfl
    | ⟨2, _⟩ => rfl
    | ⟨3, _⟩ => rfl)

/-- The four together: a band of the [4096, 3072] array laid out by head, read at (b, h, s, p). -/
theorem hostBandByHead_apply (off : Nat) (y : S4096x3072.Idx → α) (hs : S2x2048x3072.Slices ![0, 0, off] S2x2048x1024)
    (b : Fin 2) (h : Fin 16) (s : Fin 2048) (p : Fin 64) (hj : off + (64 * h.val + p.val) < 3072) :
    transpose S2x16x2048x64 [0, 2, 1, 3]
        (shapeCast S2x2048x16x64
          (extractStridedSlice S2x2048x1024 ![0, 0, off] (shapeCast S2x2048x3072 y shapeCasts_S4096x3072_S2x2048x3072) hs)
          shapeCasts_S2x2048x1024_S2x2048x16x64)
        transposes_S2x2048x16x64_S2x16x2048x64_0_2_1_3 (ix4 b h s p)
      = y (ix2 (⟨2048 * b.val + s.val, by omega⟩ : Fin 4096) (⟨off + (64 * h.val + p.val), hj⟩ : Fin 3072)) := by
  rw [hostByHead_apply, hostHeads_apply, hostBand_apply off _ hs b s _ hj, hostRows_apply]

/-- The input's rows: entry (2048·b + s, k) of the [4096, 1024] view of a [2, 2048, 1024] array is its entry (b, s, k). -/
theorem hostFlat_apply (x : S2x2048x1024.Idx → α) (b : Fin 2) (s : Fin 2048) (k : Fin 1024) :
    shapeCast S4096x1024 x shapeCasts_S2x2048x1024_S4096x1024 (ix2 (⟨2048 * b.val + s.val, by omega⟩ : Fin 4096) k)
      = x (ix3 b s k) :=
  shapeCast_apply x shapeCasts_S2x2048x1024_S4096x1024 (ix2 (⟨2048 * b.val + s.val, by omega⟩ : Fin 4096) k) (ix3 b s k)
    (by rewrite [Shape.rowMajor_val_two, Shape.rowMajor_val_three]
        show (b.val * 2048 + s.val) * 1024 + k.val = (2048 * b.val + s.val) * 1024 + k.val
        omega)

/-- The output weight's 1024 features as 16 heads of 64: entry (o, h, p) is entry (o, 64·h + p). -/
theorem hostWHeads_apply (w : S1024x1024.Idx → α) (o : Fin 1024) (h : Fin 16) (p : Fin 64) :
    shapeCast S1024x16x64 w shapeCasts_S1024x1024_S1024x16x64 (ix3 o h p)
      = w (ix2 o (⟨64 * h.val + p.val, by omega⟩ : Fin 1024)) :=
  shapeCast_apply w shapeCasts_S1024x1024_S1024x16x64 (ix3 o h p) (ix2 o (⟨64 * h.val + p.val, by omega⟩ : Fin 1024))
    (by rewrite [Shape.rowMajor_val_two, Shape.rowMajor_val_three]
        show o.val * 1024 + (64 * h.val + p.val) = (o.val * 16 + h.val) * 64 + p.val
        omega)

/-- Heads in front: entry (h, o, p) of the result is entry (o, h, p). -/
theorem hostWByHead_apply (w : S1024x16x64.Idx → α) (h : Fin 16) (o : Fin 1024) (p : Fin 64) :
    transpose S16x1024x64 [1, 0, 2] w transposes_S1024x16x64_S16x1024x64_1_0_2 (ix3 h o p) = w (ix3 o h p) :=
  transpose_apply [1, 0, 2] w transposes_S1024x16x64_S16x1024x64_1_0_2 (ix3 h o p) (ix3 o h p) (fun a => match a with
    | ⟨0, _⟩ => rfl
    | ⟨1, _⟩ => rfl
    | ⟨2, _⟩ => rfl)

end Layout

/-! ## The buffers as the operations' terms -/

/-- The projection launch's first operand is the input with (batch, position) flattened to rows. -/
theorem hostE_v0 (c : Dev nD) :
    (E1 m c main_v0 : S4096x1024.Idx → EReal)
      = shapeCast S4096x1024 (m ((c : Thread nD τ).loc main_arg0) : S2x2048x1024.Idx → EReal) shapeCasts_S2x2048x1024_S4096x1024 := by
  show StableHlo.after hostOps0 (W0 m c) (Proc.devRef .tc main_v0) = _
  after_results
  rfl

/-- Its second operand is the fused weight (the conversion is the identity on the extended reals). -/
theorem hostE_v1 (c : Dev nD) :
    (E1 m c main_v1 : FVec Ideal S3072x1024 .bf16)
      = (truncf (F := Ideal) (s := S3072x1024) (φ := .f32) .bf16 (m ((c : Thread nD τ).loc main_arg1)) bitsLt_bf16_f32
          : FVec Ideal S3072x1024 .bf16) := by
  show StableHlo.after hostOps0 (W0 m c) (Proc.devRef .tc main_v1) = _
  after_results

/-- Queries by head, from the projection launch's output array. -/
theorem hostE_v8 (c : Dev nD) :
    (E3 m c main_v8 : S2x16x2048x64.Idx → EReal)
      = transpose S2x16x2048x64 [0, 2, 1, 3]
          (shapeCast S2x2048x16x64
            (extractStridedSlice S2x2048x1024 ![0, 0, 2048]
              (shapeCast S2x2048x3072 (W2 m c (Proc.devRef .tc main_v2) : S4096x3072.Idx → EReal) shapeCasts_S4096x3072_S2x2048x3072)
              slices_S2x2048x3072_S2x2048x1024_0_0_2048)
            shapeCasts_S2x2048x1024_S2x2048x16x64)
          transposes_S2x2048x16x64_S2x16x2048x64_0_2_1_3 := by
  show StableHlo.after hostOps1 (W2 m c) (Proc.devRef .tc main_v8) = _
  after_results
  rfl

/-- Keys by head. -/
theorem hostE_v10 (c : Dev nD) :
    (E3 m c main_v10 : S2x16x2048x64.Idx → EReal)
      = transpose S2x16x2048x64 [0, 2, 1, 3]
          (shapeCast S2x2048x16x64
            (extractStridedSlice S2x2048x1024 ![0, 0, 1024]
              (shapeCast S2x2048x3072 (W2 m c (Proc.devRef .tc main_v2) : S4096x3072.Idx → EReal) shapeCasts_S4096x3072_S2x2048x3072)
              slices_S2x2048x3072_S2x2048x1024_0_0_1024)
            shapeCasts_S2x2048x1024_S2x2048x16x64)
          transposes_S2x2048x16x64_S2x16x2048x64_0_2_1_3 := by
  show StableHlo.after hostOps1 (W2 m c) (Proc.devRef .tc main_v10) = _
  after_results
  rfl

/-- Values by head. -/
theorem hostE_v12 (c : Dev nD) :
    (E3 m c main_v12 : S2x16x2048x64.Idx → EReal)
      = transpose S2x16x2048x64 [0, 2, 1, 3]
          (shapeCast S2x2048x16x64
            (extractStridedSlice S2x2048x1024 ![0, 0, 0]
              (shapeCast S2x2048x3072 (W2 m c (Proc.devRef .tc main_v2) : S4096x3072.Idx → EReal) shapeCasts_S4096x3072_S2x2048x3072)
              slices_S2x2048x3072_S2x2048x1024_0_0_0)
            shapeCasts_S2x2048x1024_S2x2048x16x64)
          transposes_S2x2048x16x64_S2x16x2048x64_0_2_1_3 := by
  show StableHlo.after hostOps1 (W2 m c) (Proc.devRef .tc main_v12) = _
  after_results
  rfl

/-- The output weight by head, from the argument as the second stretch finds it. -/
theorem hostE_v15 (c : Dev nD) :
    (E3 m c main_v15 : FVec Ideal S16x1024x64 .bf16)
      = (truncf (F := Ideal) (s := S16x1024x64) (φ := .f32) .bf16
          (transpose S16x1024x64 [1, 0, 2]
            (shapeCast S1024x16x64 (W2 m c (Proc.devRef .tc main_arg2) : FVec Ideal S1024x1024 .f32) shapeCasts_S1024x1024_S1024x16x64)
            transposes_S1024x16x64_S16x1024x64_1_0_2)
          bitsLt_bf16_f32 : FVec Ideal S16x1024x64 .bf16) := by
  show StableHlo.after hostOps1 (W2 m c) (Proc.devRef .tc main_v15) = _
  after_results
  rfl

/-- The output weight reaches the second stretch as launched. -/
theorem hostW2_main_arg2 (c : Dev nD) : W2 m c (Proc.devRef .tc main_arg2) = m ((c : Thread nD τ).loc main_arg2) :=
  (W2_of_ne m c main_arg2 (by decide)).trans <| (W1_of m c main_arg2 (by decide)).trans rfl

/-! ## The projection launch's output array at coordinates -/

/-- Entry (2048·b + s, e) of the projection launch's output array is the fused projection of the arguments at (b, s, e). -/
theorem hostProjOut (c : Dev nD) (b : Fin 2) (s : Fin 2048) (e : Fin 3072) :
    (W2 m c (Proc.devRef .tc main_v2) : S4096x3072.Idx → EReal) (ix2 (⟨2048 * b.val + s.val, by omega⟩ : Fin 4096) e)
      = proj (in3 (m ((c : Thread nD τ).loc main_arg0))) (inWi (m ((c : Thread nD τ).loc main_arg1))) b s e := by
  have h2 : (W2 m c (Proc.devRef .tc main_v2) : S4096x3072.Idx → EReal) = (projDat (E1 m) c).arrAt 2 cfg0.N := W2_arr m c 2
  have hA : ∀ (r : Fin 4096) (k : Fin 1024), E1 m c main_v0 (ix2 r k)
      = shapeCast (s := S2x2048x1024) (α := EReal) S4096x1024 (m ((c : Thread nD τ).loc main_arg0))
          shapeCasts_S2x2048x1024_S4096x1024 (ix2 r k) :=
    fun r k => congrFun (hostE_v0 m c) (ix2 r k)
  have hB : ∀ (e : Fin 3072) (k : Fin 1024), E1 m c main_v1 (ix2 e k) = inWi (m ((c : Thread nD τ).loc main_arg1)) e k :=
    fun e k => congrFun (hostE_v1 m c) (ix2 e k)
  have hp := projArr (E1 m) c
    (fun r k => shapeCast (s := S2x2048x1024) (α := EReal) S4096x1024 (m ((c : Thread nD τ).loc main_arg0))
      shapeCasts_S2x2048x1024_S4096x1024 (ix2 r k))
    (fun e k => inWi (m ((c : Thread nD τ).loc main_arg1)) e k) hA hB (⟨2048 * b.val + s.val, by omega⟩ : Fin 4096) e
  have hs : (∑ k : Fin 1024,
        shapeCast (s := S2x2048x1024) (α := EReal) S4096x1024 (m ((c : Thread nD τ).loc main_arg0))
            shapeCasts_S2x2048x1024_S4096x1024 (ix2 (⟨2048 * b.val + s.val, by omega⟩ : Fin 4096) k)
          * inWi (m ((c : Thread nD τ).loc main_arg1)) e k)
      = proj (in3 (m ((c : Thread nD τ).loc main_arg0))) (inWi (m ((c : Thread nD τ).loc main_arg1))) b s e := by
    unfold proj
    exact Finset.sum_congr rfl fun k _ => by rw [hostFlat_apply]; rfl
  exact (congrFun h2 _).trans (hp.trans hs)

/-! ## What the attention launch is entered from -/

/-- Queries by head: entry (b, h, s, p) of the first operand of the attention launch. -/
theorem qArr (c : Dev nD) (b : Fin 2) (h : Fin 16) (s : Fin 2048) (p : Fin 64) :
    E3 m c main_v8 (ix4 b h s p)
      = proj (in3 (m ((c : Thread nD τ).loc main_arg0))) (inWi (m ((c : Thread nD τ).loc main_arg1))) b s (qCol h p) := by
  rw [hostE_v8, hostBandByHead_apply 2048 _ _ b h s p (by omega), hostProjOut]
  rfl
/-- Keys by head. -/
theorem kArr (c : Dev nD) (b : Fin 2) (h : Fin 16) (s : Fin 2048) (p : Fin 64) :
    E3 m c main_v10 (ix4 b h s p)
      = proj (in3 (m ((c : Thread nD τ).loc main_arg0))) (inWi (m ((c : Thread nD τ).loc main_arg1))) b s (kCol h p) := by
  rw [hostE_v10, hostBandByHead_apply 1024 _ _ b h s p (by omega), hostProjOut]
  rfl
/-- Values by head. -/
theorem vArr (c : Dev nD) (b : Fin 2) (h : Fin 16) (s : Fin 2048) (p : Fin 64) :
    E3 m c main_v12 (ix4 b h s p)
      = proj (in3 (m ((c : Thread nD τ).loc main_arg0))) (inWi (m ((c : Thread nD τ).loc main_arg1))) b s (vCol h p) := by
  rw [hostE_v12, hostBandByHead_apply 0 _ _ b h s p (by omega), hostProjOut]
  exact congrArg _ (Fin.ext (by show 0 + (64 * h.val + p.val) = 64 * h.val + p.val; omega))
/-- The output weight by head: entry (h, o, p). -/
theorem wArr (c : Dev nD) (h : Fin 16) (o : Fin 1024) (p : Fin 64) :
    E3 m c main_v15 (ix3 h o p) = inWo (m ((c : Thread nD τ).loc main_arg2)) o (dCol h p) := by
  rw [hostE_v15, truncf_apply, hostWByHead_apply, hostWHeads_apply, hostW2_main_arg2]
  rfl

end Cert.KernelIdeal.Val

end
-- ==== Proof.Val.Kernel.lean ====
/-
  The kernel program's result at the ideal values: the attention launch is entered from the fused projection of the
  arguments laid out by head, so its output array is the late-normalised, head-after-head arrangement of the
  specification, as a function of the three argument arrays.
-/
import proofs.«415323_j1580547966014_3_alg».proof.Proof.Val.AttnValue
import proofs.«415323_j1580547966014_3_alg».proof.Proof.Val.HostValue

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.Mha

variable (m : (ℓ : Loc nD τ sig) → Buf (Elt Ideal) ℓ)

/-- What the attention launch's write-backs leave in the result array, from the launch contents of the arguments. -/
theorem kernel_value (c : Dev nD) :
    (attnDat (F := Ideal) (E3 m) c).arrAt 4 cfg1.N
      = lateOf (m ((c : Thread nD τ).loc main_arg0)) (m ((c : Thread nD τ).loc main_arg1)) (m ((c : Thread nD τ).loc main_arg2)) :=
  attnArr (E3 m) c _ _ _ (qArr m c) (kArr m c) (vArr m c) (wArr m c)

end Cert.KernelIdeal.Val

end
-- ==== Proof.RefValue.lean ====
/-
  The reference's result, read element by element, is the early-normalised arrangement of multi-head attention.

  Every stage of the reference is read at explicit coordinates (batch b, head h, query row s, key row t, feature p,
  fused column e, output column o) and identified with the corresponding quantity of the specification:
  the fused projection, the three head arrays (queries, keys, values: column bands 2048…, 1024…, 0… of the
  projection, feature 64·h + p), the scaled logits, the row maximum taken from −∞, the weights exp(logit − max),
  the row's normaliser, the normalised weights, their product with the values, the heads laid side by side as 1024
  features (feature d is head d / 64, column d % 64), and the output projection.
-/
import proofs.«415323_j1580547966014_3_alg».proof.Proof.Gen.ReferenceIdeal.Read
import proofs.«415323_j1580547966014_3_alg».proof.Proof.Arr
import Idealize.ShloMosaic.PureOps.Reduce
import Idealize.ShloMosaic.PureOps.Ideal.Laws
import Idealize.ShloMosaic.Lib.ValueIdx
import Mathlib.Data.Finset.Fold

noncomputable section

namespace Cert.RefSide

open Cert.ReferenceIdeal Cert.ReferenceIdeal.Gen Cert.ReferenceIdeal.Read Idealize.ShloMosaic Idealize.ShloMosaic.ValueIdx
  Idealize.ShloMosaic.TcCoe Idealize.SL.Sem Cert.Mha

variable (x : (⟨S2x2048x1024, .f32⟩ : BufTy).Contents (Elt Ideal)) (wi : (⟨S3072x1024, .f32⟩ : BufTy).Contents (Elt Ideal))
  (wo : (⟨S1024x1024, .f32⟩ : BufTy).Contents (Elt Ideal))

/-- The fused projection at (b, s, e). -/
theorem v0_at (b : Fin 2) (s : Fin 2048) (e : Fin 3072) :
    val_main_v0 (F := Ideal) x wi (ix3 b s e) = proj (in3 x) (inWi wi) b s e := by
  rw [val_main_v0_apply]
  unfold proj in3 inWi
  refine Finset.sum_congr rfl fun k _ => ?_
  have hl : lidx_main_v0 (ix3 b s e) k = ix3 b s k :=
    funext fun a => Fin.ext (by match a with | ⟨0, _⟩ => rfl | ⟨1, _⟩ => rfl | ⟨2, _⟩ => rfl)
  have hr : ridx_main_v0 (ix3 b s e) k = ix2 e k :=
    funext fun a => Fin.ext (by match a with | ⟨0, _⟩ => rfl | ⟨1, _⟩ => rfl)
  rw [hl, hr]

/-- The queries at (b, h, s, p): the projection's column 2048 + 64·h + p of row s. -/
theorem v5_at (b : Fin 2) (h : Fin 16) (s : Fin 2048) (p : Fin 64) :
    val_main_v5 (F := Ideal) x wi (ix4 b h s p) = proj (in3 x) (inWi wi) b s (qCol h p) := by
  rw [val_main_v5_apply, val_main_v4_apply, val_main_v3_apply]
  have hb := b.isLt; have hh := h.isLt; have hs := s.isLt; have hp := p.isLt
  have hi : idx_main_v3 (idx_main_v4 (idx_main_v5 (ix4 b h s p))) = ix3 b s (qCol h p) :=
    funext fun a => Fin.ext (by
      match a with
      | ⟨0, _⟩ => show (((b.val * 2048 + s.val) * 16 + h.val) * 64 + p.val) / 2097152 = b.val; omega
      | ⟨1, _⟩ => show (((b.val * 2048 + s.val) * 16 + h.val) * 64 + p.val) / 1024 % 2048 = s.val; omega
      | ⟨2, _⟩ => show 2048 + (((b.val * 2048 + s.val) * 16 + h.val) * 64 + p.val) % 1024 = 2048 + (64 * h.val + p.val); omega)
  rw [hi, v0_at]

/-- The keys at (b, h, t, p): the projection's column 1024 + 64·h + p of row t. -/
theorem v7_at (b : Fin 2) (h : Fin 16) (t : Fin 2048) (p : Fin 64) :
    val_main_v7 (F := Ideal) x wi (ix4 b h t p) = proj (in3 x) (inWi wi) b t (kCol h p) := by
  rw [val_main_v7_apply, val_main_v6_apply, val_main_v2_apply]
  have hb := b.isLt; have hh := h.isLt; have ht := t.isLt; have hp := p.isLt
  have hi : idx_main_v2 (idx_main_v6 (idx_main_v7 (ix4 b h t p))) = ix3 b t (kCol h p) :=
    funext fun a => Fin.ext (by
      match a with
      | ⟨0, _⟩ => show (((b.val * 2048 + t.val) * 16 + h.val) * 64 + p.val) / 2097152 = b.val; omega
      | ⟨1, _⟩ => show (((b.val * 2048 + t.val) * 16 + h.val) * 64 + p.val) / 1024 % 2048 = t.val; omega
      | ⟨2, _⟩ => show 1024 + (((b.val * 2048 + t.val) * 16 + h.val) * 64 + p.val) % 1024 = 1024 + (64 * h.val + p.val); omega)
  rw [hi, v0_at]

/-- The values at (b, h, t, p): the projection's column 64·h + p of row t. -/
theorem v9_at (b : Fin 2) (h : Fin 16) (t : Fin 2048) (p : Fin 64) :
    val_main_v9 (F := Ideal) x wi (ix4 b h t p) = proj (in3 x) (inWi wi) b t (vCol h p) := by
  rw [val_main_v9_apply, val_main_v8_apply, val_main_v1_apply]
  have hb := b.isLt; have hh := h.isLt; have ht := t.isLt; have hp := p.isLt
  have hi : idx_main_v1 (idx_main_v8 (idx_main_v9 (ix4 b h t p))) = ix3 b t (vCol h p) :=
    funext fun a => Fin.ext (by
      match a with
      | ⟨0, _⟩ => show (((b.val * 2048 + t.val) * 16 + h.val) * 64 + p.val) / 2097152 = b.val; omega
      | ⟨1, _⟩ => show (((b.val * 2048 + t.val) * 16 + h.val) * 64 + p.val) / 1024 % 2048 = t.val; omega
      | ⟨2, _⟩ => show (((b.val * 2048 + t.val) * 16 + h.val) * 64 + p.val) % 1024 = 64 * h.val + p.val; omega)
  rw [hi, v0_at]

/-- The scaled logits at (b, h, s, t). -/
theorem v12_at (b : Fin 2) (h : Fin 16) (s t : Fin 2048) :
    val_main_v12 (F := Ideal) x wi (ix4 b h s t) = logit (in3 x) (inWi wi) b h s t := by
  rw [val_main_v12_apply, val_main_v11_apply, val_main_cst_apply, val_main_v10_apply, Ideal.mulf_def, Ideal.ofBits_def]
  unfold logit
  rw [mul_comm]
  refine congrArg (· * eighth) (Finset.sum_congr rfl fun p _ => ?_)
  have hl : lidx_main_v10 (ix4 b h s t) p = ix4 b h s p :=
    funext fun a => Fin.ext (by match a with | ⟨0, _⟩ => rfl | ⟨1, _⟩ => rfl | ⟨2, _⟩ => rfl | ⟨3, _⟩ => rfl)
  have hr : ridx_main_v10 (ix4 b h s t) p = ix4 b h t p :=
    funext fun a => Fin.ext (by match a with | ⟨0, _⟩ => rfl | ⟨1, _⟩ => rfl | ⟨2, _⟩ => rfl | ⟨3, _⟩ => rfl)
  rw [hl, hr, v5_at, v7_at]

/-- The shape fact naming the index inserted on the reduced axis. -/
theorem red3 : S2x16x2048x2048.Reduces [3] S2x16x2048 := by decide

/-- A row index with key coordinate t inserted on the last axis. -/
theorem lift_at (b : Fin 2) (h : Fin 16) (s t : Fin 2048) :
    red3.lift (ix3 b h s) t = ix4 b h s t :=
  funext fun a => Fin.ext (by
    match a with
    | ⟨0, _⟩ => rfl
    | ⟨1, _⟩ => rfl
    | ⟨2, _⟩ => rfl
    | ⟨3, _⟩ => rfl)

/-- The row maximum at (b, h, s): the fold of max from −∞ over the key rows. -/
theorem v13_at (b : Fin 2) (h : Fin 16) (s : Fin 2048) :
    val_main_v13 (F := Ideal) x wi (ix3 b h s) = rowMax (in3 x) (inWi wi) b h s := by
  unfold val_main_v13
  rw [Host.reduce_eq_fold_single _ _ _ _ red3]
  unfold rowMax
  have hf : (val_main_v12 (F := Ideal) x wi ∘ red3.lift (ix3 b h s)) = fun t : Fin 2048 => logit (in3 x) (inWi wi) b h s t :=
    funext fun t => (congrArg (val_main_v12 (F := Ideal) x wi) (lift_at b h s t)).trans (v12_at x wi b h s t)
  rw [hf]
  rfl

/-- The maximum with the broadcast −∞ changes nothing: the fold starts from −∞. -/
theorem v15_at (b : Fin 2) (h : Fin 16) (s : Fin 2048) :
    val_main_v15 (F := Ideal) x wi (ix3 b h s) = rowMax (in3 x) (inWi wi) b h s := by
  rw [val_main_v15_apply, val_main_v14_apply, val_main_cst_1_apply, v13_at, Ideal.maximumf_def, Ideal.ofBits_def]
  exact max_eq_right ((Finset.le_fold_max _).mpr (Or.inl le_rfl))

/-- The row maximum broadcast along the key rows. -/
theorem v17_at (b : Fin 2) (h : Fin 16) (s t : Fin 2048) :
    val_main_v17 (F := Ideal) x wi (ix4 b h s t) = rowMax (in3 x) (inWi wi) b h s := by
  rw [val_main_v17_apply, val_main_v16_apply]
  have hi : idx_main_v16 (idx_main_v17 (ix4 b h s t)) = ix3 b h s :=
    funext fun a => Fin.ext (by match a with | ⟨0, _⟩ => rfl | ⟨1, _⟩ => rfl | ⟨2, _⟩ => rfl)
  rw [hi, v15_at]

/-- The unnormalised weights at (b, h, s, t). -/
theorem v19_at (b : Fin 2) (h : Fin 16) (s t : Fin 2048) :
    val_main_v19 (F := Ideal) x wi (ix4 b h s t) = weight (in3 x) (inWi wi) b h s t := by
  rw [val_main_v19_apply, val_main_v18_apply, v12_at, v17_at, Ideal.hostUnary_exp_def, Ideal.subf_def]
  rfl

/-- The row's normaliser at (b, h, s): the sum from 0 of the weights. -/
theorem v20_at (b : Fin 2) (h : Fin 16) (s : Fin 2048) :
    val_main_v20 (F := Ideal) x wi (ix3 b h s) = rowSum (in3 x) (inWi wi) b h s := by
  rw [val_main_v20_apply, val_main_cst_2_apply, Ideal.ofBits_def, Ideal.ofBits_zero_f32, zero_add]
  unfold rowSum
  refine Finset.sum_congr rfl fun t _ => ?_
  have hi : idx_main_v20 (ix3 b h s) t = ix4 b h s t :=
    funext fun a => Fin.ext (by match a with | ⟨0, _⟩ => rfl | ⟨1, _⟩ => rfl | ⟨2, _⟩ => rfl | ⟨3, _⟩ => rfl)
  rw [hi, v19_at]

/-- The normaliser broadcast along the key rows. -/
theorem v22_at (b : Fin 2) (h : Fin 16) (s t : Fin 2048) :
    val_main_v22 (F := Ideal) x wi (ix4 b h s t) = rowSum (in3 x) (inWi wi) b h s := by
  rw [val_main_v22_apply, val_main_v21_apply]
  have hi : idx_main_v21 (idx_main_v22 (ix4 b h s t)) = ix3 b h s :=
    funext fun a => Fin.ext (by match a with | ⟨0, _⟩ => rfl | ⟨1, _⟩ => rfl | ⟨2, _⟩ => rfl)
  rw [hi, v20_at]

/-- The normalised weights at (b, h, s, t). -/
theorem v23_at (b : Fin 2) (h : Fin 16) (s t : Fin 2048) :
    val_main_v23 (F := Ideal) x wi (ix4 b h s t)
      = Ideal.div (weight (in3 x) (inWi wi) b h s t) (rowSum (in3 x) (inWi wi) b h s) := by
  rw [val_main_v23_apply, v19_at, v22_at, Ideal.hostDivf_def]

/-- The attended values at (b, h, s, p), weights normalised first. -/
theorem v24_at (b : Fin 2) (h : Fin 16) (s : Fin 2048) (p : Fin 64) :
    val_main_v24 (F := Ideal) x wi (ix4 b h s p) = attEarly (in3 x) (inWi wi) b h s p := by
  rw [val_main_v24_apply]
  unfold attEarly
  refine Finset.sum_congr rfl fun t _ => ?_
  have hl : lidx_main_v24 (ix4 b h s p) t = ix4 b h s t :=
    funext fun a => Fin.ext (by match a with | ⟨0, _⟩ => rfl | ⟨1, _⟩ => rfl | ⟨2, _⟩ => rfl | ⟨3, _⟩ => rfl)
  have hr : ridx_main_v24 (ix4 b h s p) t = ix4 b h t p :=
    funext fun a => Fin.ext (by match a with | ⟨0, _⟩ => rfl | ⟨1, _⟩ => rfl | ⟨2, _⟩ => rfl | ⟨3, _⟩ => rfl)
  rw [hl, hr, v23_at, v9_at]

/-- The heads laid side by side: feature d of row s is head d / 64, column d % 64. -/
theorem v26_at (b : Fin 2) (s : Fin 2048) (d : Fin 1024) :
    val_main_v26 (F := Ideal) x wi (ix3 b s d)
      = attEarly (in3 x) (inWi wi) b ⟨d.val / 64, by omega⟩ s ⟨d.val % 64, by omega⟩ := by
  rw [val_main_v26_apply, val_main_v25_apply]
  have hb := b.isLt; have hs := s.isLt; have hd := d.isLt
  have hi : idx_main_v25 (idx_main_v26 (ix3 b s d)) = ix4 b (⟨d.val / 64, by omega⟩ : Fin 16) s (⟨d.val % 64, by omega⟩ : Fin 64) :=
    funext fun a => Fin.ext (by
      match a with
      | ⟨0, _⟩ => show ((b.val * 2048 + s.val) * 1024 + d.val) / 2097152 = b.val; omega
      | ⟨1, _⟩ => show ((b.val * 2048 + s.val) * 1024 + d.val) / 64 % 16 = d.val / 64; omega
      | ⟨2, _⟩ => show ((b.val * 2048 + s.val) * 1024 + d.val) / 1024 % 2048 = s.val; omega
      | ⟨3, _⟩ => show ((b.val * 2048 + s.val) * 1024 + d.val) % 64 = d.val % 64; omega)
  rw [hi, v24_at]

/-- The output projection at (b, s, o). -/
theorem v27_at (b : Fin 2) (s : Fin 2048) (o : Fin 1024) :
    val_main_v27 (F := Ideal) x wi wo (ix3 b s o) = outEarly (in3 x) (inWi wi) (inWo wo) b s o := by
  rw [val_main_v27_apply]
  unfold outEarly inWo
  refine Finset.sum_congr rfl fun d _ => ?_
  have hl : lidx_main_v27 (ix3 b s o) d = ix3 b s d :=
    funext fun a => Fin.ext (by match a with | ⟨0, _⟩ => rfl | ⟨1, _⟩ => rfl | ⟨2, _⟩ => rfl)
  have hr : ridx_main_v27 (ix3 b s o) d = ix2 o d :=
    funext fun a => Fin.ext (by match a with | ⟨0, _⟩ => rfl | ⟨1, _⟩ => rfl)
  rw [hl, hr, v26_at]

/-- The reference's result is the early-normalised arrangement of the three argument arrays. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v27 (F := Ideal) m c
      = Cert.Mha.earlyOf (m ((c.tc : Thread Cert.ReferenceIdeal.nD Cert.ReferenceIdeal.τ).loc Cert.ReferenceIdeal.main_arg0))
          (m ((c.tc : Thread _ _).loc Cert.ReferenceIdeal.main_arg1)) (m ((c.tc : Thread _ _).loc Cert.ReferenceIdeal.main_arg2)) := by
  rw [val_main_v27_eq]
  funext i
  obtain ⟨b, s, o, rfl⟩ : ∃ b s o, i = ix3 b s o := ⟨i 0, i 1, i 2, eq_ix3 i⟩
  rw [v27_at]
  rfl

end Cert.RefSide

end
-- ==== Proof.Algebra.lean ====
/-
  The two arrangements of multi-head attention agree on real inputs.

  Where every entry of x, wi and wo is a real number, every intermediate quantity of the specification is a real
  number too: the projections and logits are finite sums of products of reals, the row maximum is a maximum of a
  nonempty finite family of reals, each weight is the exponential of a real and so positive, and each row's
  normaliser is a sum of 2048 positive reals and so a nonzero real L.  Division by L is then multiplication by
  1/L, and
      (Σ_t w_t · v_t) · (1 · (1/L)) = Σ_t (w_t · (1/L)) · v_t
  in ℝ.  What remains is bookkeeping that holds in any commutative additive monoid: the head-after-head
  accumulation from 0 is the sum over the 16 heads, and the sum over the 1024 features d is the double sum over
  heads h = d / 64 and columns p = d % 64, feature d = 64·h + p.
-/
import proofs.«415323_j1580547966014_3_alg».proof.Proof.Spec
import Mathlib.Data.EReal.Basic
import Mathlib.Data.EReal.Operations
import Mathlib.Data.EReal.Inv
import Mathlib.Algebra.BigOperators.Fin
import Mathlib.Algebra.BigOperators.Group.Finset.Basic
import Mathlib.Algebra.BigOperators.Ring.Finset
import Mathlib.Algebra.Order.BigOperators.Group.Finset
import Mathlib.Data.Finset.Fold
import Mathlib.Analysis.SpecialFunctions.Exp

noncomputable section

namespace Cert.Mha

open Idealize.ShloMosaic

/-! ### Real numbers inside the extended reals -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
def IsR (a : EReal) : Prop := ∃ r : ℝ, a = (r : EReal)

theorem IsR.mul {a b : EReal} (ha : IsR a) (hb : IsR b) : IsR (a * b) := by
  obtain ⟨r, rfl⟩ := ha
  obtain ⟨q, rfl⟩ := hb
  exact ⟨r * q, (EReal.coe_mul r q).symm⟩

theorem IsR.sub {a b : EReal} (ha : IsR a) (hb : IsR b) : IsR (a - b) := by
  obtain ⟨r, rfl⟩ := ha
  obtain ⟨q, rfl⟩ := hb
  exact ⟨r - q, (EReal.coe_sub r q).symm⟩

theorem IsR.sum {ι : Type*} (s : Finset ι) {f : ι → EReal} (hf : ∀ i, IsR (f i)) : IsR (∑ i ∈ s, f i) := by
  choose g hg using hf
  refine ⟨∑ i ∈ s, g i, ?_⟩
  rw [coe_sum]
  exact Finset.sum_congr rfl (fun i _ => hg i)

/-- The maximum, taken from −∞, of a nonempty finite family of reals is a real. -/
theorem IsR.fold_max {ι : Type*} (s : Finset ι) (hs : s.Nonempty) {f : ι → EReal} (hf : ∀ i, IsR (f i)) :
    IsR (s.fold max ⊥ f) := by
  classical
  choose g hg using hf
  induction s using Finset.induction_on with
  | empty => exact absurd hs Finset.not_nonempty_empty
  | insert a s ha ih =>
    rw [Finset.fold_insert ha]
    rcases s.eq_empty_or_nonempty with h0 | h1
    · subst h0
      rw [Finset.fold_empty, max_eq_left bot_le]
      exact ⟨g a, hg a⟩
    · obtain ⟨m, hm⟩ := ih h1
      rw [hm, hg a]
      exact ⟨max (g a) m, (EReal.coe_strictMono.monotone.map_max).symm⟩

/-! ### The four constants -/

theorem eighth_eq : eighth = (((1 : ℝ) / 8 : ℝ) : EReal) := by
  simp [eighth, Ideal.ofBits, Ideal.ieee, -EReal.coe_mul]; norm_num

theorem one_eq : one = ((1 : ℝ) : EReal) := by
  simp [one, Ideal.ofBits, Ideal.ieee, -EReal.coe_mul]; norm_num

theorem zero_eq : zero = 0 := Ideal.ofBits_zero_f32

theorem negInf_eq : negInf = ⊥ := by
  simp [negInf, Ideal.ofBits, Ideal.ieee]

/-! ### One attended entry: normalising late or early -/

/-- For real weights w, real values v and a nonzero real normaliser L, the product with the values followed by
    the product with 1/L is the sum of the normalised weights' products with the values. -/
theorem att_agree {ι : Type*} [Fintype ι] (W V : ι → ℝ) (L : ℝ) (hL : L ≠ 0) :
    (∑ t, (W t : EReal) * (V t : EReal)) * Ideal.div one (L : EReal)
      = ∑ t, Ideal.div (W t : EReal) (L : EReal) * (V t : EReal) := by
  rw [Ideal.div_coe hL, one_eq]
  simp only [Ideal.div_coe hL, ← EReal.coe_mul, ← coe_sum]
  rw [EReal.coe_eq_coe_iff, Finset.sum_mul]
  exact Finset.sum_congr rfl (fun t _ => by ring)

/-! ### Every intermediate quantity is a real number -/

section
variable (x : Fin 2 → Fin 2048 → Fin 1024 → EReal) (wi : Fin 3072 → Fin 1024 → EReal)
  (hx : ∀ b s k, ∃ r : ℝ, x b s k = (r : EReal)) (hwi : ∀ e k, ∃ r : ℝ, wi e k = (r : EReal))

include hx hwi

theorem proj_isR (b : Fin 2) (s : Fin 2048) (e : Fin 3072) : IsR (proj x wi b s e) :=
  IsR.sum _ (fun k => IsR.mul (hx b s k) (hwi e k))

theorem logit_isR (b : Fin 2) (h : Fin 16) (s t : Fin 2048) : IsR (logit x wi b h s t) :=
  IsR.mul (IsR.sum _ (fun p => IsR.mul (proj_isR x wi hx hwi b s (qCol h p)) (proj_isR x wi hx hwi b t (kCol h p))))
    ⟨_, eighth_eq⟩

theorem rowMax_isR (b : Fin 2) (h : Fin 16) (s : Fin 2048) : IsR (rowMax x wi b h s) := by
  unfold rowMax
  rw [negInf_eq]
  exact IsR.fold_max _ Finset.univ_nonempty (fun t => logit_isR x wi hx hwi b h s t)

/-- Each weight is a positive real. -/
theorem weight_pos (b : Fin 2) (h : Fin 16) (s t : Fin 2048) :
    ∃ r : ℝ, 0 < r ∧ weight x wi b h s t = (r : EReal) := by
  obtain ⟨d, hd⟩ := IsR.sub (logit_isR x wi hx hwi b h s t) (rowMax_isR x wi hx hwi b h s)
  refine ⟨Real.exp d, Real.exp_pos d, ?_⟩
  unfold weight
  rw [hd, Ideal.exp_coe]

/-- Each row's normaliser is a positive real. -/
theorem rowSum_pos (b : Fin 2) (h : Fin 16) (s : Fin 2048) :
    ∃ L : ℝ, 0 < L ∧ rowSum x wi b h s = (L : EReal) := by
  choose W hWpos hW using weight_pos x wi hx hwi b h s
  refine ⟨∑ t, W t, Finset.sum_pos (fun t _ => hWpos t) Finset.univ_nonempty, ?_⟩
  unfold rowSum
  rw [coe_sum]
  exact Finset.sum_congr rfl (fun t _ => hW t)

/-- One attended entry, normalised late or early. -/
theorem attLate_eq_attEarly (b : Fin 2) (h : Fin 16) (s : Fin 2048) (p : Fin 64) :
    attLate x wi b h s p = attEarly x wi b h s p := by
  choose W _ hW using weight_pos x wi hx hwi b h s
  choose V hV using fun t => proj_isR x wi hx hwi b t (vCol h p)
  obtain ⟨L, hLpos, hL⟩ := rowSum_pos x wi hx hwi b h s
  unfold attLate attEarly
  simp only [hW, hV, hL]
  exact att_agree W V L (ne_of_gt hLpos)

end

/-! ### Bookkeeping of the heads -/

section
variable (x : Fin 2 → Fin 2048 → Fin 1024 → EReal) (wi : Fin 3072 → Fin 1024 → EReal) (wo : Fin 1024 → Fin 1024 → EReal)

/-- The head-after-head accumulation is 0 plus the sum of the first n + 1 contributions. -/
theorem accLate_eq_sum (b : Fin 2) (s : Fin 2048) (o : Fin 1024) (n : ℕ) :
    accLate x wi wo b s o n
      = zero + ∑ j ∈ Finset.range (n + 1), (if hj : j < 16 then headOut x wi wo b ⟨j, hj⟩ s o else 0) := by
  induction n with
  | zero =>
    rw [accLate, Finset.sum_range_one, dif_pos (by norm_num : (0 : ℕ) < 16)]
    rfl
  | succ n ih =>
    rw [accLate, ih, Finset.sum_range_succ _ (n + 1), add_assoc]

/-- The late result is the sum of the 16 heads' contributions. -/
theorem outLate_eq_sum (b : Fin 2) (s : Fin 2048) (o : Fin 1024) :
    outLate x wi wo b s o = ∑ h : Fin 16, headOut x wi wo b h s o := by
  unfold outLate
  rw [accLate_eq_sum, zero_eq, zero_add, Finset.sum_range]
  exact Finset.sum_congr rfl (fun h _ => dif_pos h.isLt)

/-- Feature d = 64·h + p of the 1024 is head h, column p. -/
def hpEquiv : Fin 16 × Fin 64 ≃ Fin 1024 where
  toFun := fun hp => dCol hp.1 hp.2
  invFun := fun d => (⟨d.val / 64, by omega⟩, ⟨d.val % 64, by omega⟩)
  left_inv := by
    rintro ⟨h, p⟩
    ext
    · show (64 * h.val + p.val) / 64 = h.val
      omega
    · show (64 * h.val + p.val) % 64 = p.val
      omega
  right_inv := by
    intro d
    ext
    show 64 * (d.val / 64) + d.val % 64 = d.val
    omega

/-- A sum over the 1024 features is the double sum over heads and columns. -/
theorem sum_features (F : Fin 16 → Fin 64 → Fin 1024 → EReal) :
    ∑ d : Fin 1024, F ⟨d.val / 64, by omega⟩ ⟨d.val % 64, by omega⟩ d
      = ∑ h : Fin 16, ∑ p : Fin 64, F h p (dCol h p) := by
  rw [← Equiv.sum_comp hpEquiv, Fintype.sum_prod_type]
  refine Finset.sum_congr rfl (fun h _ => Finset.sum_congr rfl (fun p _ => ?_))
  have h1 : (⟨(hpEquiv (h, p)).val / 64, by omega⟩ : Fin 16) = h := by
    ext
    show (64 * h.val + p.val) / 64 = h.val
    omega
  have h2 : (⟨(hpEquiv (h, p)).val % 64, by omega⟩ : Fin 64) = p := by
    ext
    show (64 * h.val + p.val) % 64 = p.val
    omega
  rw [h1, h2]
  rfl

/-- The early result is the double sum over heads and columns. -/
theorem outEarly_eq_sum (b : Fin 2) (s : Fin 2048) (o : Fin 1024) :
    outEarly x wi wo b s o = ∑ h : Fin 16, ∑ p : Fin 64, attEarly x wi b h s p * wo o (dCol h p) :=
  sum_features (fun h p d => attEarly x wi b h s p * wo o d)

end

/-! ### The law -/

/-- Late and early normalisation agree wherever every entry of x, wi and wo is a real number. -/
theorem outLate_eq_outEarly
    (x : Fin 2 → Fin 2048 → Fin 1024 → EReal) (wi : Fin 3072 → Fin 1024 → EReal) (wo : Fin 1024 → Fin 1024 → EReal)
    (hx : ∀ b s k, ∃ r : ℝ, x b s k = (r : EReal)) (hwi : ∀ e k, ∃ r : ℝ, wi e k = (r : EReal)) (hwo : ∀ o d, ∃ r : ℝ, wo o d = (r : EReal))
    (b : Fin 2) (s : Fin 2048) (o : Fin 1024) :
    outLate x wi wo b s o = outEarly x wi wo b s o := by
  rw [outLate_eq_sum, outEarly_eq_sum]
  refine Finset.sum_congr rfl (fun h _ => ?_)
  unfold headOut
  exact Finset.sum_congr rfl (fun p _ => by rw [attLate_eq_attEarly x wi hx hwi b h s p])

end Cert.Mha

end
-- ==== Proof.Finite.lean ====
import proofs.«415323_j1580547966014_3_alg».proof.Proof.Gen.Pre_finite_inputs
import Idealize.ShloMosaic.Lib.ReduceAll
import Idealize.ShloMosaic.Lib.ValueIdx
import Idealize.ShloMosaic.PureOps.Ideal

noncomputable section

namespace Cert.Fin

open Idealize.ShloMosaic Idealize.ShloMosaic.ValueIdx

/-- An extended real whose absolute value `max x (-x)` lies strictly below `+∞` is a real number:
    at `-∞` and at `+∞` the absolute value is `+∞`. -/
theorem real_of_abs_lt_top (x : EReal) (h : max x (-x) < ⊤) : ∃ r : ℝ, x = (r : EReal) := by
  induction x using EReal.rec with
  | bot => simp at h
  | coe r => exact ⟨r, rfl⟩
  | top => simp at h

/-- The comparison word of `|x| < +∞`, the bound given by the pattern `0x7F800000` of `+∞`, is 1 only at a real `x`. -/
theorem real_of_cmp_one (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : Ideal.cmp .olt (max x (-x)) (Ideal.ofBits .f32 0x7F800000#32) = 1#1 := h
  have htop : Ideal.ofBits .f32 0x7F800000#32 = ⊤ := by simp [Ideal.ofBits, Ideal.ieee]
  rw [htop] at h'
  by_contra hn
  have h0 : Ideal.cmp .olt (max x (-x)) ⊤ = 0#1 := by simp only [Ideal.cmp, decide_eq_false hn]; rfl
  rw [h0] at h'
  exact absurd h' (by decide)

/-- A shape of rank 0 has exactly one index. -/
instance : Subsingleton Cert.Pre_finite_inputs.S_.Idx := ⟨fun a b => funext fun d => d.elim0⟩

/-- The finiteness predicate is the conjunction, over the three arrays, of "every entry has `|x| < +∞`";
    it being 1 makes every entry of every array a real number. -/
theorem real_of_pre [hP : Cert.Pre_finite_inputs.Facts]
    (a0 : (⟨3, ![2, 2048, 1024]⟩ : Shape).Idx → EReal) (a1 : (⟨2, ![3072, 1024]⟩ : Shape).Idx → EReal)
    (a2 : (⟨2, ![1024, 1024]⟩ : Shape).Idx → EReal)
    (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨fun i => real_of_cmp_one (a0 i) (Host.reduce_andi_all _ _ _ _ ix0 h0' i),
    fun i => real_of_cmp_one (a1 i) (Host.reduce_andi_all _ _ _ _ ix0 h1 i),
    fun i => real_of_cmp_one (a2 i) (Host.reduce_andi_all _ _ _ _ ix0 h2 i)⟩

end Cert.Fin

end
-- ==== Proof.lean ====
/-
  Multi-head attention over x[2, 2048, 1024] with a fused projection weight W_in[3072, 1024] and an output weight
  W_out[1024, 1024]: a Pallas program of two launches against a jnp reference.

  The kernel program projects the input in eight row blocks (values, keys and queries in one [4096, 3072] product),
  lays the three bands out by head on the host, and then runs one grid point per (batch, half of the query rows,
  head): logits q·kᵀ/8 over all 2048 keys, their row maximum and the weights exp(logit − max), the product with the
  values NORMALISED AFTERWARDS by 1/Σ weights, and the head's share of the output projection added into an accumulator
  that is reset at head 0 and written out at head 15.  The reference normalises the weights first (softmax), lays the
  sixteen heads side by side and projects once.

  On the extended reals the two agree wherever every input entry is a real number: then every logit, maximum, weight
  and normaliser is real, the normaliser is positive, (Σ_t w_t v_t) · (1 / L) = Σ_t (w_t / L) v_t, and a sum over 1024
  features is the sum over 16 heads of sums over 64 features.  The precondition — every input finite — is used exactly
  there.  The three frames say that each program runs to the end without a fault and leaves its arguments as it found
  them; the idealization rewrote nothing, so its conjunct is trivial.
-/
import proofs.«415323_j1580547966014_3_alg».proof.Defs
import proofs.«415323_j1580547966014_3_alg».proof.Proof.Gen.Kernel
import proofs.«415323_j1580547966014_3_alg».proof.Proof.Gen.KernelIdeal
import proofs.«415323_j1580547966014_3_alg».proof.Proof.Gen.ReferenceIdeal
import proofs.«415323_j1580547966014_3_alg».proof.Proof.Gen.Pre_finite_inputs
import proofs.«415323_j1580547966014_3_alg».proof.Proof.Gen.ReferenceIdeal.Run
import proofs.«415323_j1580547966014_3_alg».proof.Proof.FrB.Run
import proofs.«415323_j1580547966014_3_alg».proof.Proof.Fr.Run
import proofs.«415323_j1580547966014_3_alg».proof.Proof.Val.Kernel
import proofs.«415323_j1580547966014_3_alg».proof.Proof.RefValue
import proofs.«415323_j1580547966014_3_alg».proof.Proof.Algebra
import proofs.«415323_j1580547966014_3_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its arguments unchanged: its run, the result forgotten. -/
theorem frame_k [Cert.Kernel.Facts] [Cert.Pre_finite_inputs.Facts] : Cert.frame_Kernel := fun m ρ _ =>
  (θ_run Cert.Kernel.defs _ _).mono (fun _ h c => (h c).2) (Cert.Kernel.Fr.run_main (F := Bits) m ρ)

/-- The idealized program likewise. -/
theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Fr.run_main (F := Ideal) m ρ)

/-- The reference is host operations only: its run, the result forgotten. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with the same [2, 2048, 1024] array: the kernel program at the late-normalised
    head-after-head arrangement of the arguments, the reference at the early-normalised one-projection arrangement,
    and the two arrangements agree because the precondition makes every argument entry a real number. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Mha.lateOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Val.kernel_value m c), (h c).2⟩)
      (Cert.KernelIdeal.Fr.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.RefSide.result_eq, (hagree c).1, (hagree c).2.1, (hagree c).2.2]
    obtain ⟨h0, h1, h2⟩ := Cert.Fin.real_of_pre _ _ _ (hpre c)
    funext i
    exact (Cert.Mha.outLate_eq_outEarly _ _ _ (fun b s k => h0 _) (fun e k => h1 _) (fun o d => h2 _) (i 0) (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
